-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048 : Shape := ⟨1, ![2048]⟩
abbrev S65536x128 : Shape := ⟨2, ![65536, 128]⟩
abbrev S65536 : Shape := ⟨1, ![65536]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S2048x128 .f32) (main_arg1 : IVec S2048 32) (main_arg2 : FVec F S65536x128 .f32) (main_arg3 : IVec S65536 32) (main_arg4 : IVec S2048 32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S65536x128 .f32 := Host.absf main_arg2
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg3 main_v9
  let main_c_3 : IVec S_ 32 := constantI S_ 32 512#32
  let main_v11 : IVec S65536 32 := broadcastInDim S65536 ![] bcast_S_S65536 main_c_3
  let main_v12 : IVec S65536 1 := cmpi .slt main_arg3 main_v11
  let main_v13 : IVec S65536 1 := andi main_v10 main_v12
  let main_c_4 : IVec S_ 1 := constantI S_ 1 1#1
  let main_v14 : IVec S_ 1 := (fun x v => Host.reduce IntOp.andi x v reducesTo_S65536_S_d0 h_S_) main_v13 main_c_4
  let main_v15 : IVec S_ 1 := andi main_v8 main_v14
  main_v15
-- ==== Kernel.lean ====
abbrev S2048x128 : Shape := ⟨2, ![2048, 128]⟩
abbrev S2048 : Shape := ⟨1, ![2048]⟩
abbrev S65536x128 : Shape := ⟨2, ![65536, 128]⟩
abbrev S65536 : Shape := ⟨1, ![65536]⟩
abbrev S65536x1 : Shape := ⟨2, ![65536, 1]⟩
abbrev S2x512x128 : Shape := ⟨3, ![2, 512, 128]⟩
abbrev S2x1x512 : Shape := ⟨3, ![2, 1, 512]⟩
abbrev S2048x1 : Shape := ⟨2, ![2048, 1]⟩
abbrev S1x512x128 : Shape := ⟨3, ![1, 512, 128]⟩
abbrev S1x1x512 : Shape := ⟨3, ![1, 1, 512]⟩
abbrev S512x128 : Shape := ⟨2, ![512, 128]⟩
abbrev S1x512 : Shape := ⟨2, ![1, 512]⟩
abbrev S2048x512 : Shape := ⟨2, ![2048, 512]⟩
abbrev S512 : Shape := ⟨1, ![512]⟩
abbrev S_ : Shape := ⟨0, ![]⟩
abbrev S2x1x1 : Shape := ⟨3, ![2, 1, 1]⟩
abbrev S1024x128 : Shape := ⟨2, ![1024, 128]⟩
abbrev S1024x1 : Shape := ⟨2, ![1024, 1]⟩
abbrev S1x1x1 : Shape := ⟨3, ![1, 1, 1]⟩
abbrev S1x1 : Shape := ⟨2, ![1, 1]⟩
abbrev S512x1 : Shape := ⟨2, ![512, 1]⟩
abbrev S1024x512 : Shape := ⟨2, ![1024, 512]⟩
abbrev S1024 : Shape := ⟨1, ![1024]⟩
abbrev S1 : Shape := ⟨1, ![1]⟩

abbrev nBuf : Space → Nat
  | .hbm => 57
  | .vmem => 25
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S65536x128, .f32⟩
  | .hbm, ⟨3, _⟩ => ⟨S65536, .i32⟩
  | .hbm, ⟨4, _⟩ => ⟨S2048, .i32⟩
  | .hbm, ⟨5, _⟩ => ⟨S65536x1, .i32⟩
  | .hbm, ⟨6, _⟩ => ⟨S2x512x128, .f32⟩
  | .hbm, ⟨7, _⟩ => ⟨S2x1x512, .f32⟩
  | .hbm, ⟨8, _⟩ => ⟨S1x512x128, .f32⟩
  | .hbm, ⟨9, _⟩ => ⟨S512x128, .f32⟩
  | .hbm, ⟨10, _⟩ => ⟨S1x512x128, .f32⟩
  | .hbm, ⟨11, _⟩ => ⟨S512x128, .f32⟩
  | .hbm, ⟨12, _⟩ => ⟨S512x128, .f32⟩
  | .hbm, ⟨13, _⟩ => ⟨S1x1x512, .f32⟩
  | .hbm, ⟨14, _⟩ => ⟨S1x512, .f32⟩
  | .hbm, ⟨15, _⟩ => ⟨S1x1x512, .f32⟩
  | .hbm, ⟨16, _⟩ => ⟨S1x512, .f32⟩
  | .hbm, ⟨17, _⟩ => ⟨S1x512, .f32⟩
  | .hbm, ⟨18, _⟩ => ⟨S512, .f32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048, .i32⟩
  | .hbm, ⟨28, _⟩ => ⟨S2048x1, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S2048x1, .i32⟩
  | .hbm, ⟨37, _⟩ => ⟨S2048x128, .f32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S2048, .f32⟩
  | .hbm, ⟨47, _⟩ => ⟨S2048x1, .f32⟩
  | .hbm, ⟨48, _⟩ => ⟨S2x1x1, .f32⟩
  | .hbm, ⟨49, _⟩ => ⟨S1x1x1, .f32⟩
  | .hbm, ⟨50, _⟩ => ⟨S_, .f32⟩
  | .hbm, ⟨51, _⟩ => ⟨S1x1x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x1, .i32⟩
  | .local _ .vmem, ⟨3, _⟩ => ⟨S2048x1, .i32⟩
  | .local _ .vmem, ⟨4, _⟩ => ⟨S1x512x128, .f32⟩
  | .local _ .vmem, ⟨5, _⟩ => ⟨S1x512x128, .f32⟩
  | .local _ .vmem, ⟨6, _⟩ => ⟨S1x1x512, .f32⟩
  | .local _ .vmem, ⟨7, _⟩ => ⟨S1x1x512, .f32⟩
  | .local _ .vmem, ⟨8, _⟩ => ⟨S512x128, .f32⟩
  | .local _ .vmem, ⟨9, _⟩ => ⟨S1x512, .f32⟩
  | .local _ .vmem, ⟨10, _⟩ => ⟨S1024x128, .f32⟩
  | .local _ .vmem, ⟨11, _⟩ => ⟨S1024x128, .f32⟩
  | .local _ .vmem, ⟨12, _⟩ => ⟨S1024x1, .i32⟩
  | .local _ .vmem, ⟨13, _⟩ => ⟨S1024x1, .i32⟩
  | .local _ .vmem, ⟨14, _⟩ => ⟨S1024x128, .f32⟩
  | .local _ .vmem, ⟨15, _⟩ => ⟨S1024x128, .f32⟩
  | .local _ .vmem, ⟨16, _⟩ => ⟨S1024x1, .f32⟩
  | .local _ .vmem, ⟨17, _⟩ => ⟨S1024x1, .f32⟩
  | .local _ .vmem, ⟨18, _⟩ => ⟨S512x128, .f32⟩
  | .local _ .vmem, ⟨19, _⟩ => ⟨S1x512, .f32⟩
  | .local _ .vmem, ⟨20, _⟩ => ⟨S1x1x1, .f32⟩
  | .local _ .vmem, ⟨21, _⟩ => ⟨S1x1x1, .f32⟩
  | .local _ .vmem, ⟨22, _⟩ => ⟨S1x1, .f32⟩
  | .local _ .vmem, ⟨23, _⟩ => ⟨S512x128, .f32⟩
  | .local _ .vmem, ⟨24, _⟩ => ⟨S1x512, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst : Ref sig .tc := ⟨.hbm, 54, rfl⟩
abbrev main_v42 : Ref sig .tc := ⟨.hbm, 55, rfl⟩
abbrev main_v43 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 1], ![false, false]⟩

def k1_cond2 (i : grid1.Coords) : BitVec 1 :=
  let arg1 : BitVec 32 := BitVec.ofNat 32 (i 1).val
  let c0_i32_32 : BitVec 32 := 0#32
  let v79 : BitVec 1 := Scalar.cmpi .eq arg1 c0_i32_32
  let v80 : BitVec 32 := Scalar.extui v79
  let c0_i32_33 : BitVec 32 := 0#32
  let v81 : BitVec 1 := Scalar.cmpi .ne v80 c0_i32_33
  v81

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S512x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S65536_S65536x1 : S65536.ShapeCasts S65536x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x512_d1_w32 : S2048x512.Iotas .tc 32 [1]
  broadcasts_S2048x1_S2048x512 : S2048x1.Broadcasts S2048x512
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  natLt_1_32 : 1 < 32
  reduces_S2048x512_S512 : S2048x512.Reduces [0] S512
  shapeCasts_S512_S1x512 : S512.ShapeCasts S1x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  slices_S2x512x128_S1x512x128_0_0_0 : S2x512x128.Slices ![0, 0, 0] S1x512x128
  slices_S2x512x128_S1x512x128_1_0_0 : S2x512x128.Slices ![1, 0, 0] S1x512x128
  slices_S2x1x512_S1x1x512_0_0_0 : S2x1x512.Slices ![0, 0, 0] S1x1x512
  slices_S2x1x512_S1x1x512_1_0_0 : S2x1x512.Slices ![1, 0, 0] S1x1x512
  shapeCasts_S1x512_S512 : S1x512.ShapeCasts S512
  bcast_S_S2048 : S_.BroadcastsInDim S2048 (![] : Fin 0 → Fin S2048.rank)
  bcast_S2048_S2048x1_0 : S2048.BroadcastsInDim S2048x1 (![0] : Fin 1 → Fin S2048x1.rank)
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  transposes_S1x512_p1_0_S512x1 : S1x512.Transposes [1, 0] S512x1
  broadcasts_S512x1_S512x128 : S512x1.Broadcasts S512x128
  reduces_S512x128_S512 : S512x128.Reduces [1] S512
  shapeCasts_S512_S512x1 : S512.ShapeCasts S512x1
  transposes_S512x1_p1_0_S1x512 : S512x1.Transposes [1, 0] S1x512
  inb_S1024x128_S1024x128_0_0 : ∀ a, (![0, 0] : Fin 2 → Nat) a + S1024x128.size a ≤ S1024x128.size a
  h_S1024x128 : 0 < S1024x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x512_d1_w32 : S1024x512.Iotas .tc 32 [1]
  broadcasts_S1024x1_S1024x512 : S1024x1.Broadcasts S1024x512
  shapeCasts_S1024x128_S1024x128 : S1024x128.ShapeCasts S1024x128
  broadcasts_S1024x1_S1024x128 : S1024x1.Broadcasts S1024x128
  reduces_S1024x128_S1024 : S1024x128.Reduces [1] S1024
  shapeCasts_S1024_S1024x1 : S1024.ShapeCasts S1024x1
  broadcasts_S1x512_S1024x512 : S1x512.Broadcasts S1024x512
  reduces_S1024x512_S1024 : S1024x512.Reduces [1] S1024
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  shapeCasts_S_S_ : S_.ShapeCasts S_
  dot_S2048x512_S2048x128_S512x128_0_0_1_1_n_n_wf : DotDims.WF S2048x512 S2048x128 S512x128 [0] [0] [1] [1] [] []
  gather_S65536_S2048x1_S2048_n_0_n_n_0_1_1_wf : GatherDims.WF S65536 S2048x1 S2048 [] [0] [] [0] [] 1 ![1]
  gather_S512x128_S2048x1_S2048x128_1_0_n_n_0_1_1128_wf : GatherDims.WF S512x128 S2048x1 S2048x128 [1] [0] [] [0] [] 1 ![1, 128]
  gather_S512_S2048x1_S2048_n_0_n_n_0_1_1_wf : GatherDims.WF S512 S2048x1 S2048 [] [0] [] [0] [] 1 ![1]
  dot_S1024x128_S512x128_S1024x512_1_1_0_0_n_n_wf : DotDims.WF S1024x128 S512x128 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S2x512x128.size a
  hwx0_2 : ∀ i : grid0.Coords, EltTy.bits .f32 = 32 ∨ (Rect.block (s := S2x512x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S2x1x512.size a
  hwx0_3 : ∀ i : grid0.Coords, EltTy.bits .f32 = 32 ∨ (Rect.block (s := S2x1x512) S1x1x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S2048x128.size a
  hwx1_0 : ∀ i : grid1.Coords, EltTy.bits .f32 = 32 ∨ (Rect.block (s := S2048x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S2048x1.size a
  hwx1_1 : ∀ i : grid1.Coords, EltTy.bits .i32 = 32 ∨ (Rect.block (s := S2048x1) S1024x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S2048x128.size a
  hwx1_2 : ∀ i : grid1.Coords, EltTy.bits .f32 = 32 ∨ (Rect.block (s := S2048x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S2048x1.size a
  hwx1_3 : ∀ i : grid1.Coords, EltTy.bits .f32 = 32 ∨ (Rect.block (s := S2048x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x128.size a
  hwx1_4 : ∀ i : grid1.Coords, EltTy.bits .f32 = 32 ∨ (Rect.block (s := S512x128) S512x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x1.size a ≤ S2x1x1.size a
  hwx1_6 : ∀ i : grid1.Coords, EltTy.bits .f32 = 32 ∨ (Rect.block (s := S2x1x1) S1x1x1.size (cc1_transform_6 i) (hinb1_6 i)).WholeWords (EltTy.packing .f32)

variable [Facts₀]

def dot_S2048x512_S2048x128_S512x128_0_0_1_1_n_n : DotDims S2048x512 S2048x128 S512x128 where
  lhsContracting := [0]
  rhsContracting := [0]
  lhsNonContracting := [1]
  rhsNonContracting := [1]
  lhsBatch := []
  rhsBatch := []
  wf := dot_S2048x512_S2048x128_S512x128_0_0_1_1_n_n_wf
def gather_S65536_S2048x1_S2048_n_0_n_n_0_1_1 : GatherDims S65536 S2048x1 S2048 where
  offsetDims := []
  collapsedSliceDims := [0]
  operandBatchingDims := []
  startIndicesBatchingDims := []
  startIndexMap := [0]
  indexVectorDim := 1
  sliceSizes := ![1]
  wf := gather_S65536_S2048x1_S2048_n_0_n_n_0_1_1_wf
def gather_S512x128_S2048x1_S2048x128_1_0_n_n_0_1_1128 : GatherDims S512x128 S2048x1 S2048x128 where
  offsetDims := [1]
  collapsedSliceDims := [0]
  operandBatchingDims := []
  startIndicesBatchingDims := []
  startIndexMap := [0]
  indexVectorDim := 1
  sliceSizes := ![1, 128]
  wf := gather_S512x128_S2048x1_S2048x128_1_0_n_n_0_1_1128_wf
def gather_S512_S2048x1_S2048_n_0_n_n_0_1_1 : GatherDims S512 S2048x1 S2048 where
  offsetDims := []
  collapsedSliceDims := [0]
  operandBatchingDims := []
  startIndicesBatchingDims := []
  startIndexMap := [0]
  indexVectorDim := 1
  sliceSizes := ![1]
  wf := gather_S512_S2048x1_S2048_n_0_n_n_0_1_1_wf
def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf

abbrev win0_0 : Pipeline.Window sig grid0 :=
  Pipeline.Window.ofSpec (Memref.whole main_arg2) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S512x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x1x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S2048x128 : Shape := ⟨2, ![2048, 128]⟩
abbrev S2048 : Shape := ⟨1, ![2048]⟩
abbrev S65536x128 : Shape := ⟨2, ![65536, 128]⟩
abbrev S65536 : Shape := ⟨1, ![65536]⟩
abbrev S512 : Shape := ⟨1, ![512]⟩
abbrev S65536x1 : Shape := ⟨2, ![65536, 1]⟩
abbrev S1x512 : Shape := ⟨2, ![1, 512]⟩
abbrev S65536x512 : Shape := ⟨2, ![65536, 512]⟩
abbrev S_ : Shape := ⟨0, ![]⟩
abbrev S2048x1 : Shape := ⟨2, ![2048, 1]⟩
abbrev S2048x512 : Shape := ⟨2, ![2048, 512]⟩
abbrev S512x65536 : Shape := ⟨2, ![512, 65536]⟩
abbrev S512x128 : Shape := ⟨2, ![512, 128]⟩
abbrev S1x512x128 : Shape := ⟨3, ![1, 512, 128]⟩
abbrev S2048x512x1 : Shape := ⟨3, ![2048, 512, 1]⟩
abbrev S2048x1x128 : Shape := ⟨3, ![2048, 1, 128]⟩
abbrev S2048x512x128 : Shape := ⟨3, ![2048, 512, 128]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 116
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S65536x128, .f32⟩
  | .hbm, ⟨3, _⟩ => ⟨S65536, .i32⟩
  | .hbm, ⟨4, _⟩ => ⟨S2048, .i32⟩
  | .hbm, ⟨5, _⟩ => ⟨S512, .i32⟩
  | .hbm, ⟨6, _⟩ => ⟨S65536x1, .i32⟩
  | .hbm, ⟨7, _⟩ => ⟨S1x512, .i32⟩
  | .hbm, ⟨8, _⟩ => ⟨S65536x512, .i32⟩
  | .hbm, ⟨9, _⟩ => ⟨S65536x512, .i32⟩
  | .hbm, ⟨10, _⟩ => ⟨S65536x512, .i1⟩
  | .hbm, ⟨11, _⟩ => ⟨S65536x512, .i32⟩
  | .hbm, ⟨12, _⟩ => ⟨S_, .i32⟩
  | .hbm, ⟨13, _⟩ => ⟨S512, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S2048x1, .i32⟩
  | .hbm, ⟨22, _⟩ => ⟨S2048x512, .i1⟩
  | .hbm, ⟨23, _⟩ => ⟨S2048x512, .i32⟩
  | .hbm, ⟨24, _⟩ => ⟨S_, .i1⟩
  | .hbm, ⟨25, _⟩ => ⟨S_, .i32⟩
  | .hbm, ⟨26, _⟩ => ⟨S2048, .i1⟩
  | .hbm, ⟨27, _⟩ => ⟨S2048, .i32⟩
  | .hbm, ⟨28, _⟩ => ⟨S65536x512, .f32⟩
  | .hbm, ⟨29, _⟩ => ⟨S512x65536, .f32⟩
  | .hbm, ⟨30, _⟩ => ⟨S512x128, .f32⟩
  | .hbm, ⟨31, _⟩ => ⟨S2048x1, .i32⟩
  | .hbm, ⟨32, _⟩ => ⟨S1x512, .i32⟩
  | .hbm, ⟨33, _⟩ => ⟨S2048x512, .i32⟩
  | .hbm, ⟨34, _⟩ => ⟨S2048x512, .i32⟩
  | .hbm, ⟨35, _⟩ => ⟨S2048x512, .i1⟩
  | .hbm, ⟨36, _⟩ => ⟨S2048x512, .f32⟩
  | .hbm, ⟨37, _⟩ => ⟨S1x512x128, .f32⟩
  | .hbm, ⟨38, _⟩ => ⟨S2048x512x1, .f32⟩
  | .hbm, ⟨39, _⟩ => ⟨S2048x1x128, .f32⟩
  | .hbm, ⟨40, _⟩ => ⟨S2048x512x128, .f32⟩
  | .hbm, ⟨41, _⟩ => ⟨S2048x512x128, .f32⟩
  | .hbm, ⟨42, _⟩ => ⟨S2048x512x128, .f32⟩
  | .hbm, ⟨43, _⟩ => ⟨S2048x512x128, .f32⟩
  | .hbm, ⟨44, _⟩ => ⟨S2048x512x128, .f32⟩
  | .hbm, ⟨45, _⟩ => ⟨S1x512, .i32⟩
  | .hbm, ⟨46, _⟩ => ⟨S1x512, .f32⟩
  | .hbm, ⟨47, _⟩ => ⟨S2048x512, .f32⟩
  | .hbm, ⟨48, _⟩ => ⟨S2048x512, .f32⟩
  | .hbm, ⟨49, _⟩ => ⟨S_, .f32⟩
  | .hbm, ⟨50, _⟩ => ⟨S2048x512, .f32⟩
  | .hbm, ⟨51, _⟩ => ⟨S2048x512, .f32⟩
  | .hbm, ⟨52, _⟩ => ⟨S2048x512x1, .f32⟩
  | .hbm, ⟨53, _⟩ => ⟨S2048x512x128, .f32⟩
  | .hbm, ⟨54, _⟩ => ⟨S2048x512x128, .f32⟩
  | .hbm, ⟨55, _⟩ => ⟨S2048x1x128, .f32⟩
  | .hbm, ⟨56, _⟩ => ⟨S2048x512x128, .f32⟩
  | .hbm, ⟨57, _⟩ => ⟨S2048x512x128, .f32⟩
  | .hbm, ⟨58, _⟩ => ⟨S2048x512x128, .f32⟩
  | .hbm, ⟨59, _⟩ => ⟨S_, .f32⟩
  | .hbm, ⟨60, _⟩ => ⟨S2048x512, .f32⟩
  | .hbm, ⟨61, _⟩ => ⟨S_, .f32⟩
  | .hbm, ⟨62, _⟩ => ⟨S2048x512, .f32⟩
  | .hbm, ⟨63, _⟩ => ⟨S2048x512, .f32⟩
  | .hbm, ⟨64, _⟩ => ⟨S_, .f32⟩
  | .hbm, ⟨65, _⟩ => ⟨S2048x512, .f32⟩
  | .hbm, ⟨66, _⟩ => ⟨S2048x512, .i1⟩
  | .hbm, ⟨67, _⟩ => ⟨S2048x512, .f32⟩
  | .hbm, ⟨68, _⟩ => ⟨S2048x512, .f32⟩
  | .hbm, ⟨69, _⟩ => ⟨S_, .f32⟩
  | .hbm, ⟨70, _⟩ => ⟨S2048x512, .f32⟩
  | .hbm, ⟨71, _⟩ => ⟨S2048x512, .f32⟩
  | .hbm, ⟨72, _⟩ => ⟨S_, .f32⟩
  | .hbm, ⟨73, _⟩ => ⟨S2048, .f32⟩
  | .hbm, ⟨74, _⟩ => ⟨S_, .f32⟩
  | .hbm, ⟨75, _⟩ => ⟨S2048, .f32⟩
  | .hbm, ⟨76, _⟩ => ⟨S2048, .f32⟩
  | .hbm, ⟨77, _⟩ => ⟨S2048x1, .f32⟩
  | .hbm, ⟨78, _⟩ => ⟨S2048x512, .f32⟩
  | .hbm, ⟨79, _⟩ => ⟨S2048x512, .f32⟩
  | .hbm, ⟨80, _⟩ => ⟨S2048x512, .f32⟩
  | .hbm, ⟨81, _⟩ => ⟨S_, .f32⟩
  | .hbm, ⟨82, _⟩ => ⟨S2048, .f32⟩
  | .hbm, ⟨83, _⟩ => ⟨S2048x1, .f32⟩
  | .hbm, ⟨84, _⟩ => ⟨S2048x1, .f32⟩
  | .hbm, ⟨85, _⟩ => ⟨S2048x512, .f32⟩
  | .hbm, ⟨86, _⟩ => ⟨S2048x512, .f32⟩
  | .hbm, ⟨87, _⟩ => ⟨S2048x1, .i32⟩
  | .hbm, ⟨88, _⟩ => ⟨S_, .i32⟩
  | .hbm, ⟨89, _⟩ => ⟨S2048x1, .i32⟩
  | .hbm, ⟨90, _⟩ => ⟨S2048x1, .i1⟩
  | .hbm, ⟨91, _⟩ => ⟨S_, .i32⟩
  | .hbm, ⟨92, _⟩ => ⟨S2048x1, .i32⟩
  | .hbm, ⟨93, _⟩ => ⟨S2048x1, .i32⟩
  | .hbm, ⟨94, _⟩ => ⟨S2048x1, .i32⟩
  | .hbm, ⟨95, _⟩ => ⟨S2048x1x1, .i32⟩
  | .hbm, ⟨96, _⟩ => ⟨S1, .i32⟩
  | .hbm, ⟨97, _⟩ => ⟨S_, .i32⟩
  | .hbm, ⟨98, _⟩ => ⟨S2048x1x1, .i32⟩
  | .hbm, ⟨99, _⟩ => ⟨S2048x1x1, .i1⟩
  | .hbm, ⟨100, _⟩ => ⟨S1x1x1, .i32⟩
  | .hbm, ⟨101, _⟩ => ⟨S2048x1x1, .i32⟩
  | .hbm, ⟨102, _⟩ => ⟨S2048x1x1, .i1⟩
  | .hbm, ⟨103, _⟩ => ⟨S2048x1x1, .i1⟩
  | .hbm, ⟨104, _⟩ => ⟨S_, .i1⟩
  | .hbm, ⟨105, _⟩ => ⟨S2048x1, .i1⟩
  | .hbm, ⟨106, _⟩ => ⟨S2048x1, .f32⟩
  | .hbm, ⟨107, _⟩ => ⟨S_, .f32⟩
  | .hbm, ⟨108, _⟩ => ⟨S2048x1, .f32⟩
  | .hbm, ⟨109, _⟩ => ⟨S2048x1, .f32⟩
  | .hbm, ⟨110, _⟩ => ⟨S2048, .f32⟩
  | .hbm, ⟨111, _⟩ => ⟨S2048, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_c : Ref sig .tc := ⟨.hbm, 24, rfl⟩
abbrev main_call0_c_0 : Ref sig .tc := ⟨.hbm, 25, rfl⟩
abbrev main_call0_v1_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_2 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_call1_cst : Ref sig .tc := ⟨.hbm, 72, rfl⟩
abbrev main_call1_v0 : Ref sig .tc := ⟨.hbm, 73, rfl⟩
abbrev main_call1_cst_0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_cst_1 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_v55 : Ref sig .tc := ⟨.hbm, 86, rfl⟩
abbrev main_v56 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_cst : Ref sig .tc := ⟨.hbm, 107, rfl⟩
abbrev main_call2_v14 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_6 : Ref sig .tc := ⟨.hbm, 112, rfl⟩
abbrev main_v60 : Ref sig .tc := ⟨.hbm, 113, rfl⟩
abbrev main_cst_7 : Ref sig .tc := ⟨.hbm, 114, rfl⟩
abbrev main_v61 : Ref sig .tc := ⟨.hbm, 115, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  natLt_1_32 : 1 < 32
  reducesTo_S65536x512_S512_d0 : S65536x512.ReducesTo [0] S512
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  reducesTo_S2048x512_S2048_d1 : S2048x512.ReducesTo [1] S2048
  transposes_S65536x512_S512x65536_1_0 : S65536x512.Transposes [1, 0] S512x65536
  bcast_S2048x1_S2048x512_0_1 : S2048x1.BroadcastsInDim S2048x512 (![0, 1] : Fin 2 → Fin S2048x512.rank)
  bcast_S1x512_S2048x512_0_1 : S1x512.BroadcastsInDim S2048x512 (![0, 1] : Fin 2 → Fin S2048x512.rank)
  bcast_S512x128_S1x512x128_1_2 : S512x128.BroadcastsInDim S1x512x128 (![1, 2] : Fin 2 → Fin S1x512x128.rank)
  bcast_S2048x512_S2048x512x1_0_1 : S2048x512.BroadcastsInDim S2048x512x1 (![0, 1] : Fin 2 → Fin S2048x512x1.rank)
  bcast_S2048x128_S2048x1x128_0_2 : S2048x128.BroadcastsInDim S2048x1x128 (![0, 2] : Fin 2 → Fin S2048x1x128.rank)
  bcast_S2048x512x1_S2048x512x128_0_1_2 : S2048x512x1.BroadcastsInDim S2048x512x128 (![0, 1, 2] : Fin 3 → Fin S2048x512x128.rank)
  bcast_S2048x1x128_S2048x512x128_0_1_2 : S2048x1x128.BroadcastsInDim S2048x512x128 (![0, 1, 2] : Fin 3 → Fin S2048x512x128.rank)
  bcast_S1x512x128_S2048x512x128_0_1_2 : S1x512x128.BroadcastsInDim S2048x512x128 (![0, 1, 2] : Fin 3 → Fin S2048x512x128.rank)
  bcast_S_S2048x512 : S_.BroadcastsInDim S2048x512 (![] : Fin 0 → Fin S2048x512.rank)
  reducesTo_S2048x512x128_S2048x512_d2 : S2048x512x128.ReducesTo [2] S2048x512
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  gather_S65536x512_S2048x1_S2048x512_1_0_n_n_0_1_1512_wf : GatherDims.WF S65536x512 S2048x1 S2048x512 [1] [0] [] [0] [] 1 ![1, 512]
  dot_S512x65536_S65536x128_S512x128_1_0_0_1_n_n_wf : DotDims.WF S512x65536 S65536x128 S512x128 [1] [0] [0] [1] [] []
  gather_S2048x512_S2048x1x1_S2048x1_n_1_0_0_1_2_11_wf : GatherDims.WF S2048x512 S2048x1x1 S2048x1 [] [1] [0] [1] [0] 2 ![1, 1]

variable [Facts₀]

def gather_S65536x512_S2048x1_S2048x512_1_0_n_n_0_1_1512 : GatherDims S65536x512 S2048x1 S2048x512 where
  offsetDims := [1]
  collapsedSliceDims := [0]
  operandBatchingDims := []
  startIndicesBatchingDims := []
  startIndexMap := [0]
  indexVectorDim := 1
  sliceSizes := ![1, 512]
  wf := gather_S65536x512_S2048x1_S2048x512_1_0_n_n_0_1_1512_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S512x65536_S65536x128_S512x128_1_0_0_1_n_n : DotDims S512x65536 S65536x128 S512x128 where
  lhsContracting := [1]
  rhsContracting := [0]
  lhsNonContracting := [0]
  rhsNonContracting := [1]
  lhsBatch := []
  rhsBatch := []
  wf := dot_S512x65536_S65536x128_S512x128_1_0_0_1_n_n_wf
def gather_S2048x512_S2048x1x1_S2048x1_n_1_0_0_1_2_11 : GatherDims S2048x512 S2048x1x1 S2048x1 where
  offsetDims := []
  collapsedSliceDims := [1]
  operandBatchingDims := [0]
  startIndicesBatchingDims := [0]
  startIndexMap := [1]
  indexVectorDim := 2
  sliceSizes := ![1, 1]
  wf := gather_S2048x512_S2048x1x1_S2048x1_n_1_0_0_1_2_11_wf

class Facts : Prop extends Facts₀ where

variable [Facts]
-- ==== Proof.KI.R0Def.lean ====
/-
  The reduction call (grid 2 × 16 over the support set): what its two accumulators hold after each grid point,
  and the proof data of its pipeline.

  Point `t` reads tile `t` of the support vectors and labels.  The class-sum accumulator after point `t` is the tile's
  one-hot-transposed product added to what the point before left — to zero at the first tile of a half —, the count
  accumulator likewise with the tile's column sums of the one-hot matrix.  The two result windows are stored, from the
  accumulators, at the last tile of a half only.
-/
import proofs.«413345_j40647570489383_3_alg».proof.Proof.Gen.KernelIdeal.Skeleton
import proofs.«413345_j40647570489383_3_alg».proof.Proof.Gen.KernelIdeal.Launch
import proofs.«413345_j40647570489383_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Tile `t` of the support vectors, and of the labels. -/
abbrev xs0 (c : Dev nD) (t : Fin cfg0.N) : Vec F S2048x128 .f32 := iblk0 V c 0 t
abbrev ys0 (c : Dev nD) (t : Fin cfg0.N) : Vec F S2048x1 .i32 := iblk0 V c 1 t

/-- The two accumulators (class sums, class counts) after point `n`: reset at the first tile of a half. -/
def acc0 (c : Dev nD) : (n : ℕ) → n < cfg0.N → Vec F S512x128 .f32 × Vec F S1x512 .f32
  | 0, hn => (k0_pay4 (ys0 V c ⟨0, hn⟩) (xs0 V c ⟨0, hn⟩) k0_pay1, k0_pay5 (ys0 V c ⟨0, hn⟩) k0_pay2)
  | n + 1, hn =>
    if (n + 1) % 16 = 0 then
      (k0_pay4 (ys0 V c ⟨n + 1, hn⟩) (xs0 V c ⟨n + 1, hn⟩) k0_pay1, k0_pay5 (ys0 V c ⟨n + 1, hn⟩) k0_pay2)
    else
      (k0_pay4 (ys0 V c ⟨n + 1, hn⟩) (xs0 V c ⟨n + 1, hn⟩) (acc0 c n (Nat.lt_of_succ_lt hn)).1,
        k0_pay5 (ys0 V c ⟨n + 1, hn⟩) (acc0 c n (Nat.lt_of_succ_lt hn)).2)

theorem acc0_first (c : Dev nD) (t : Fin cfg0.N) (h : t.val % 16 = 0) :
    acc0 V c t.val t.isLt = (k0_pay4 (ys0 V c t) (xs0 V c t) k0_pay1, k0_pay5 (ys0 V c t) k0_pay2) := by
  obtain ⟨n, hn⟩ := t
  cases n with
  | zero => rfl
  | succ n => exact (if_pos h).trans rfl

theorem acc0_next (c : Dev nD) (t : Fin cfg0.N) (h : ¬t.val % 16 = 0) :
    acc0 V c t.val t.isLt
      = (k0_pay4 (ys0 V c t) (xs0 V c t) (acc0 V c (t.val - 1) (Nat.lt_of_le_of_lt (Nat.sub_le _ _) t.isLt)).1,
          k0_pay5 (ys0 V c t) (acc0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The scoped buffers of the other call, which this one never touches: each whole at some contents. -/
def oth0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ (∃ f : Buf (Elt F) ((c : Thread nD τ).loc cc1_scratch2), ((c : Thread nD τ).loc cc1_scratch2) ↦{fullShare} f))

/-- The two scratch accumulators as whole memrefs. -/
abbrev scA : Memref sig .tc .vmem S512x128 .f32 := Memref.whole cc0_scratch0
abbrev scB : Memref sig .tc .vmem S1x512 .f32 := Memref.whole cc0_scratch1

/-- The region invariant before position `n`: before the first point every scoped buffer at anything; afterwards the two
    accumulators at what the point before left, the other scoped buffers at anything, the generator register at some state. -/
def Phi0 (c : Dev nD) : (n : ℕ) → n ≤ cfg0.N → sProp 𝕄
  | 0, _ => Pipeline.ΦA spec0 c
  | n + 1, hn => iprop(owns (c : Thread nD τ) scA fullShare (acc0 V c n hn).1 ∗ owns (c : Thread nD τ) scB fullShare (acc0 V c n hn).2
      ∗ oth0 (F := F) c ∗ ∃ r, prngReg c r)

/-- The pipeline's proof data: the arrays as the region finds them; the inputs' buffers at their blocks, the result
    windows' at the accumulators re-laid (read only where they are written back: the last tile of a half). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (acc0 V c t.val t.isLt).1
    | ⟨3, _⟩ => k0_pay7 (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (acc0 V c t.val t.isLt).1 := by dsimp only [dat0]
theorem after0_3 (c : Dev nD) (t : Fin cfg0.N) : (dat0 V c).after 3 t = k0_pay7 (acc0 V c t.val t.isLt).2 := by dsimp only [dat0]

end Cert.KernelIdeal.Hand

end
-- ==== Proof.KI.R1Def.lean ====
/-
  The finalize call (grid 2 × 1 over the queries): what it stores, and the proof data of its pipeline.

  Each point recomputes the plain prototypes and their squared norms from the class sums and counts, then, for its 1024
  queries, the own-class logit from the gathered rows, the generic logits through the expanded square, the masked
  log-sum-exp and the sum of the rows' losses; nothing is carried from one point to the next.
-/
import proofs.«413345_j40647570489383_3_alg».proof.Proof.Gen.KernelIdeal.Skeleton
import proofs.«413345_j40647570489383_3_alg».proof.Proof.Gen.KernelIdeal.Launch
import proofs.«413345_j40647570489383_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What a point stores into the result window, from its six operand blocks: queries `x`, their classes `y`, the gathered
    class sums `ms` and counts `cs`, the class sums `mu` and the count row `cr`. -/
def out1 (x : Vec F S1024x128 .f32) (y : Vec F S1024x1 .i32) (ms : Vec F S1024x128 .f32) (cs : Vec F S1024x1 .f32)
    (mu : Vec F S512x128 .f32) (cr : Vec F S1x512 .f32) : Vec F S1x1x1 .f32 :=
  k1_pay1 (k1_pay10 (k1_pay6 y) (k1_pay7 x ms cs) (k1_pay5 cr mu) (k1_pay8 x (k1_pay4 cr mu)) (k1_pay9 x) cr k1_pay2)

/-- The pipeline's proof data: the arrays as the region finds them; every operand's buffer at its block, the result
    window's at `out1` of the point's blocks; the invariant the scoped rest at anything (nothing is carried). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1 (iblk1 V c 0 t) (iblk1 V c 1 t) (iblk1 V c 2 t) (iblk1 V c 3 t) (iblk1 V c 4 t) (iblk1 V c 5 t) := by dsimp only [dat1]

end Cert.KernelIdeal.Hand

end
-- ==== Proof.KI.Vals.lean ====
/-
  The buffers' contents between @main's items, with the regions' results named: after the reduction call its two result
  arrays hold what its pipeline's write-backs leave, after the finalize call likewise; every other buffer is as the host
  operations leave it.
-/
import proofs.«413345_j40647570489383_3_alg».proof.Proof.KI.R0Def
import proofs.«413345_j40647570489383_3_alg».proof.Proof.KI.R1Def
import proofs.«413345_j40647570489383_3_alg».proof.Proof.Gen.KernelIdeal.Regions
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The reduction call's entry contents, read at the TensorCore's references. -/
abbrev VR1 (c : Dev nD) (b : Ref sig .tc) : Buf (Elt F) ((c : Thread nD τ).loc b) := V1 m c b

/-- At the reduction call's exit: its arrays at what the pipeline leaves, every other buffer as entered. -/
def W2 (c : Dev nD) : Valuation τ sig (Elt F) :=
  Pipeline.withArrays spec0 c (V1 m c) fun w => (dat0 (VR1 m) c).arrAt w cfg0.N

/-- What the reduction call leaves, as the unknowns the generated valuations are written over. -/
def outsA : Outs (F := F) := fun _ r c => W2 m c r

/-- The finalize call's entry contents, read at the TensorCore's references. -/
abbrev VR3 (c : Dev nD) (b : Ref sig .tc) : Buf (Elt F) ((c : Thread nD τ).loc b) := V3 m (outsA m) c b

/-- At the finalize call's exit. -/
def W4 (c : Dev nD) : Valuation τ sig (Elt F) :=
  Pipeline.withArrays spec1 c (V3 m (outsA m) c) fun w => (dat1 (VR3 m) c).arrAt w cfg1.N

/-- What each region leaves: read after item 1 (the reduction call) and after item 3 (the finalize call). -/
def outs : Outs (F := F) := fun j r c => if j = 2 then W2 m c r else W4 m c r

theorem outs_two (r : Ref sig .tc) (c : Dev nD) : outs m 2 r c = W2 m c r := if_pos rfl
theorem outs_four (r : Ref sig .tc) (c : Dev nD) : outs m 4 r c = W4 m c r := if_neg (by decide)

end Cert.KernelIdeal.Hand

end
-- ==== Proof.KI.R0Body.lean ====
/-
  The reduction call's body at every grid point, against its proof data.

  The body has three runs, told apart by the tile's position in its half: at the first tile both accumulators are
  stored whole with zeros before the tile's contribution is added; at the last tile, after the addition, both are
  copied, re-laid, into the two result windows' buffers; at the other tiles only the addition happens. Every load and
  store is of a whole buffer, so a load after a store reads the stored value. Each run is stated once over any whole
  memrefs; the obligation at a point picks the run by the point's position and threads the accumulators through the
  region invariant.
-/
import proofs.«413345_j40647570489383_3_alg».proof.Proof.KI.R0Def
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace R0B

/-- The reset branch's condition, as the body computes it from the coordinates. -/
abbrev condR0 (i : grid0.Coords) : Prop :=
  Scalar.cmpi .ne (Scalar.extui (Scalar.cmpi .eq (BitVec.ofNat 32 (i 1).val) 0#32)) 0#32 = 1#1
/-- The write-back branch's condition. -/
abbrev condW0 (i : grid0.Coords) : Prop := k0_cond2 i = 1#1

theorem hcondR0 : ∀ t : Fin cfg0.N, condR0 (grid0.coords t) ↔ t.val % 16 = 0 :=
  (by decide +kernel : ∀ t : Fin grid0.N, condR0 (grid0.coords t) ↔ t.val % 16 = 0)
theorem hcondW0 : ∀ t : Fin cfg0.N, condW0 (grid0.coords t) ↔ t.val % 16 = 15 :=
  (by decide +kernel : ∀ t : Fin grid0.N, condW0 (grid0.coords t) ↔ t.val % 16 = 15)

theorem hz2_r0 : (![0, 0] : Fin 2 → ℕ) = fun _ => 0 := by funext a; fin_cases a <;> rfl
theorem hz3_r0 : (![0, 0, 0] : Fin 3 → ℕ) = fun _ => 0 := by funext a; fin_cases a <;> rfl

/-- A buffer whose last store was of the whole shape reads as that store's payload, whatever came before. -/
theorem read_writes_whole_last0 {sig' : RefSig} {κ : Kind} {sp : Space} {S : Shape} {e : EltTy}
    (v : View sig' κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

set_option maxHeartbeats 1000000 in
/-- The body at a first tile of a half: both accumulators are reset, then take the tile's contribution. -/
theorem sound_kernel0_A (c : Dev nD) (E : Set ℕ) (i : grid0.Coords) (hR : condR0 i) (hW : ¬condW0 i)
    (arg2 : Memref sig .tc .vmem S2048x128 .f32) (harg2 : arg2.IsWhole) (arg3 : Memref sig .tc .vmem S2048x1 .i32) (harg3 : arg3.IsWhole)
    (arg4 : Memref sig .tc .vmem S1x512x128 .f32) (harg4 : arg4.IsWhole) (arg5 : Memref sig .tc .vmem S1x1x512 .f32) (harg5 : arg5.IsWhole)
    (arg6 : Memref sig .tc .vmem S512x128 .f32) (harg6 : arg6.IsWhole) (arg7 : Memref sig .tc .vmem S1x512 .f32) (harg7 : arg7.IsWhole)
    (x : Vec F S2048x128 .f32) (y : Vec F S2048x1 .i32) (K : PUnit → sProp 𝕄) :
    iprop(owns (c : Thread nD τ) arg2 fullShare x ∗ owns (c : Thread nD τ) arg3 fullShare y
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare y
            ∗ owns (c : Thread nD τ) arg6 fullShare (k0_pay4 y x k0_pay1) ∗ owns (c : Thread nD τ) arg7 fullShare (k0_pay5 y k0_pay2)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%d6, %f6, -, H6⟩, ⟨%d7, %f7, -, H7⟩, Hk⟩
  obtain rfl := harg2.eq_unread hf2; obtain rfl := harg3.eq_unread hf3
  sl_exec (disch := first | exact hR | exact hW)
  sl_step
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro
    sl_unfold_words
    rw [read_writes_whole_last0 _ _ hz2_r0]
    simp only [View.readAt_eq_ld, harg2.read_unread, harg3.read_unread, View.ld_unit_zero (S := S2048x1) hz2_r0,
      View.ld_unit_zero (S := S2048x128) hz2_r0, View.readCov_unit_zero (S := S512x128) _ hz2_r0]
  · iexists _; isplitr
    swap; · iexact H7
    ipureintro
    sl_unfold_words
    rw [read_writes_whole_last0 _ _ hz2_r0]
    simp only [View.readAt_eq_ld, harg2.read_unread, harg3.read_unread, View.ld_unit_zero (S := S2048x1) hz2_r0,
      View.ld_unit_zero (S := S2048x128) hz2_r0, View.readCov_unit_zero (S := S1x512) _ hz2_r0]

set_option maxHeartbeats 1000000 in
/-- The body at a tile that neither begins nor ends a half: both accumulators take the tile's contribution. -/
theorem sound_kernel0_B (c : Dev nD) (E : Set ℕ) (i : grid0.Coords) (hR : ¬condR0 i) (hW : ¬condW0 i)
    (arg2 : Memref sig .tc .vmem S2048x128 .f32) (harg2 : arg2.IsWhole) (arg3 : Memref sig .tc .vmem S2048x1 .i32) (harg3 : arg3.IsWhole)
    (arg4 : Memref sig .tc .vmem S1x512x128 .f32) (harg4 : arg4.IsWhole) (arg5 : Memref sig .tc .vmem S1x1x512 .f32) (harg5 : arg5.IsWhole)
    (arg6 : Memref sig .tc .vmem S512x128 .f32) (harg6 : arg6.IsWhole) (arg7 : Memref sig .tc .vmem S1x512 .f32) (harg7 : arg7.IsWhole)
    (x : Vec F S2048x128 .f32) (y : Vec F S2048x1 .i32) (s6 : Vec F S512x128 .f32) (s7 : Vec F S1x512 .f32) (K : PUnit → sProp 𝕄) :
    iprop(owns (c : Thread nD τ) arg2 fullShare x ∗ owns (c : Thread nD τ) arg3 fullShare y
        ∗ owns (c : Thread nD τ) arg6 fullShare s6 ∗ owns (c : Thread nD τ) arg7 fullShare s7
        ∗ (iprop(owns (c : Thread nD τ) arg2 fullShare x ∗ owns (c : Thread nD τ) arg3 fullShare y
            ∗ owns (c : Thread nD τ) arg6 fullShare (k0_pay4 y x s6) ∗ owns (c : Thread nD τ) arg7 fullShare (k0_pay5 y s7)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hR | exact hW)
  sl_step
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro
    sl_unfold_words
    rw [read_writes_whole_last0 _ _ hz2_r0]
    simp only [View.readAt_eq_ld, harg2.read_unread, harg3.read_unread, harg6.read_unread, View.ld_unit_zero (S := S2048x1) hz2_r0,
      View.ld_unit_zero (S := S2048x128) hz2_r0, View.ld_unit_zero (S := S512x128) hz2_r0]
  · iexists _; isplitr
    swap; · iexact H7
    ipureintro
    sl_unfold_words
    rw [read_writes_whole_last0 _ _ hz2_r0]
    simp only [View.readAt_eq_ld, harg3.read_unread, harg7.read_unread, View.ld_unit_zero (S := S2048x1) hz2_r0,
      View.ld_unit_zero (S := S1x512) hz2_r0]

set_option maxHeartbeats 1000000 in
/-- The body at the last tile of a half: both accumulators take the tile's contribution and are copied, re-laid, into
    the two result windows' buffers. -/
theorem sound_kernel0_C (c : Dev nD) (E : Set ℕ) (i : grid0.Coords) (hR : ¬condR0 i) (hW : condW0 i)
    (arg2 : Memref sig .tc .vmem S2048x128 .f32) (harg2 : arg2.IsWhole) (arg3 : Memref sig .tc .vmem S2048x1 .i32) (harg3 : arg3.IsWhole)
    (arg4 : Memref sig .tc .vmem S1x512x128 .f32) (harg4 : arg4.IsWhole) (arg5 : Memref sig .tc .vmem S1x1x512 .f32) (harg5 : arg5.IsWhole)
    (arg6 : Memref sig .tc .vmem S512x128 .f32) (harg6 : arg6.IsWhole) (arg7 : Memref sig .tc .vmem S1x512 .f32) (harg7 : arg7.IsWhole)
    (x : Vec F S2048x128 .f32) (y : Vec F S2048x1 .i32) (s6 : Vec F S512x128 .f32) (s7 : Vec F S1x512 .f32) (K : PUnit → sProp 𝕄) :
    iprop(owns (c : Thread nD τ) arg2 fullShare x ∗ owns (c : Thread nD τ) arg3 fullShare y
        ∗ (∃ d, owns (c : Thread nD τ) arg4 fullShare d) ∗ (∃ d, owns (c : Thread nD τ) arg5 fullShare d)
        ∗ owns (c : Thread nD τ) arg6 fullShare s6 ∗ owns (c : Thread nD τ) arg7 fullShare s7
        ∗ (iprop(owns (c : Thread nD τ) arg2 fullShare x ∗ owns (c : Thread nD τ) arg3 fullShare y
            ∗ owns (c : Thread nD τ) arg4 fullShare (k0_pay6 (k0_pay4 y x s6)) ∗ owns (c : Thread nD τ) arg5 fullShare (k0_pay7 (k0_pay5 y s7))
            ∗ owns (c : Thread nD τ) arg6 fullShare (k0_pay4 y x s6) ∗ owns (c : Thread nD τ) arg7 fullShare (k0_pay5 y s7)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hR | exact hW)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [read_writes_whole_last0 _ _ hz3_r0]
    simp only [View.readAt_eq_ld, harg2.read_unread, harg3.read_unread, harg6.read_unread, View.ld_unit_zero (S := S2048x1) hz2_r0,
      View.ld_unit_zero (S := S2048x128) hz2_r0, View.ld_unit_zero (S := S512x128) hz2_r0, View.readCov_unit_zero (S := S512x128) _ hz2_r0]
  isplitl [H5]
  · iexists _; isplitr
    swap; · iexact H5
    ipureintro
    sl_unfold_words
    rw [read_writes_whole_last0 _ _ hz3_r0]
    simp only [View.readAt_eq_ld, harg3.read_unread, harg7.read_unread, View.ld_unit_zero (S := S2048x1) hz2_r0,
      View.ld_unit_zero (S := S1x512) hz2_r0, View.readCov_unit_zero (S := S1x512) _ hz2_r0]
  isplitl [H6]
  · iexists _; isplitr
    swap; · iexact H6
    ipureintro
    sl_unfold_words
    rw [read_writes_whole_last0 _ _ hz2_r0]
    simp only [View.readAt_eq_ld, harg2.read_unread, harg3.read_unread, harg6.read_unread, View.ld_unit_zero (S := S2048x1) hz2_r0,
      View.ld_unit_zero (S := S2048x128) hz2_r0, View.ld_unit_zero (S := S512x128) hz2_r0]
  · iexists _; isplitr
    swap; · iexact H7
    ipureintro
    sl_unfold_words
    rw [read_writes_whole_last0 _ _ hz2_r0]
    simp only [View.readAt_eq_ld, harg3.read_unread, harg7.read_unread, View.ld_unit_zero (S := S2048x1) hz2_r0,
      View.ld_unit_zero (S := S1x512) hz2_r0]

/-! ## Where the windows are idle, and what the input windows' buffers hold -/

/-- The input windows are never idle. -/
theorem liveAt0_0 : ∀ i, cfg0.idle 0 i = false := fun _ => rfl
theorem liveAt0_1 : ∀ i, cfg0.idle 1 i = false := fun _ => rfl
/-- Off the last tile of a half the two result windows are idle: the body stores nothing into them; -/
theorem idleAt0_2 : ∀ t : Fin cfg0.N, ¬condW0 (grid0.coords t) → cfg0.idle 2 (grid0.coords t) = true := by decide +kernel
theorem idleAt0_3 : ∀ t : Fin cfg0.N, ¬condW0 (grid0.coords t) → cfg0.idle 3 (grid0.coords t) = true := by decide +kernel
/-- at it they are live. -/
theorem liveAt0_2 : ∀ t : Fin cfg0.N, condW0 (grid0.coords t) → cfg0.idle 2 (grid0.coords t) = false := by decide +kernel
theorem liveAt0_3 : ∀ t : Fin cfg0.N, condW0 (grid0.coords t) → cfg0.idle 3 (grid0.coords t) = false := by decide +kernel
/-- Off the last tile of a half the result windows' blocks are not written back. -/
theorem noFlush0_2 (t : Fin cfg0.N) (h : ¬t.val % 16 = 15) : (cfg0.win 2).flush t = false :=
  Bool.eq_false_iff.mpr fun hf => h ((flush0_2 t).mp hf)
theorem noFlush0_3 (t : Fin cfg0.N) (h : ¬t.val % 16 = 15) : (cfg0.win 3).flush t = false :=
  Bool.eq_false_iff.mpr fun hf => h ((flush0_3 t).mp hf)

/-- Each input window's current buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The invariant's forms -/

/-- What the launch hands the region, with the two accumulators as memrefs owned at some contents. -/
theorem PhiA0_eq (c : Dev nD) :
    (Pipeline.ΦA spec0 c : sProp 𝕄)
      = iprop(((∃ d, owns (c : Thread nD τ) scA fullShare d) ∗ (∃ d, owns (c : Thread nD τ) scB fullShare d) ∗ oth0 (F := F) c)
          ∗ (∃ r, prngReg c r)) := by
  unfold Pipeline.ΦA; rw [scopedRest0_eq]; unfold oth0; simp only [scA, scB, owns_whole]; try rfl

theorem Phi0_zero (c : Dev nD) (n : ℕ) (h : n ≤ cfg0.N) (hz : n = 0) : Phi0 V c n h = Pipeline.ΦA spec0 c := by
  subst hz; rfl

/-- After point `n`: the accumulators at that point's contents. -/
theorem Phi0_succ (c : Dev nD) (n : ℕ) (hn : n < cfg0.N) :
    Phi0 V c (n + 1) hn = iprop(owns (c : Thread nD τ) scA fullShare (acc0 V c n hn).1 ∗ owns (c : Thread nD τ) scB fullShare (acc0 V c n hn).2
      ∗ oth0 (F := F) c ∗ ∃ r, prngReg c r) := rfl

/-- Before a point that is not the first: the accumulators at what the point before left. -/
theorem Phi0_pos (c : Dev nD) (n : ℕ) (h : n ≤ cfg0.N) (hz : n ≠ 0) :
    Phi0 V c n h = iprop(owns (c : Thread nD τ) scA fullShare (acc0 V c (n - 1) (by omega)).1
      ∗ owns (c : Thread nD τ) scB fullShare (acc0 V c (n - 1) (by omega)).2 ∗ oth0 (F := F) c ∗ ∃ r, prngReg c r) := by
  cases n with
  | zero => exact absurd rfl hz
  | succ n => rfl

theorem Phi0_castSucc (c : Dev nD) (t : Fin cfg0.N) :
    (dat0 V c).Φ t.castSucc = Phi0 V c t.val (Nat.le_of_lt t.isLt) := by
  dsimp only [dat0]; simp only [Fin.coe_castSucc]

/-! ## The body obligation at a generic point -/

/-- Each window's current staging memref at point `t`, as the pipeline passes it, and its wholeness. -/
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' memrefs hold their tiles; the point's position in its half says which of the three
    runs applies; the invariant hands the body the two accumulators — at anything before the first point, else at what
    the point before left — and takes them back at this point's contents; a result window's buffer is handed back
    untouched off the last tile of a half, and there leaves at the accumulator re-laid. The core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0 V, before0_1 V]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0], after0_0]
  rw [show (dat0 V c).leavesExact 1 t = owns (c : Thread nD τ) (ms0_1 t) fullShare ((dat0 V c).after 1 t) from by
    unfold Dat.leavesExact; rw [liveAt0_1], after0_1]
  have hN : t.val < 32 := lt_of_lt_of_eq t.isLt (show cfg0.N = 32 from N_0)
  by_cases h0 : t.val % 16 = 0
  · have hR : condR0 (grid0.coords t) := (hcondR0 t).mpr h0
    have hW : ¬condW0 (grid0.coords t) := fun h => by have := (hcondW0 t).mp h; omega
    rw [Dat.leavesExact_idle (dat0 V c) 2 t (idleAt0_2 t hW) (noFlush0_2 t (by omega)),
      Dat.leavesExact_idle (dat0 V c) 3 t (idleAt0_3 t hW) (noFlush0_3 t (by omega))]
    rw [acc0_first V c t h0]
    dsimp only
    by_cases hz : t.val = 0
    · rw [Phi0_castSucc V c t, Phi0_zero V c _ _ hz, PhiA0_eq]
      iintro ⟨⟨⟨HA, HB, Ho⟩, Hg⟩, Hw, ⟨%d0, H0⟩, ⟨%d1, H1⟩, H2, H3⟩
      iapply (sound_kernel0_A c Set.univ (grid0.coords t) hR hW (ms0_0 t) (hs0_0 t) (ms0_1 t) (hs0_1 t) (ms0_2 t) (hs0_2 t)
        (ms0_3 t) (hs0_3 t) scA (Memref.isWhole_whole _) scB (Memref.isWhole_whole _) (xs0 V c t) (ys0 V c t) _)
      isplitl [H0]; · iexact H0
      isplitl [H1]; · iexact H1
      isplitl [HA]; · iexact HA
      isplitl [HB]; · iexact HB
      iintro ⟨H0, H1, HA, HB⟩
      isplitl [HA HB Ho Hg]
      · isplitl [HA]; · iexact HA
        isplitl [HB]; · iexact HB
        isplitl [Ho]; · iexact Ho
        iexact Hg
      isplitl [Hw]; · iexact Hw
      isplitl [H0]; · iexact H0
      isplitl [H1]; · iexact H1
      isplitl [H2]; · iexact H2
      iexact H3
    · rw [Phi0_castSucc V c t, Phi0_pos V c _ _ hz]
      iintro ⟨⟨HA, HB, Ho, Hg⟩, Hw, ⟨%d0, H0⟩, ⟨%d1, H1⟩, H2, H3⟩
      iapply (sound_kernel0_A c Set.univ (grid0.coords t) hR hW (ms0_0 t) (hs0_0 t) (ms0_1 t) (hs0_1 t) (ms0_2 t) (hs0_2 t)
        (ms0_3 t) (hs0_3 t) scA (Memref.isWhole_whole _) scB (Memref.isWhole_whole _) (xs0 V c t) (ys0 V c t) _)
      isplitl [H0]; · iexact H0
      isplitl [H1]; · iexact H1
      isplitl [HA]; · iexists _; iexact HA
      isplitl [HB]; · iexists _; iexact HB
      iintro ⟨H0, H1, HA, HB⟩
      isplitl [HA HB Ho Hg]
      · isplitl [HA]; · iexact HA
        isplitl [HB]; · iexact HB
        isplitl [Ho]; · iexact Ho
        iexact Hg
      isplitl [Hw]; · iexact Hw
      isplitl [H0]; · iexact H0
      isplitl [H1]; · iexact H1
      isplitl [H2]; · iexact H2
      iexact H3
  · have hR : ¬condR0 (grid0.coords t) := fun h => h0 ((hcondR0 t).mp h)
    have hz : t.val ≠ 0 := fun e => h0 (by rw [e])
    rw [acc0_next V c t h0]
    dsimp only
    rw [Phi0_castSucc V c t, Phi0_pos V c _ _ hz]
    by_cases h1 : t.val % 16 = 15
    · have hW : condW0 (grid0.coords t) := (hcondW0 t).mpr h1
      rw [show (dat0 V c).leavesExact 2 t = owns (c : Thread nD τ) (ms0_2 t) fullShare ((dat0 V c).after 2 t) from by
        unfold Dat.leavesExact; rw [liveAt0_2 t hW], after0_2]
      rw [show (dat0 V c).leavesExact 3 t = owns (c : Thread nD τ) (ms0_3 t) fullShare ((dat0 V c).after 3 t) from by
        unfold Dat.leavesExact; rw [liveAt0_3 t hW], after0_3]
      rw [acc0_next V c t h0]
      dsimp only
      iintro ⟨⟨HA, HB, Ho, Hg⟩, Hw, ⟨%d0, H0⟩, ⟨%d1, H1⟩, ⟨%d2, H2⟩, ⟨%d3, H3⟩⟩
      iapply (sound_kernel0_C c Set.univ (grid0.coords t) hR hW (ms0_0 t) (hs0_0 t) (ms0_1 t) (hs0_1 t) (ms0_2 t) (hs0_2 t)
        (ms0_3 t) (hs0_3 t) scA (Memref.isWhole_whole _) scB (Memref.isWhole_whole _) (xs0 V c t) (ys0 V c t)
        (acc0 V c (t.val - 1) (Nat.lt_of_le_of_lt (Nat.sub_le _ _) t.isLt)).1
        (acc0 V c (t.val - 1) (Nat.lt_of_le_of_lt (Nat.sub_le _ _) t.isLt)).2 _)
      isplitl [H0]; · iexact H0
      isplitl [H1]; · iexact H1
      isplitl [H2]; · iexists _; iexact H2
      isplitl [H3]; · iexists _; iexact H3
      isplitl [HA]; · iexact HA
      isplitl [HB]; · iexact HB
      iintro ⟨H0, H1, H2, H3, HA, HB⟩
      isplitl [HA HB Ho Hg]
      · isplitl [HA]; · iexact HA
        isplitl [HB]; · iexact HB
        isplitl [Ho]; · iexact Ho
        iexact Hg
      isplitl [Hw]; · iexact Hw
      isplitl [H0]; · iexact H0
      isplitl [H1]; · iexact H1
      isplitl [H2]; · iexact H2
      iexact H3
    · have hW : ¬condW0 (grid0.coords t) := fun h => h1 ((hcondW0 t).mp h)
      rw [Dat.leavesExact_idle (dat0 V c) 2 t (idleAt0_2 t hW) (noFlush0_2 t h1),
        Dat.leavesExact_idle (dat0 V c) 3 t (idleAt0_3 t hW) (noFlush0_3 t h1)]
      iintro ⟨⟨HA, HB, Ho, Hg⟩, Hw, ⟨%d0, H0⟩, ⟨%d1, H1⟩, H2, H3⟩
      iapply (sound_kernel0_B c Set.univ (grid0.coords t) hR hW (ms0_0 t) (hs0_0 t) (ms0_1 t) (hs0_1 t) (ms0_2 t) (hs0_2 t)
        (ms0_3 t) (hs0_3 t) scA (Memref.isWhole_whole _) scB (Memref.isWhole_whole _) (xs0 V c t) (ys0 V c t)
        (acc0 V c (t.val - 1) (Nat.lt_of_le_of_lt (Nat.sub_le _ _) t.isLt)).1
        (acc0 V c (t.val - 1) (Nat.lt_of_le_of_lt (Nat.sub_le _ _) t.isLt)).2 _)
      isplitl [H0]; · iexact H0
      isplitl [H1]; · iexact H1
      isplitl [HA]; · iexact HA
      isplitl [HB]; · iexact HB
      iintro ⟨H0, H1, HA, HB⟩
      isplitl [HA HB Ho Hg]
      · isplitl [HA]; · iexact HA
        isplitl [HB]; · iexact HB
        isplitl [Ho]; · iexact Ho
        iexact Hg
      isplitl [Hw]; · iexact Hw
      isplitl [H0]; · iexact H0
      isplitl [H1]; · iexact H1
      isplitl [H2]; · iexact H2
      iexact H3

end R0B

/-- The body obligation of the reduction call's pipeline, at every point. -/
theorem body_obligation0 (c : Dev nD) : BodyObligation (dat0 (F := F) V c) (defs₀ (F := F)) Variants.none () Set.univ := by
  intro t
  rw [bigSep_W0, bigSep_W0]
  exact R0B.sound_body0 V c t

/-- What the launch hands the region is the invariant before the first point. -/
theorem hin0 (c : Dev nD) : (Pipeline.ΦA spec0 c : sProp 𝕄) ⊢ (dat0 V c).Φ 0 := by
  rw [show (dat0 V c).Φ 0 = Phi0 V c 0 (Nat.zero_le _) from rfl, R0B.Phi0_zero V c 0 _ rfl]
  try exact Idealize.SL.BI.Entails.refl _

/-- After the last point the invariant gives the scoped rest back, the accumulators' contents forgotten. -/
theorem hout0 (c : Dev nD) : (dat0 V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl,
    R0B.Phi0_pos V c _ _ (by rw [Fin.val_last]; have : cfg0.N = 32 := N_0; omega), R0B.PhiA0_eq]
  iintro ⟨HA, HB, Ho, Hg⟩
  isplitl [HA HB Ho]
  · isplitl [HA]; · iexists _; iexact HA
    isplitl [HB]; · iexists _; iexact HB
    iexact Ho
  iexact Hg

end Cert.KernelIdeal.Hand

end
-- ==== Proof.KI.R1Body.lean ====
/-
  The finalize call's body at every grid point, against its proof data.

  The grid's second axis has extent one, so at both points the body resets its three scratch buffers and stores its
  result: it loads the six operand blocks, keeps the prototypes and their squared norms in two scratch buffers, sums
  the rows' losses into the third, and stores that sum, reshaped, into the result window's buffer. Every access is of
  a whole buffer, so each load after a store reads the stored value, and the result buffer ends at `out1` of the
  six blocks.
-/
import proofs.«413345_j40647570489383_3_alg».proof.Proof.KI.R1Def
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions hold at both points -/

/-- The reset branch's condition, as the body computes it from the second grid coordinate. -/
abbrev cond1_0 (i : grid1.Coords) : Prop :=
  (Scalar.cmpi .ne (Scalar.extui (Scalar.cmpi .eq (BitVec.ofNat 32 (i 1).val) 0#32)) 0#32) = 1#1
/-- The condition under which the result is stored. -/
abbrev cond1_1 (i : grid1.Coords) : Prop := k1_cond2 i = 1#1

/-- The second coordinate is zero at both points: the scratch buffers are reset at each, -/
theorem hcond1_0 : ∀ t : Fin cfg1.N, cond1_0 (grid1.coords t) :=
  (by decide +kernel : ∀ t : Fin grid1.N, cond1_0 (grid1.coords t))
/-- the result is stored at each, -/
theorem hcond1_1 : ∀ t : Fin cfg1.N, cond1_1 (grid1.coords t) :=
  (by decide +kernel : ∀ t : Fin grid1.N, cond1_1 (grid1.coords t))
/-- and so the result window is idle at neither. -/
theorem liveAt1_6 : ∀ t : Fin cfg1.N, cfg1.idle 6 (grid1.coords t) = false := by decide +kernel

/-! ## What the body finds in the six operand windows' buffers -/

/- An operand window's current buffer holds its block at every point, fetched there or not: the body leaves the block
   in place, and a window not fetched at a point has the block index it had at the point before (windows 4 and 5,
   whose index map is constant, are fetched at the first point only). -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body's triple on whole memrefs -/

theorem hz1_2 : (![0, 0] : Fin 2 → Nat) = fun _ => 0 := funext fun a => by fin_cases a <;> rfl
theorem hz1_3 : (![0, 0, 0] : Fin 3 → Nat) = fun _ => 0 := funext fun a => by fin_cases a <;> rfl
set_option maxHeartbeats 1000000 in
/-- The body on ten whole memrefs — the six operands' at read contents, the result's and the three scratch at
    anything —, both branch conditions holding, runs to the continuation holding the operands' as they were, the
    result's at `out1` of the operands and the scratch at something. -/
theorem sound_kernel1 (c : Dev nD) (E : Set ℕ) (i : grid1.Coords) (arg2 : Memref sig .tc .vmem S1024x128 .f32) (harg2 : arg2.IsWhole) (arg3 : Memref sig .tc .vmem S1024x1 .i32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S512x128 .f32) (harg6 : arg6.IsWhole) (arg7 : Memref sig .tc .vmem S1x512 .f32) (harg7 : arg7.IsWhole) (arg8 : Memref sig .tc .vmem S1x1x1 .f32) (harg8 : arg8.IsWhole) (arg9 : Memref sig .tc .vmem S1x1 .f32) (harg9 : arg9.IsWhole) (arg10 : Memref sig .tc .vmem S512x128 .f32) (harg10 : arg10.IsWhole) (arg11 : Memref sig .tc .vmem S1x512 .f32) (harg11 : arg11.IsWhole)
    (hc0 : cond1_0 i) (hc1 : cond1_1 i)
    (x : Vec F S1024x128 .f32) (y : Vec F S1024x1 .i32) (ms : Vec F S1024x128 .f32) (cs : Vec F S1024x1 .f32)
    (mu : Vec F S512x128 .f32) (cr : Vec F S1x512 .f32) (K : PUnit → sProp 𝕄) :
    iprop(owns (c : Thread nD τ) arg2 fullShare x ∗ owns (c : Thread nD τ) arg3 fullShare y
        ∗ owns (c : Thread nD τ) arg4 fullShare ms ∗ owns (c : Thread nD τ) arg5 fullShare cs
        ∗ owns (c : Thread nD τ) arg6 fullShare mu ∗ owns (c : Thread nD τ) arg7 fullShare cr
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x ∗ owns (c : Thread nD τ) arg3 fullShare y
            ∗ owns (c : Thread nD τ) arg4 fullShare ms ∗ owns (c : Thread nD τ) arg5 fullShare cs
            ∗ owns (c : Thread nD τ) arg6 fullShare mu ∗ owns (c : Thread nD τ) arg7 fullShare cr
            ∗ owns (c : Thread nD τ) arg8 fullShare (out1 x y ms cs mu cr)
            ∗ (∃ d, owns (c : Thread nD τ) arg9 fullShare d)
            ∗ (∃ d, owns (c : Thread nD τ) arg10 fullShare d) ∗ (∃ d, owns (c : Thread nD τ) arg11 fullShare d)) -∗ K ⟨⟩))
      ⊢ wp frame (wpE (defs₀ (F := F)) Variants.none c none) E (cc1__finalize_kernel i arg2 harg2 arg3 harg3 arg4 harg4 arg5 harg5 arg6 harg6 arg7 harg7 arg8 harg8 arg9 harg9 arg10 harg10 arg11 harg11) K := by
  simp only [cc1__finalize_kernel_eq_skeleton]; unfold cc1__finalize_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, ⟨%d11, %f11, -, H11⟩, Hk⟩
  subst hf2 hf3 hf4 hf5 hf6 hf7
  sl_exec (disch := first | exact hc0 | exact hc1)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    rw [View.read_writes_eq_canon _ _ _ (View.cover_of_tiled _ S1x1x1.size (by rfl)), View.canon_unit_zero hz1_3]
    unfold out1
    refine congrArg k1_pay1 ?_
    sl_unfold_words
    simp only [View.readCov_cons_toLoadRect, View.readAt_eq_ld, View.ld_unit_zero (S := S1024x1) hz1_2,
      View.ld_unit_zero (S := S1024x128) hz1_2, View.ld_unit_zero (S := S1x512) hz1_2, View.ld_unit_zero (S := S512x128) hz1_2]
  isplitl [H9]
  · iexists _, _; isplitr
    swap; · iexact H9
    ipureintro; rfl
  isplitl [H10]
  · iexists _, _; isplitr
    swap; · iexact H10
    ipureintro; rfl
  iexists _, _; isplitr
  swap; · iexact H11
  ipureintro; rfl

/-! ## The scratch buffers out of the region's invariant -/

/-- A buffer of the core at some contents. -/
abbrev anyAt1 (c : Dev nD) (b : Ref sig .tc) : sProp 𝕄 :=
  iprop(∃ f : Buf (Elt F) ((c : Thread nD τ).loc b), ((c : Thread nD τ).loc b) ↦{fullShare} f)

/-- The three scratch operands: whole scoped buffers of the call's own, passed beside the windows. -/
abbrev scM1_9 : Memref sig .tc .vmem S1x1 .f32 := Memref.whole cc1_scratch0
abbrev scM1_10 : Memref sig .tc .vmem S512x128 .f32 := Memref.whole cc1_scratch1
abbrev scM1_11 : Memref sig .tc .vmem S1x512 .f32 := Memref.whole cc1_scratch2

/-- The invariant, its scoped buffers one by one: the three scratch operands as memrefs owned at some contents, the
    other call's staging and scratch buffers and the generator register beside them. -/
theorem PhiA1_eq (c : Dev nD) :
    (Pipeline.ΦA spec1 c : sProp 𝕄)
      = iprop((anyAt1 (F := F) c cc0_stg0_0 ∗ anyAt1 (F := F) c cc0_stg0_1 ∗ anyAt1 (F := F) c cc0_stg1_0 ∗ anyAt1 (F := F) c cc0_stg1_1 ∗ anyAt1 (F := F) c cc0_stg2_0 ∗ anyAt1 (F := F) c cc0_stg2_1 ∗ anyAt1 (F := F) c cc0_stg3_0 ∗ anyAt1 (F := F) c cc0_stg3_1 ∗ anyAt1 (F := F) c cc0_scratch0 ∗ anyAt1 (F := F) c cc0_scratch1
          ∗ (∃ d, owns (c : Thread nD τ) scM1_9 fullShare d) ∗ (∃ d, owns (c : Thread nD τ) scM1_10 fullShare d)
          ∗ (∃ d, owns (c : Thread nD τ) scM1_11 fullShare d))
        ∗ (∃ r, prngReg c r)) := by
  unfold Pipeline.ΦA; rw [scopedRest1_eq]; simp only [scM1_9, scM1_10, scM1_11, owns_whole]; try rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (dat1 V c).leavesExact 6 t)

set_option maxHeartbeats 1000000 in
/-- The body at any point: the operands' memrefs hold their blocks, both conditions hold, and the invariant lends the
    three scratch buffers for the point and takes them back at whatever the body left; its other buffers, the generator
    register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).leavesExact 6 t = owns (c : Thread nD τ) (st1_6 t) fullShare ((dat1 V c).after 6 t) from by
    unfold Dat.leavesExact; rw [liveAt1_6 t]]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, after1_6, PhiA1_eq]
  iintro ⟨⟨⟨R0, R1, R2, R3, R4, R5, R6, R7, R8, R9, HS9, HS10, HS11⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ _ _ _ _ _ _ (hcond1_0 t) (hcond1_1 t)
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS9]; · iexact HS9
  isplitl [HS10]; · iexact HS10
  isplitl [HS11]; · iexact HS11
  iintro ⟨H0, H1, H2, H3, H4, H5, H6, HS9, HS10, HS11⟩
  isplitl [R0 R1 R2 R3 R4 R5 R6 R7 R8 R9 HS9 HS10 HS11 Hg]
  · isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS9]; · iexact HS9
    isplitl [HS10]; · iexact HS10
    iexact HS11
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the finalize call's pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Launch.lean ====
/-
  The run of @main: the two regions as segments between the host stretches, and what every final memory holds.
-/
import proofs.«413345_j40647570489383_3_alg».proof.Proof.KI.Vals
import proofs.«413345_j40647570489383_3_alg».proof.Proof.KI.R0Body
import proofs.«413345_j40647570489383_3_alg».proof.Proof.KI.R1Body
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two calls

The generated valuations `V2`, `V3`, `V4` are written over unknown results `outs`; at `outs m` the unknowns are what
the two pipelines leave. Here: the result buffers read back, the buffers a call does not write, and the two spellings
of the finalize call's entry contents (over `outs m` and over `outsA m`) identified. -/

/-- The contents after the reduction call, read at the TensorCore's references, -/
abbrev VR2 (c : Dev nD) (b : Ref sig .tc) : Buf (Elt F) ((c : Thread nD τ).loc b) := V2 m (outs m) c b
/-- and after the finalize call. -/
abbrev VR4 (c : Dev nD) (b : Ref sig .tc) : Buf (Elt F) ((c : Thread nD τ).loc b) := V4 m (outs m) c b

/-- The class-sum result buffer after the reduction call holds the first unknown, -/
theorem V2_sums (o : Outs (F := F)) (c : Dev nD) : V2 m o c main_v1_0 = o 2 main_v1_0 c :=
  (Function.update_of_ne
      (StableHlo.devRef_ne_of_ne (by decide) : (Proc.devRef .tc main_v1_0 : DevRef τ sig) ≠ Proc.devRef .tc main_v1_1) _ _).trans
    (Function.update_self _ _ _)
/-- the count result buffer the second, -/
theorem V2_counts (o : Outs (F := F)) (c : Dev nD) : V2 m o c main_v1_1 = o 2 main_v1_1 c :=
  Function.update_self _ _ _
/-- and the loss buffer after the finalize call the third. -/
theorem V4_loss (o : Outs (F := F)) (c : Dev nD) : V4 m o c main_v36 = o 4 main_v36 c :=
  Function.update_self _ _ _

/-- Both spellings of the unknowns agree where the reduction call's results are read, -/
theorem V2_outs (c : Dev nD) : V2 m (outs m) c = V2 m (outsA m) c := by
  have h0 : outs m 2 main_v1_0 c = outsA m 2 main_v1_0 c := outs_two m main_v1_0 c
  have h1 : outs m 2 main_v1_1 c = outsA m 2 main_v1_1 c := outs_two m main_v1_1 c
  simp only [V2, h0, h1]
/-- so the finalize call is entered from the same contents under either. -/
theorem V3_outs (c : Dev nD) : V3 m (outs m) c = V3 m (outsA m) c :=
  congrArg (StableHlo.after (hostOps1 (F := F))) (V2_outs m c)

/-! ### The reduction call's exit -/

/-- An input array of the reduction call ends as the call found it. -/
theorem exit0_in (c : Dev nD) (w : Fin 4) (hin : (cfg0.win w).isOut = false)
    (hne : Pipeline.arrRef spec0 w ∉ ([main_v1_0, main_v1_1] : List (Ref sig .tc))) :
    (dat0 (VR1 m) c).arrAt w cfg0.N = VR2 m c (Pipeline.arrRef spec0 w) :=
  calc (dat0 (VR1 m) c).arrAt w cfg0.N
    _ = (dat0 (VR1 m) c).A w := (dat0 (VR1 m) c).arrAt_in w hin _
    _ = VR1 m c (Pipeline.arrRef spec0 w) := A_eq0 (VR1 m) c w
    _ = VR2 m c (Pipeline.arrRef spec0 w) := (V2_of m (outs m) c _ hne).symm

/-- A result array of the reduction call ends at what the write-backs leave, which is what `outs m` names. -/
theorem exit0_out (c : Dev nD) (w : Fin 4) (b : Ref sig .tc) (hb : Pipeline.arrRef spec0 w = b)
    (hV : V2 m (outs m) c b = outs m 2 b c) :
    (dat0 (VR1 m) c).arrAt w cfg0.N = VR2 m c (Pipeline.arrRef spec0 w) := by
  subst hb
  refine Eq.trans ?_ (hV.trans (outs_two m _ c)).symm
  unfold W2
  exact (Pipeline.withArrays_arr spec0 launch0.win.arr_inj c (V1 m c) (fun w => (dat0 (VR1 m) c).arrAt w cfg0.N) w).symm

/-- Each of the reduction call's arrays at its exit, -/
theorem exit0_arr (c : Dev nD) : ∀ w : Fin 4, (dat0 (VR1 m) c).arrAt w cfg0.N = VR2 m c (Pipeline.arrRef spec0 w)
  | 0 => exit0_in m c 0 rfl (by decide)
  | 1 => exit0_in m c 1 rfl (by decide)
  | 2 => exit0_out m c 2 main_v1_0 rfl (V2_sums m (outs m) c)
  | 3 => exit0_out m c 3 main_v1_1 rfl (V2_counts m (outs m) c)
  | ⟨_ + 4, h⟩ => absurd h (Nat.not_lt.2 (Nat.le_add_left _ _))

/-- and every other buffer as it was entered. -/
theorem exit0_rest (c : Dev nD) (b : Ref sig .tc) (hb : b ∉ Finset.univ.image (Pipeline.arrRef spec0)) :
    VR2 m c b = VR1 m c b :=
  V2_of m (outs m) c b fun h => hb <| by
    rcases List.mem_cons.mp h with rfl | h
    · exact Finset.mem_image.mpr ⟨2, Finset.mem_univ _, rfl⟩
    rcases List.mem_cons.mp h with rfl | h
    · exact Finset.mem_image.mpr ⟨3, Finset.mem_univ _, rfl⟩
    · cases h

/-! ### The finalize call's exit -/

/-- An input array of the finalize call ends as the call found it. -/
theorem exit1_in (c : Dev nD) (w : Fin 7) (hin : (cfg1.win w).isOut = false)
    (hne : Pipeline.arrRef spec1 w ∉ ([main_v36] : List (Ref sig .tc))) :
    (dat1 (VR3 m) c).arrAt w cfg1.N = VR4 m c (Pipeline.arrRef spec1 w) :=
  calc (dat1 (VR3 m) c).arrAt w cfg1.N
    _ = (dat1 (VR3 m) c).A w := (dat1 (VR3 m) c).arrAt_in w hin _
    _ = V3 m (outsA m) c (Pipeline.arrRef spec1 w) := A_eq1 (VR3 m) c w
    _ = V3 m (outs m) c (Pipeline.arrRef spec1 w) := (congrFun (V3_outs m c) _).symm
    _ = VR4 m c (Pipeline.arrRef spec1 w) := (V4_of m (outs m) c _ hne).symm

/-- Each of the finalize call's arrays at its exit: the loss array at what the write-backs leave, -/
theorem exit1_arr (c : Dev nD) : ∀ w : Fin 7, (dat1 (VR3 m) c).arrAt w cfg1.N = VR4 m c (Pipeline.arrRef spec1 w)
  | 0 => exit1_in m c 0 rfl (by decide)
  | 1 => exit1_in m c 1 rfl (by decide)
  | 2 => exit1_in m c 2 rfl (by decide)
  | 3 => exit1_in m c 3 rfl (by decide)
  | 4 => exit1_in m c 4 rfl (by decide)
  | 5 => exit1_in m c 5 rfl (by decide)
  | 6 => by
    refine Eq.trans ?_ ((V4_loss m (outs m) c).trans (outs_four m _ c)).symm
    unfold W4
    exact (Pipeline.withArrays_arr spec1 launch1.win.arr_inj c (V3 m (outsA m) c) (fun w => (dat1 (VR3 m) c).arrAt w cfg1.N) 6).symm
  | ⟨_ + 7, h⟩ => absurd h (Nat.not_lt.2 (Nat.le_add_left _ _))

/-- and every other buffer as it was entered. -/
theorem exit1_rest (c : Dev nD) (b : Ref sig .tc) (hb : b ∉ Finset.univ.image (Pipeline.arrRef spec1)) :
    VR4 m c b = VR3 m c b :=
  (V4_of m (outs m) c b fun h => hb <| by
    rcases List.mem_cons.mp h with rfl | h
    · exact Finset.mem_image.mpr ⟨6, Finset.mem_univ _, rfl⟩
    · cases h).trans (congrFun (V3_outs m c) _)

/-! ## What rides beside the buffers, and the pieces every region's record is made of -/

/-- Beside its unscoped buffers a core carries, between any two items of @main, its generator register at some state
    and its dues, which are none. -/
abbrev side (c : Dev nD) : sProp 𝕄 :=
  iprop((∃ r, prngReg c r) ∗ ∃ W, owes (c : Thread nD τ) (0 : CellTallies nD τ sig Unit) W)

/-- The same beside every item. -/
abbrev sides : Fin 3 → Dev nD → sProp 𝕄 := fun _ c => side c

/-- No pair of cores is assigned a level: no core ever owes another. -/
abbrev noPairs : GSem nD τ sig → Finset Unit := fun _ => ∅
abbrev noLevel : GSem nD τ sig → Unit → ℕ := fun _ _ => 0

/-- A pipeline without prefetched tables holds no table. -/
theorem tables_none (p : Fin 2) (c : Dev nD) :
    (BI.emp : sProp 𝕄) ⊢ Pipeline.prefHeld (pcfgs (F := F) p).pre c (fun _ => fullShare) (adm p).1 := by
  unfold Pipeline.prefHeld
  exact Entails.of_eq BI.bigSep_empty.symm

/-- A core owing nothing holds a pipeline's tallies wherever the proof data owe nothing and keep no bound on the
    recorded pairs, -/
theorem owesAt_of_none {cfg : Cfg sig Λ₀} {c : Dev nD} (dat : Dat τ (Elt F) Unit ℕ (UR sig nD τ) ℕ cfg c)
    (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hrec]
  iintro ⟨%W, H⟩
  iexists W
  isplitr
  · ipureintro
    exact fun _ _ => Or.inl trivial
  iexact H

/-- and such tallies are the core owing nothing. -/
theorem none_of_owesAt {cfg : Cfg sig Λ₀} {c : Dev nD} (dat : Dat τ (Elt F) Unit ℕ (UR sig nD τ) ℕ cfg c)
    (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, H⟩
  iexists W
  iexact H

/-- The generator register and the scoped buffers no window stages make the class invariant, whatever else is at hand; -/
theorem classInv_in {gr W : Nat} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hg, -, Hs⟩
  isplitl [Hs]
  · iexact Hs
  · iexact Hg

/-- the class invariant gives both back. -/
theorem classInv_out {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hs, Hg⟩
  isplitl [Hg]
  · iexact Hg
  isplitr
  · iempintro
  · iexact Hs

/-! ## The proof data of both calls, and the calls as segments -/

/-- Both pipelines' proof data, each at the contents its call is entered from: a literal match, so that a numeral
    index reduces to the call's own. -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR3 m) c

-- the pinned configuration meets the printed one only by unfolding plain definitions inside types
set_option backward.isDefEq.respectTransparency.types false in
/-- The reduction call between the first two host stretches. Entered holding every unscoped buffer at `V1`: its four
    arrays are split out, the rest bypasses; the generator register goes into the invariant and comes back. Left
    holding every unscoped buffer at `V2` over `outs m`: the two inputs as found, the two results at what the
    write-backs leave. -/
def reg0 : Pipeline.RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ noPairs noLevel 0 fun _ _ => rfl
  pre c := iprop(StableHlo.held (c : Thread nD τ) (Pipeline.ucRefs τ sig) (V1 m c) ∗ side c)
  post c := iprop(StableHlo.held (c : Thread nD τ) (Pipeline.ucRefs τ sig) (V2 m (outs m) c) ∗ side c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held c (V1 m c)] at hsplit
    iintro ⟨⟨Hbufs, Hgen, Hdue⟩, -, -⟩
    imodintro
    ihave Hs := hsplit $$ Hbufs
    icases Hs with ⟨Harr, Hrest⟩
    isplitl [Harr]
    · iexact Harr
    isplitr
    · iapply tables_none 0 c
      iempintro
    isplitl [Hdue]
    · iapply owesAt_of_none (pdats m 0 c) 0 rfl rfl
      iexact Hdue
    isplitl [Hgen]
    · iexact Hgen
    · iexact Hrest
  hin c := (classInv_in spec0 c _).trans (hin0 (VR1 m) c)
  hout c := by
    rw [Pipeline.ownSems0_none]
    exact (hout0 (VR1 m) c).trans (classInv_out spec0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (VR2 m c) ((pdats m 0 c).arrAt · cfg0.N) (exit0_arr m c) (exit0_rest m c)
    rw [Pipeline.unscopedBufs_held c (V2 m (outs m) c)] at hjoin
    iintro ⟨Harr, Hdue, Hgen, Hrest⟩
    imodintro
    isplitl [Harr Hrest]
    · iapply hjoin
      isplitl [Harr]
      · iexact Harr
      · iexact Hrest
    isplitl [Hgen]
    · iexact Hgen
    · iapply none_of_owesAt (pdats m 0 c) (Fin.last _) rfl
      iexact Hdue

-- as above
set_option backward.isDefEq.respectTransparency.types false in
/-- The finalize call between the last two host stretches. Entered holding every unscoped buffer at `V3` over
    `outs m`, which is `V3` over `outsA m`, the contents its proof data are stated at; left holding them at `V4`: the six
    inputs as found, the loss array at what the write-backs leave. Its invariant is the class invariant throughout. -/
def reg1 : Pipeline.RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (VR3 m) c).loose
  hwaits := Pipeline.hwaits_of_owed_zero _ _ _ _ noPairs noLevel 1 fun _ _ => rfl
  pre c := iprop(StableHlo.held (c : Thread nD τ) (Pipeline.ucRefs τ sig) (V3 m (outs m) c) ∗ side c)
  post c := iprop(StableHlo.held (c : Thread nD τ) (Pipeline.ucRefs τ sig) (V4 m (outs m) c) ∗ side c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    have hsplit := Pipeline.arrays_of_unscopedBufs (p := 1) (pcfgs (F := F)) adm (pdats m) launch1.win launch1.arr_whole c
      ((pdats m 1 c).share_full fun _ => rfl) (VR3 m c) fun _ => rfl
    rw [Pipeline.unscopedBufs_held c (V3 m (outsA m) c)] at hsplit
    rw [V3_outs m c]
    iintro ⟨⟨Hbufs, Hgen, Hdue⟩, -, -⟩
    imodintro
    ihave Hs := hsplit $$ Hbufs
    icases Hs with ⟨Harr, Hrest⟩
    isplitl [Harr]
    · iexact Harr
    isplitr
    · iapply tables_none 1 c
      iempintro
    isplitl [Hdue]
    · iapply owesAt_of_none (pdats m 1 c) 0 rfl rfl
      iexact Hdue
    isplitl [Hgen]
    · iexact Hgen
    · iexact Hrest
  hin c := classInv_in spec1 c _
  hout c := by
    rw [Pipeline.ownSems0_none]
    exact classInv_out spec1 c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR3 m c) (VR4 m c) ((pdats m 1 c).arrAt · cfg1.N) (exit1_arr m c) (exit1_rest m c)
    rw [Pipeline.unscopedBufs_held c (V4 m (outs m) c)] at hjoin
    iintro ⟨Harr, Hdue, Hgen, Hrest⟩
    imodintro
    isplitl [Harr Hrest]
    · iapply hjoin
      isplitl [Harr]
      · iexact Harr
      · iexact Hrest
    isplitl [Hgen]
    · iexact Hgen
    · iapply none_of_owesAt (pdats m 1 c) (Fin.last _) rfl
      iexact Hdue

/-! ## The launch -/

-- the launch's implicit arguments are found by unifying its conclusion with the goal, which takes unfolding plain
-- definitions inside types
set_option backward.isDefEq.respectTransparency.types false in
/-- Every weakly fair execution of @main from `m` terminates, nothing faulting, and every final memory holds each
    unscoped buffer at the last valuation, the regions' results at what their pipelines leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V5 m (outs m) c b) := by
  refine Pipeline.θ_run_regions_kit_dev (pcfgs (F := F)) adm (pdats m) () cellOf_inj emb₁ defs₀ Variants.none noPairs noLevel m ρ main
    (segs m (outs m) Variants.none noPairs noLevel sides () (pdats m) (reg0 m) (reg1 m))
    (fun c Q => by
      rewrite [main_chain c, Pipeline.Seg.run_eq_chain,
        show (segs m (outs m) Variants.none noPairs noLevel sides () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) ?launchElt
    (T₀ := fun c => iprop(StableHlo.held (c : Thread nD τ) (Pipeline.ucRefs τ sig) (V0 m c) ∗ side c))
    (Tₙ := fun c => StableHlo.held (c : Thread nD τ) (Pipeline.ucRefs τ sig) (V5 m (outs m) c))
    (hch := fun c => ⟨.rfl, .rfl, .rfl, .rfl, .rfl, sep_mono .rfl ?owesLast⟩)
    (hinit := Pipeline.initEach noPairs noLevel fun c => ?first)
    (QY := fun c s => ∀ b ∈ Pipeline.ucRefs τ sig, s.mem (((c : Thread nD τ)).1, b) = V5 m (outs m) c b)
    (hfin := fun c s' => ?last) (hQ := fun _ h => h)
  case launchElt =>
    -- the launch element funds both pipelines' staging cells; no core keeps a ghost resource of its own
    have hown : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    rw [BI.bigSep_emp_const]
    iintro Hu
    imodintro
    isplitl [Hu]
    · iapply hown
      iexact Hu
    · iempintro
  case owesLast =>
    -- after the last stretch the generator register is let go
    iintro ⟨-, Hdue⟩
    iexact Hdue
  case first =>
    -- a core's first thread state: its unscoped buffers as launched, its register, its dues, which are none
    have hbufs : (unscopedBufs c (fun b => m ((c.tc : Thread nD τ).loc b)) : sProp 𝕄)
        ⊢ StableHlo.held (c : Thread nD τ) (Pipeline.ucRefs τ sig) (V0 m c) :=
      Entails.of_eq (Pipeline.unscopedBufs_held c (V0 m c))
    iintro ⟨⟨Hb, -, Hdue, -, Hgen, -⟩, -⟩
    imodintro
    isplitl [Hb]
    · iapply hbufs
      iexact Hb
    isplitl [Hgen]
    · iexists (ρ c)
      iexact Hgen
    · iexists ∅
      iexact Hdue
  case last =>
    -- the last thread state read against a final state
    unfold StableHlo.held
    iintro ⟨Hb, HSI⟩
    imodintro
    iapply pointsTo_read_all (Pipeline.ucRefs τ sig) (fun b => (((c : Thread nD τ)).1, b)) (V5 m (outs m) c) s'
    isplitl [Hb]
    · iexact Hb
    · iexact HSI

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  -- an argument's buffer is unscoped, and the last valuation has it as launched: no item writes it
  have harg : ∀ (r : PUnit × MemSt nD τ sig (Elt F)) (c : Dev nD) (a : Ref sig .tc),
      (∀ b ∈ Pipeline.ucRefs τ sig, r.2.mem (((c : Thread nD τ)).1, b) = V5 m (outs m) c b) →
      ¬ (Proc.devRef .tc a : DevRef τ sig).isScoped → V5 m (outs m) c a = m ((c.tc : Thread nD τ).loc a) →
      r.2.mem ((c.tc : Thread nD τ).loc a) = m ((c.tc : Thread nD τ).loc a) :=
    fun r c a h hs hV => (h _ (Finset.mem_filter.mpr ⟨StableHlo.devRef_mem_tcRefs a, hs⟩)).trans hV
  exact (θ_run defs _ _).mono (fun r h c =>
    ⟨harg r c main_arg0 (h c) (by decide) (V5_main_arg0 m (outs m) c),
     harg r c main_arg1 (h c) (by decide) (V5_main_arg1 m (outs m) c),
     harg r c main_arg2 (h c) (by decide) (V5_main_arg2 m (outs m) c),
     harg r c main_arg3 (h c) (by decide) (V5_main_arg3 m (outs m) c),
     harg r c main_arg4 (h c) (by decide) (V5_main_arg4 m (outs m) c)⟩) (run_all m ρ)

end Cert.KernelIdeal.Hand

end
-- ==== Proof.Spec.lean ====
/-
  The mathematics both programs compute, as pure functions over the extended reals.

  A support point `s` carries a label `ys s` and a vector `xs s`; class `k` has the sum `mus k` of its
  points' vectors and their number `cnt k`.  A query `i` reads its own class off the support set at position
  `pos i`; its logit against class `k` is `-½‖x − proto k‖²` with `proto k = mus k / max (cnt k) 0.1`, masked where
  the class is empty, the query's own class taken with the query itself left out of sum and count; the loss is the mean
  over the queries of the negative log-softmax at the query's own class.

  The kernel's arrangement (`kerLoss`) keeps the plain prototypes once, expands the square for the generic
  classes as `-½‖x‖² + ⟨x, p⟩ − ½‖p‖²`, corrects the own column from a gathered row, and sums two halves of the
  queries; the reference's (`refLoss`) builds every leave-one-out prototype.  Sums over the support set are written
  over the tiling the kernel walks (`row`), or over the whole set.
-/
import Idealize.ShloMosaic.PureOps.Ideal
import Idealize.ShloMosaic.Lib.ValueIdx

noncomputable section

namespace Cert.Spec

open Idealize.ShloMosaic Idealize.ShloMosaic.ValueIdx
open scoped BigOperators

/-! ## The literals both programs carry (the same words on both sides) -/

abbrev c01 : EReal := Ideal.ofBits .f32 0x3DCCCCCD#32
abbrev one : EReal := Ideal.ofBits .f32 0x3F800000#32
abbrev mhalf : EReal := Ideal.ofBits .f32 0xBF000000#32
abbrev half : EReal := Ideal.ofBits .f32 0x3F000000#32
abbrev zero : EReal := Ideal.ofBits .f32 0x00000000#32
abbrev ninf : EReal := Ideal.ofBits .f32 0xFF800000#32
/-- `2⁻¹¹`, the kernel's folded reciprocal of the number of queries. -/
abbrev inv2048 : EReal := Ideal.ofBits .f32 0x3A000000#32
/-- `2048`, the reference's divisor. -/
abbrev c2048 : EReal := Ideal.ofBits .f32 0x45000000#32

abbrev XQ : Type := (⟨2, ![2048, 128]⟩ : Shape).Idx → EReal
abbrev XS : Type := (⟨2, ![65536, 128]⟩ : Shape).Idx → EReal
abbrev YS : Type := (⟨1, ![65536]⟩ : Shape).Idx → BitVec 32
abbrev POS : Type := (⟨1, ![2048]⟩ : Shape).Idx → BitVec 32

/-- The one-hot entry: label `y` against class `k`. -/
def ind (y : BitVec 32) (k : ℕ) : EReal := if y = BitVec.ofNat 32 k then 1 else 0

/-- The mask of a class (or a leave-one-out class) that is not empty. -/
def gt01 (v : EReal) : EReal := if c01 < v then 1 else 0

/-- Support row `r` of tile `i` of half `a`: the kernel walks the support set in 2 × 16 tiles of 2048 rows. -/
def row (a : Fin 2) (i : Fin 16) (r : Fin 2048) : Fin 65536 :=
  ⟨(a.val * 16 + i.val) * 2048 + r.val, by have := a.isLt; have := i.isLt; have := r.isLt; omega⟩

/-- Query `r` of half `a`. -/
def qrow (a : Fin 2) (r : Fin 1024) : Fin 2048 :=
  ⟨a.val * 1024 + r.val, by have := a.isLt; have := r.isLt; omega⟩

/-! ## Class sums and counts -/

/-- Half `a`'s share of class `k`'s vector sum. -/
def musPart (xs : XS) (ys : YS) (a : Fin 2) (k : Fin 512) (d : Fin 128) : EReal :=
  ∑ i : Fin 16, ∑ r : Fin 2048, ind (ys (ix1 (row a i r))) k.val * xs (ix2 (row a i r) d)

/-- Half `a`'s share of class `k`'s count. -/
def cntPart (ys : YS) (a : Fin 2) (k : Fin 512) : EReal :=
  ∑ i : Fin 16, ∑ r : Fin 2048, ind (ys (ix1 (row a i r))) k.val

def musK (xs : XS) (ys : YS) (k : Fin 512) (d : Fin 128) : EReal := musPart xs ys 0 k d + musPart xs ys 1 k d
def cntK (ys : YS) (k : Fin 512) : EReal := cntPart ys 0 k + cntPart ys 1 k

/-- The same sum over the whole support set. -/
def musR (xs : XS) (ys : YS) (k : Fin 512) (d : Fin 128) : EReal :=
  ∑ s : Fin 65536, ind (ys (ix1 s)) k.val * xs (ix2 s d)

/-- The number of support points of class `k`, a natural number read as a real. -/
def cntI (ys : YS) (k : Fin 512) : EReal :=
  (((Finset.univ.filter fun s : Fin 65536 => ys (ix1 s) = BitVec.ofNat 32 k.val).card : ℝ) : EReal)

/-! ## Reading a position: jnp's wrap of a negative index, then the gather's clamp -/

def norm (n : ℕ) (p : BitVec 32) : BitVec 32 := if p.slt 0#32 then p + BitVec.ofNat 32 n else p

def gidx (n : ℕ) (hn : 0 < n) (p : BitVec 32) : Fin n := ⟨min (norm n p).toInt.toNat (n - 1), by omega⟩

/-- Query `i`'s own class: the label at its position. -/
def yq (ys : YS) (pos : POS) (i : Fin 2048) : BitVec 32 := ys (ix1 (gidx 65536 (by decide) (pos (ix1 i))))

/-! ## One query, the kernel's arrangement -/

section Row

variable (mu : Fin 512 → Fin 128 → EReal) (ct : Fin 512 → EReal) (x : Fin 128 → EReal) (y : BitVec 32)

def proto (k : Fin 512) (d : Fin 128) : EReal := Ideal.div (mu k d) (max (ct k) c01)

def psq (k : Fin 512) : EReal := ∑ d : Fin 128, proto mu ct k d * proto mu ct k d

/-- The own-class logit from the gathered class sum `ms` and count `cs`, the query left out. -/
def lselfOf (ms : Fin 128 → EReal) (cs : EReal) : EReal :=
  (mhalf * ∑ d : Fin 128, (x d - Ideal.div (ms d - x d) (max (cs - one) c01)) * (x d - Ideal.div (ms d - x d) (max (cs - one) c01)))
    * gt01 (cs - one)

/-- A generic class's logit through the expanded square. -/
def lgen (k : Fin 512) : EReal :=
  (((mhalf * ∑ d : Fin 128, x d * x d) + ∑ d : Fin 128, x d * proto mu ct k d) - half * psq mu ct k) * gt01 (ct k)

def lfin (ls : EReal) (k : Fin 512) : EReal :=
  (if y = BitVec.ofNat 32 k.val then ls else lgen mu ct x k) * one

def nllK (ms : Fin 128 → EReal) (cs : EReal) : EReal :=
  ((Finset.univ.sup (lfin mu ct x y (lselfOf x ms cs)))
      + Ideal.log (∑ k : Fin 512, Ideal.exp (lfin mu ct x y (lselfOf x ms cs) k - Finset.univ.sup (lfin mu ct x y (lselfOf x ms cs)))))
    - lselfOf x ms cs * one

/-! ## One query, the reference's arrangement -/

def logitR (k : Fin 512) : EReal :=
  Ideal.div
    ((mhalf * ∑ d : Fin 128,
        (x d - Ideal.div (mu k d - ind y k.val * x d) (max (ct k - ind y k.val) c01))
          * (x d - Ideal.div (mu k d - ind y k.val * x d) (max (ct k - ind y k.val) c01)))
      * gt01 (ct k - ind y k.val))
    one

def nllR : EReal :=
  -((logitR mu ct x y (gidx 512 (by decide) y) - max ninf (Finset.univ.sup (logitR mu ct x y)))
      - Ideal.log (∑ k : Fin 512, Ideal.exp (logitR mu ct x y k - max ninf (Finset.univ.sup (logitR mu ct x y)))))

end Row

/-! ## The finalize call's result for half `a`, from the arrays it is handed -/

def outPart (xq : XQ) (yq2 : (⟨2, ![2048, 1]⟩ : Shape).Idx → BitVec 32) (msel : XQ)
    (csel : (⟨2, ![2048, 1]⟩ : Shape).Idx → EReal) (mu : (⟨2, ![512, 128]⟩ : Shape).Idx → EReal)
    (cr : (⟨2, ![1, 512]⟩ : Shape).Idx → EReal) (a : Fin 2) : EReal :=
  ∑ r : Fin 1024, nllK (fun k d => mu (ix2 k d)) (fun k => cr (ix2 0 k)) (fun d => xq (ix2 (qrow a r) d))
    (yq2 (ix2 (qrow a r) 0)) (fun d => msel (ix2 (qrow a r) d)) (csel (ix2 (qrow a r) 0))

/-! ## The two losses -/

def kerLoss (xq : XQ) (xs : XS) (ys : YS) (pos : POS) : EReal :=
  ((∑ r : Fin 1024, nllK (musK xs ys) (cntK ys) (fun d => xq (ix2 (qrow 0 r) d)) (yq ys pos (qrow 0 r))
        (fun d => musK xs ys (gidx 512 (by decide) (yq ys pos (qrow 0 r))) d) (cntK ys (gidx 512 (by decide) (yq ys pos (qrow 0 r)))))
    + ∑ r : Fin 1024, nllK (musK xs ys) (cntK ys) (fun d => xq (ix2 (qrow 1 r) d)) (yq ys pos (qrow 1 r))
        (fun d => musK xs ys (gidx 512 (by decide) (yq ys pos (qrow 1 r))) d) (cntK ys (gidx 512 (by decide) (yq ys pos (qrow 1 r)))))
    * inv2048

def refLoss (xq : XQ) (xs : XS) (ys : YS) (pos : POS) : EReal :=
  Ideal.div (∑ i : Fin 2048, nllR (musR xs ys) (cntI ys) (fun d => xq (ix2 i d)) (yq ys pos i)) c2048

/-! ## The domain: finite vectors, labels in range -/

def FiniteArr {s : Shape} (x : s.Idx → EReal) : Prop := ∀ i, x i ≠ ⊤ ∧ x i ≠ ⊥

def Labels (ys : YS) : Prop := ∀ s : Fin 65536, (ys (ix1 s)).toNat < 512

end Cert.Spec

end
-- ==== Proof.KI.R0Val.lean ====
/-
  What the reduction call leaves in its two result arrays, at the exact instance: half `a`'s share of every class's
  vector sum and of every class's count, the sixteen tiles of the half added up.
-/
import proofs.«413345_j40647570489383_3_alg».proof.Proof.KI.R0Def
import proofs.«413345_j40647570489383_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (V : (c : Dev nD) → (b : Ref sig .tc) → Buf (Elt Ideal) ((c : Thread nD τ).loc b))

namespace R0V

/-- The one-hot bit as an extended real. -/
theorem bit_real (b : BitVec 1) : (FloatOps.sitofp (F := Ideal) .f32 (b.setWidth 32)) = if b = 1#1 then (1 : EReal) else 0 := by
  rcases (by decide : ∀ b : BitVec 1, b = 0#1 ∨ b = 1#1) b with rfl | rfl
  · show (((0#32 : BitVec 32).toInt : ℝ) : EReal) = _
    simp
  · show (((1#32 : BitVec 32).toInt : ℝ) : EReal) = _
    simp

theorem onehot_apply (y : Vec Ideal S2048x1 .i32) (r : Fin 2048) (k : Fin 512) :
    k0_pay3 (F := Ideal) y (ix2 r k) = IntOp.cmpi .eq (y (ix2 r (0 : Fin 1))) (BitVec.ofNat 32 k.val) := by
  unfold k0_pay3
  show IntOp.cmpi .eq _ _ = _
  rw [shapeCast_self, iota_single_apply]
  rw [broadcastTo_apply y broadcasts_S2048x1_S2048x512 (ix2 r k) (ix2 r (0 : Fin 1)) (fun a => by
    match a with
    | ⟨0, _⟩ => rfl
    | ⟨1, _⟩ => rfl)]

/-- The one-hot entry as an extended real is the indicator of the label. -/
theorem onehot_real (y : Vec Ideal S2048x1 .i32) (r : Fin 2048) (k : Fin 512) :
    (sitofp (F := Ideal) .f32 (extui 32 (k0_pay3 (F := Ideal) y) natLt_1_32)) (ix2 r k) = Cert.Spec.ind (y (ix2 r (0 : Fin 1))) k.val := by
  rw [sitofp_apply, extui_apply, bit_real, onehot_apply]
  exact if_congr IntOp.cmpi_eq rfl rfl

/-! ## The tile product's operand indices -/

theorem lhs_tile_0 (i : S512x128.Idx) (q : dot_S2048x512_S2048x128_S512x128_0_0_1_1_n_n.contr.Idx) :
    (dot_S2048x512_S2048x128_S512x128_0_0_1_1_n_n.lhsIdx i q 0).val = (q ⟨0, by decide⟩).val :=
  dot_S2048x512_S2048x128_S512x128_0_0_1_1_n_n.lhsIdx_val_of_single rfl i q

theorem lhs_tile_1 (i : S512x128.Idx) (q : dot_S2048x512_S2048x128_S512x128_0_0_1_1_n_n.contr.Idx) :
    (dot_S2048x512_S2048x128_S512x128_0_0_1_1_n_n.lhsIdx i q 1).val = (i 0).val := by
  unfold DotDims.lhsIdx
  rw [dif_neg (show ¬(1 : Fin S2048x512.rank) ∈ dot_S2048x512_S2048x128_S512x128_0_0_1_1_n_n.lhsBatch by decide),
    dif_pos (show (1 : Fin S2048x512.rank) ∈ dot_S2048x512_S2048x128_S512x128_0_0_1_1_n_n.lhsNonContracting by decide)]
  rfl

theorem rhs_tile_0 (i : S512x128.Idx) (q : dot_S2048x512_S2048x128_S512x128_0_0_1_1_n_n.contr.Idx) :
    (dot_S2048x512_S2048x128_S512x128_0_0_1_1_n_n.rhsIdx i q 0).val = (q ⟨0, by decide⟩).val :=
  dot_S2048x512_S2048x128_S512x128_0_0_1_1_n_n.rhsIdx_val_of_single rfl i q

theorem rhs_tile_1 (i : S512x128.Idx) (q : dot_S2048x512_S2048x128_S512x128_0_0_1_1_n_n.contr.Idx) :
    (dot_S2048x512_S2048x128_S512x128_0_0_1_1_n_n.rhsIdx i q 1).val = (i 1).val := by
  unfold DotDims.rhsIdx
  rw [dif_neg (show ¬(1 : Fin S2048x128.rank) ∈ dot_S2048x512_S2048x128_S512x128_0_0_1_1_n_n.rhsBatch by decide),
    dif_pos (show (1 : Fin S2048x128.rank) ∈ dot_S2048x512_S2048x128_S512x128_0_0_1_1_n_n.rhsNonContracting by decide)]
  rfl

/-- The tile's product, one-hot matrix transposed times vectors, at class `k` and lane `d`: the sum over the tile's rows. -/
theorem tile_matmul_apply (L : FVec Ideal S2048x512 .bf16) (R : FVec Ideal S2048x128 .bf16) (k : Fin 512) (d : Fin 128) :
    (matmul dot_S2048x512_S2048x128_S512x128_0_0_1_1_n_n none L R (constant (F := Ideal) S512x128 .f32 0x00000000#32)) (ix2 k d)
      = ∑ r : Fin 2048, L (ix2 r k) * R (ix2 r d) := by
  simp only [matmul]
  rw [Ideal.matmul_constant_zero_apply,
    ← Equiv.sum_comp (ValueIdx.contrEquiv1 dot_S2048x512_S2048x128_S512x128_0_0_1_1_n_n 2048 rfl rfl).symm]
  refine Finset.sum_congr rfl fun r _ => ?_
  have hk := ValueIdx.contrEquiv1_symm_val dot_S2048x512_S2048x128_S512x128_0_0_1_1_n_n 2048 rfl rfl r
  have el : dot_S2048x512_S2048x128_S512x128_0_0_1_1_n_n.lhsIdx (ix2 k d)
      ((ValueIdx.contrEquiv1 dot_S2048x512_S2048x128_S512x128_0_0_1_1_n_n 2048 rfl rfl).symm r) = ix2 r k := funext fun a => Fin.ext (by
    match a with
    | ⟨0, _⟩ => exact (lhs_tile_0 _ _).trans hk
    | ⟨1, _⟩ => exact lhs_tile_1 _ _)
  have er : dot_S2048x512_S2048x128_S512x128_0_0_1_1_n_n.rhsIdx (ix2 k d)
      ((ValueIdx.contrEquiv1 dot_S2048x512_S2048x128_S512x128_0_0_1_1_n_n 2048 rfl rfl).symm r) = ix2 r d := funext fun a => Fin.ext (by
    match a with
    | ⟨0, _⟩ => exact (rhs_tile_0 _ _).trans hk
    | ⟨1, _⟩ => exact rhs_tile_1 _ _)
  rw [el, er]

/-- The class-sum accumulator's step at an entry: what it held plus the tile's rows of class `k`. -/
theorem pay4_apply (y : Vec Ideal S2048x1 .i32) (x : Vec Ideal S2048x128 .f32) (s : Vec Ideal S512x128 .f32) (k : Fin 512) (d : Fin 128) :
    k0_pay4 (F := Ideal) y x s (ix2 k d)
      = s (ix2 k d) + ∑ r : Fin 2048, Cert.Spec.ind (y (ix2 r (0 : Fin 1))) k.val * x (ix2 r d) := by
  unfold k0_pay4
  rw [shapeCast_self, addf_apply, tile_matmul_apply]
  refine congrArg (s (ix2 k d) + ·) (Finset.sum_congr rfl fun r _ => ?_)
  rw [truncf_apply, truncf_apply, onehot_real]

/-- The tile's column sums of the one-hot matrix, at class `k`. -/
theorem tile_colsum_apply (v : FVec Ideal S2048x512 .f32) (k : Fin 512) :
    (multiReduction (F := Ideal) .add [0] S512 v 0x00000000#32 reduces_S2048x512_S512 (.inl rfl) rfl) (ix1 k)
      = ∑ r : Fin 2048, v (ix2 r k) := by
  refine (Ideal.multiReduction_add_single v 0x00000000#32 reduces_S2048x512_S512 (.inl rfl) rfl (ix1 k)).trans ?_
  show ∑ r : Fin 2048, v (reduces_S2048x512_S512.lift (ix1 k) r) = _
  refine Finset.sum_congr rfl fun r _ => congrArg v (funext fun a => Fin.ext ?_)
  match a with
  | ⟨0, _⟩ => rfl
  | ⟨1, _⟩ => rfl

/-- The count accumulator's step at an entry: what it held plus the number of the tile's rows of class `k`. -/
theorem pay5_apply (y : Vec Ideal S2048x1 .i32) (s : Vec Ideal S1x512 .f32) (k : Fin 512) :
    k0_pay5 (F := Ideal) y s (ix2 (0 : Fin 1) k)
      = s (ix2 (0 : Fin 1) k) + ∑ r : Fin 2048, Cert.Spec.ind (y (ix2 r (0 : Fin 1))) k.val := by
  unfold k0_pay5
  rw [shapeCast_self, addf_apply,
    shapeCast_apply _ shapeCasts_S512_S1x512 (ix2 (0 : Fin 1) k) (ix1 k) (by
      rw [Shape.rowMajor_val_one, Shape.rowMajor_val_two]; show k.val = 0 * _ + k.val; omega),
    tile_colsum_apply]
  refine congrArg (s (ix2 (0 : Fin 1) k) + ·) (Finset.sum_congr rfl fun r _ => ?_)
  rw [onehot_real]

/-- Both accumulators start a half at zero. -/
theorem pay1_apply (k : Fin 512) (d : Fin 128) : (k0_pay1 (F := Ideal)) (ix2 k d) = 0 := by
  unfold k0_pay1
  rw [shapeCast_self]
  exact Ideal.ofBits_zero_f32

theorem pay2_apply (k : Fin 512) : (k0_pay2 (F := Ideal)) (ix2 (0 : Fin 1) k) = 0 := by
  unfold k0_pay2
  rw [shapeCast_self]
  exact Ideal.ofBits_zero_f32

/-- The stored blocks are the accumulators with a unit axis in front. -/
theorem pay6_apply (v : Vec Ideal S512x128 .f32) (z : Fin 1) (k : Fin 512) (d : Fin 128) :
    k0_pay6 (F := Ideal) v (ix3 z k d) = v (ix2 k d) := by
  unfold k0_pay6
  refine shapeCast_apply _ shapeCasts_S512x128_S1x512x128 (ix3 z k d) (ix2 k d) ?_
  rw [Shape.rowMajor_val_two, Shape.rowMajor_val_three]
  have hz : z.val = 0 := by omega
  show k.val * 128 + d.val = (z.val * 512 + k.val) * 128 + d.val
  rw [hz]; omega

theorem pay7_apply (v : Vec Ideal S1x512 .f32) (z z' : Fin 1) (k : Fin 512) :
    k0_pay7 (F := Ideal) v (ix3 z z' k) = v (ix2 (0 : Fin 1) k) := by
  unfold k0_pay7
  refine shapeCast_apply _ shapeCasts_S1x512_S1x1x512 (ix3 z z' k) (ix2 (0 : Fin 1) k) ?_
  rw [Shape.rowMajor_val_two, Shape.rowMajor_val_three]
  have hz : z.val = 0 := by omega
  have hz' : z'.val = 0 := by omega
  show 0 * 512 + k.val = (z.val * 1 + z'.val) * 512 + k.val
  rw [hz, hz']

/-! ## The blocks at a point -/

theorem N0 : cfg0.N = 32 := by decide

/-- Point `t` reads tile `t` of the support vectors and of the labels; the two result windows sit on the row of the point's half. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem idx0_3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)

/-- Row `r` of the vectors' tile at point `t` is row `2048 t + r` of the support vectors. -/
theorem xs0_apply (c : Dev nD) (t : Fin cfg0.N) (r : Fin 2048) (d : Fin 128) (s : Fin 65536) (hs : s.val = t.val * 2048 + r.val) :
    (xs0 V c t) (ix2 r d) = (V c main_arg2 : S65536x128.Idx → Elt Ideal .f32) (ix2 s d) := by
  have hi := idx0_0 t
  unfold xs0 iblk0
  rw [View.read_apply]
  show V c main_arg2 _ = V c main_arg2 _
  congr 1
  funext a
  apply Fin.ext
  match a with
  | ⟨0, _⟩ => show win0_0.index t 0 * 2048 + 1 * r.val = s.val; rw [hi.1, hs]; omega
  | ⟨1, _⟩ => show win0_0.index t 1 * 128 + 1 * d.val = d.val; rw [hi.2]; omega

/-- Row `r` of the labels' tile at point `t` is label `2048 t + r`. -/
theorem ys0_apply (c : Dev nD) (t : Fin cfg0.N) (r : Fin 2048) (s : Fin 65536) (hs : s.val = t.val * 2048 + r.val) :
    (ys0 V c t) (ix2 r (0 : Fin 1)) = (V c main_v0 : S65536x1.Idx → Elt Ideal .i32) (ix2 s (0 : Fin 1)) := by
  have hi := idx0_1 t
  unfold ys0 iblk0
  rw [View.read_apply]
  show V c main_v0 _ = V c main_v0 _
  congr 1
  funext a
  apply Fin.ext
  match a with
  | ⟨0, _⟩ => show win0_1.index t 0 * 2048 + 1 * r.val = s.val; rw [hi.1, hs]; omega
  | ⟨1, _⟩ => show win0_1.index t 1 * 1 + 1 * (0 : Fin 1).val = (0 : Fin 1).val; rw [hi.2]; rfl

/-! ## The accumulators after each point -/

/-- Tile `n`'s rows of class `k`, their vectors' lane `d` summed (nothing past the last tile). -/
def tileMus (X : S65536x128.Idx → EReal) (Y : S65536x1.Idx → BitVec 32) (n : ℕ) (k : Fin 512) (d : Fin 128) : EReal :=
  if h : n < 32 then
    ∑ r : Fin 2048, Cert.Spec.ind (Y (ix2 (⟨n * 2048 + r.val, by have := r.isLt; omega⟩ : Fin 65536) (0 : Fin 1))) k.val
      * X (ix2 (⟨n * 2048 + r.val, by have := r.isLt; omega⟩ : Fin 65536) d)
  else 0

/-- Tile `n`'s number of rows of class `k`. -/
def tileCnt (Y : S65536x1.Idx → BitVec 32) (n : ℕ) (k : Fin 512) : EReal :=
  if h : n < 32 then
    ∑ r : Fin 2048, Cert.Spec.ind (Y (ix2 (⟨n * 2048 + r.val, by have := r.isLt; omega⟩ : Fin 65536) (0 : Fin 1))) k.val
  else 0

/-- One point's step of the class-sum accumulator adds the point's tile. -/
theorem musStep (c : Dev nD) (t : Fin cfg0.N) (s : Vec Ideal S512x128 .f32) (k : Fin 512) (d : Fin 128) :
    k0_pay4 (F := Ideal) (ys0 V c t) (xs0 V c t) s (ix2 k d)
      = s (ix2 k d) + tileMus (V c main_arg2) (V c main_v0) t.val k d := by
  have ht : t.val < 32 := N0 ▸ t.isLt
  rw [pay4_apply]
  unfold tileMus
  rw [dif_pos ht]
  refine congrArg (s (ix2 k d) + ·) (Finset.sum_congr rfl fun r _ => ?_)
  rw [ys0_apply V c t r ⟨t.val * 2048 + r.val, by have := r.isLt; omega⟩ rfl,
    xs0_apply V c t r d ⟨t.val * 2048 + r.val, by have := r.isLt; omega⟩ rfl]

/-- One point's step of the count accumulator adds the point's tile. -/
theorem cntStep (c : Dev nD) (t : Fin cfg0.N) (s : Vec Ideal S1x512 .f32) (k : Fin 512) :
    k0_pay5 (F := Ideal) (ys0 V c t) s (ix2 (0 : Fin 1) k)
      = s (ix2 (0 : Fin 1) k) + tileCnt (V c main_v0) t.val k := by
  have ht : t.val < 32 := N0 ▸ t.isLt
  rw [pay5_apply]
  unfold tileCnt
  rw [dif_pos ht]
  refine congrArg (s (ix2 (0 : Fin 1) k) + ·) (Finset.sum_congr rfl fun r _ => ?_)
  rw [ys0_apply V c t r ⟨t.val * 2048 + r.val, by have := r.isLt; omega⟩ rfl]

theorem acc0_congr (c : Dev nD) (u v : ℕ) (hu : u < cfg0.N) (hv : v < cfg0.N) (e : u = v) :
    acc0 V c u hu = acc0 V c v hv := by subst e; rfl

/-- After tile `j` of half `q` the class-sum accumulator holds the half's tiles `0 … j` added up. -/
theorem acc_mus (c : Dev nD) (q : ℕ) : ∀ (j : ℕ) (_ : j < 16) (h : 16 * q + j < cfg0.N) (k : Fin 512) (d : Fin 128),
    (acc0 V c (16 * q + j) h).1 (ix2 k d)
      = ∑ s ∈ Finset.range (j + 1), tileMus (V c main_arg2) (V c main_v0) (16 * q + s) k d
  | 0, _, h, k, d => by
    have e := acc0_first V c ⟨16 * q + 0, h⟩ (by show (16 * q + 0) % 16 = 0; omega)
    rw [show acc0 V c (16 * q + 0) h = _ from e]
    show k0_pay4 (F := Ideal) (ys0 V c ⟨16 * q + 0, h⟩) (xs0 V c ⟨16 * q + 0, h⟩) (k0_pay1 (F := Ideal)) (ix2 k d) = _
    rw [musStep, pay1_apply, zero_add, Finset.sum_range_one]
  | j + 1, hj, h, k, d => by
    have e := acc0_next V c ⟨16 * q + (j + 1), h⟩ (by show ¬(16 * q + (j + 1)) % 16 = 0; omega)
    rw [show acc0 V c (16 * q + (j + 1)) h = _ from e]
    show k0_pay4 (F := Ideal) (ys0 V c ⟨16 * q + (j + 1), h⟩) (xs0 V c ⟨16 * q + (j + 1), h⟩)
      (acc0 V c (16 * q + (j + 1) - 1) _).1 (ix2 k d) = _
    rw [musStep, Finset.sum_range_succ _ (j + 1),
      acc0_congr V c (16 * q + (j + 1) - 1) (16 * q + j) _ (Nat.lt_of_succ_lt h) (by omega),
      acc_mus c q j (Nat.lt_of_succ_lt hj) (Nat.lt_of_succ_lt h) k d]

/-- After tile `j` of half `q` the count accumulator holds the half's tiles `0 … j` added up. -/
theorem acc_cnt (c : Dev nD) (q : ℕ) : ∀ (j : ℕ) (_ : j < 16) (h : 16 * q + j < cfg0.N) (k : Fin 512),
    (acc0 V c (16 * q + j) h).2 (ix2 (0 : Fin 1) k)
      = ∑ s ∈ Finset.range (j + 1), tileCnt (V c main_v0) (16 * q + s) k
  | 0, _, h, k => by
    have e := acc0_first V c ⟨16 * q + 0, h⟩ (by show (16 * q + 0) % 16 = 0; omega)
    rw [show acc0 V c (16 * q + 0) h = _ from e]
    show k0_pay5 (F := Ideal) (ys0 V c ⟨16 * q + 0, h⟩) (k0_pay2 (F := Ideal)) (ix2 (0 : Fin 1) k) = _
    rw [cntStep, pay2_apply, zero_add, Finset.sum_range_one]
  | j + 1, hj, h, k => by
    have e := acc0_next V c ⟨16 * q + (j + 1), h⟩ (by show ¬(16 * q + (j + 1)) % 16 = 0; omega)
    rw [show acc0 V c (16 * q + (j + 1)) h = _ from e]
    show k0_pay5 (F := Ideal) (ys0 V c ⟨16 * q + (j + 1), h⟩) (acc0 V c (16 * q + (j + 1) - 1) _).2 (ix2 (0 : Fin 1) k) = _
    rw [cntStep, Finset.sum_range_succ _ (j + 1),
      acc0_congr V c (16 * q + (j + 1) - 1) (16 * q + j) _ (Nat.lt_of_succ_lt h) (by omega),
      acc_cnt c q j (Nat.lt_of_succ_lt hj) (Nat.lt_of_succ_lt h) k]

/-! ## A half's tiles added up are the half's share -/

theorem half_mus (xs : Cert.Spec.XS) (ys : Cert.Spec.YS) (Y : S65536x1.Idx → BitVec 32)
    (hys : ∀ s : Fin 65536, Y (ix2 s (0 : Fin 1)) = ys (ix1 s)) (a : Fin 2) (k : Fin 512) (d : Fin 128) :
    ∑ s ∈ Finset.range 16, tileMus xs Y (16 * a.val + s) k d = Cert.Spec.musPart xs ys a k d := by
  rw [Finset.sum_range]
  unfold Cert.Spec.musPart
  refine Finset.sum_congr rfl fun i _ => ?_
  unfold tileMus
  rw [dif_pos (by have := a.isLt; have := i.isLt; omega)]
  refine Finset.sum_congr rfl fun r _ => ?_
  have e : (⟨(16 * a.val + i.val) * 2048 + r.val, by have := a.isLt; have := i.isLt; have := r.isLt; omega⟩ : Fin 65536)
      = Cert.Spec.row a i r := Fin.ext (by show (16 * a.val + i.val) * 2048 + r.val = (a.val * 16 + i.val) * 2048 + r.val; omega)
  rw [e, hys]

theorem half_cnt (ys : Cert.Spec.YS) (Y : S65536x1.Idx → BitVec 32)
    (hys : ∀ s : Fin 65536, Y (ix2 s (0 : Fin 1)) = ys (ix1 s)) (a : Fin 2) (k : Fin 512) :
    ∑ s ∈ Finset.range 16, tileCnt Y (16 * a.val + s) k = Cert.Spec.cntPart ys a k := by
  rw [Finset.sum_range]
  unfold Cert.Spec.cntPart
  refine Finset.sum_congr rfl fun i _ => ?_
  unfold tileCnt
  rw [dif_pos (by have := a.isLt; have := i.isLt; omega)]
  refine Finset.sum_congr rfl fun r _ => ?_
  have e : (⟨(16 * a.val + i.val) * 2048 + r.val, by have := a.isLt; have := i.isLt; have := r.isLt; omega⟩ : Fin 65536)
      = Cert.Spec.row a i r := Fin.ext (by show (16 * a.val + i.val) * 2048 + r.val = (a.val * 16 + i.val) * 2048 + r.val; omega)
  rw [e, hys]

/-! ## The two result arrays -/

/-- The halves' shares of the class sums, as contents of the whole result array; of the counts likewise. -/
def G2 (xs : Cert.Spec.XS) (ys : Cert.Spec.YS) : S2x512x128.Idx → EReal := fun i => Cert.Spec.musPart xs ys (i 0) (i 1) (i 2)
def G3 (ys : Cert.Spec.YS) : S2x1x512.Idx → EReal := fun i => Cert.Spec.cntPart ys (i 0) (i 2)

theorem G2_at (xs : Cert.Spec.XS) (ys : Cert.Spec.YS) (i : S2x512x128.Idx) (a : Fin 2) (k : Fin 512) (d : Fin 128)
    (h0 : (i 0).val = a.val) (h1 : (i 1).val = k.val) (h2 : (i 2).val = d.val) : G2 xs ys i = Cert.Spec.musPart xs ys a k d := by
  obtain rfl : i = ix3 a k d := funext fun b => Fin.ext (by
    match b with
    | ⟨0, _⟩ => exact h0
    | ⟨1, _⟩ => exact h1
    | ⟨2, _⟩ => exact h2)
  rfl

theorem G3_at (ys : Cert.Spec.YS) (i : S2x1x512.Idx) (a : Fin 2) (k : Fin 512)
    (h0 : (i 0).val = a.val) (h2 : (i 2).val = k.val) : G3 ys i = Cert.Spec.cntPart ys a k := by
  have e0 : i 0 = a := Fin.ext h0
  have e2 : i 2 = k := Fin.ext h2
  unfold G3
  rw [e0, e2]

/-- The last point of a half writes back the half's row of the class sums. -/
theorem flushed2_eq (c : Dev nD) (xs : Cert.Spec.XS) (ys : Cert.Spec.YS) (hxs : V c main_arg2 = xs)
    (hys : ∀ s : Fin 65536, V c main_v0 (ix2 s (0 : Fin 1)) = ys (ix1 s)) (t : Fin cfg0.N) (hf : (cfg0.win 2).flush t = true) :
    (dat0 (F := Ideal) V c).flushed 2 t = ((cfg0.win 2).blk t).view.read (Elt Ideal) (G2 xs ys) := by
  have h15 : t.val % 16 = 15 := (flush0_2 t).mp hf
  have ht : t.val < 32 := N0 ▸ t.isLt
  obtain ⟨e0, e1, e2⟩ := idx0_2 t
  show (cfg0.win 2).cut (grid0.coords t) ((dat0 (F := Ideal) V c).after 2 t) = _
  rw [after0_2]
  funext j
  obtain ⟨z, k, d, rfl⟩ : ∃ (z : Fin 1) (k : Fin 512) (d : Fin 128), j = ix3 z k d := ⟨j 0, j 1, j 2, eq_ix3 j⟩
  show k0_pay6 (F := Ideal) (acc0 V c t.val t.isLt).1 (ix3 z k d) = G2 xs ys (((cfg0.win 2).blk t).view.emb (ix3 z k d))
  rw [pay6_apply, acc0_congr V c t.val (16 * (t.val / 16) + 15) t.isLt (by have := N0; omega) (by omega),
    acc_mus V c (t.val / 16) 15 (by omega) _ k d, hxs]
  refine Eq.trans (half_mus xs ys (V c main_v0) hys ⟨t.val / 16, by omega⟩ k d)
    (G2_at xs ys _ ⟨t.val / 16, by omega⟩ k d ?_ ?_ ?_).symm
  · show win0_2.index t 0 * 1 + 1 * z.val = t.val / 16
    rw [e0]; omega
  · show win0_2.index t 1 * 512 + 1 * k.val = k.val
    rw [e1]; omega
  · show win0_2.index t 2 * 128 + 1 * d.val = d.val
    rw [e2]; omega

/-- Every entry of the class-sum array is in the block the last point of its half writes back. -/
theorem cover2 (i : S2x512x128.Idx) : ∃ t : Fin cfg0.N, (cfg0.win 2).flush t = true ∧ i ∈ ((cfg0.win 2).blk t).view.set := by
  have h0 : (i 0).val < 2 := (i 0).isLt
  have h1 : (i 1).val < 512 := (i 1).isLt
  have h2 : (i 2).val < 128 := (i 2).isLt
  have hN : 16 * (i 0).val + 15 < cfg0.N := by have := N0; omega
  refine ⟨⟨16 * (i 0).val + 15, hN⟩, (flush0_2 _).mpr (by show (16 * (i 0).val + 15) % 16 = 15; omega), ?_⟩
  obtain ⟨e0, e1, e2⟩ := idx0_2 ⟨16 * (i 0).val + 15, hN⟩
  have e0' : win0_2.index ⟨16 * (i 0).val + 15, hN⟩ 0 = (16 * (i 0).val + 15) / 16 := e0
  show i ∈ ((View.whole main_v1_0).slice (win0_2.rect ⟨16 * (i 0).val + 15, hN⟩)).set
  rw [View.set_slice_whole, Rect.mem_set_unit]
  intro a
  match a with
  | ⟨0, _⟩ =>
    show win0_2.index ⟨16 * (i 0).val + 15, hN⟩ 0 * 1 ≤ (i 0).val ∧ (i 0).val < win0_2.index ⟨16 * (i 0).val + 15, hN⟩ 0 * 1 + 1
    rw [e0']; omega
  | ⟨1, _⟩ =>
    show win0_2.index ⟨16 * (i 0).val + 15, hN⟩ 1 * 512 ≤ (i 1).val ∧ (i 1).val < win0_2.index ⟨16 * (i 0).val + 15, hN⟩ 1 * 512 + 512
    rw [e1]; omega
  | ⟨2, _⟩ =>
    show win0_2.index ⟨16 * (i 0).val + 15, hN⟩ 2 * 128 ≤ (i 2).val ∧ (i 2).val < win0_2.index ⟨16 * (i 0).val + 15, hN⟩ 2 * 128 + 128
    rw [e2]; omega

/-- The last point of a half writes back the half's row of the counts. -/
theorem flushed3_eq (c : Dev nD) (ys : Cert.Spec.YS)
    (hys : ∀ s : Fin 65536, V c main_v0 (ix2 s (0 : Fin 1)) = ys (ix1 s)) (t : Fin cfg0.N) (hf : (cfg0.win 3).flush t = true) :
    (dat0 (F := Ideal) V c).flushed 3 t = ((cfg0.win 3).blk t).view.read (Elt Ideal) (G3 ys) := by
  have h15 : t.val % 16 = 15 := (flush0_3 t).mp hf
  have ht : t.val < 32 := N0 ▸ t.isLt
  obtain ⟨e0, e1, e2⟩ := idx0_3 t
  show (cfg0.win 3).cut (grid0.coords t) ((dat0 (F := Ideal) V c).after 3 t) = _
  rw [after0_3]
  funext j
  obtain ⟨z, z', k, rfl⟩ : ∃ (z : Fin 1) (z' : Fin 1) (k : Fin 512), j = ix3 z z' k := ⟨j 0, j 1, j 2, eq_ix3 j⟩
  show k0_pay7 (F := Ideal) (acc0 V c t.val t.isLt).2 (ix3 z z' k) = G3 ys (((cfg0.win 3).blk t).view.emb (ix3 z z' k))
  rw [pay7_apply, acc0_congr V c t.val (16 * (t.val / 16) + 15) t.isLt (by have := N0; omega) (by omega),
    acc_cnt V c (t.val / 16) 15 (by omega) _ k]
  refine Eq.trans (half_cnt ys (V c main_v0) hys ⟨t.val / 16, by omega⟩ k)
    (G3_at ys _ ⟨t.val / 16, by omega⟩ k ?_ ?_).symm
  · show win0_3.index t 0 * 1 + 1 * z.val = t.val / 16
    rw [e0]; omega
  · show win0_3.index t 2 * 512 + 1 * k.val = k.val
    rw [e2]; omega

/-- Every entry of the count array is in the block the last point of its half writes back. -/
theorem cover3 (i : S2x1x512.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 512 := (i 2).isLt
  have hN : 16 * (i 0).val + 15 < cfg0.N := by have := N0; omega
  refine ⟨⟨16 * (i 0).val + 15, hN⟩, (flush0_3 _).mpr (by show (16 * (i 0).val + 15) % 16 = 15; omega), ?_⟩
  obtain ⟨e0, e1, e2⟩ := idx0_3 ⟨16 * (i 0).val + 15, hN⟩
  have e0' : win0_3.index ⟨16 * (i 0).val + 15, hN⟩ 0 = (16 * (i 0).val + 15) / 16 := e0
  show i ∈ ((View.whole main_v1_1).slice (win0_3.rect ⟨16 * (i 0).val + 15, hN⟩)).set
  rw [View.set_slice_whole, Rect.mem_set_unit]
  intro a
  match a with
  | ⟨0, _⟩ =>
    show win0_3.index ⟨16 * (i 0).val + 15, hN⟩ 0 * 1 ≤ (i 0).val ∧ (i 0).val < win0_3.index ⟨16 * (i 0).val + 15, hN⟩ 0 * 1 + 1
    rw [e0']; omega
  | ⟨1, _⟩ =>
    show win0_3.index ⟨16 * (i 0).val + 15, hN⟩ 1 * 1 ≤ (i 1).val ∧ (i 1).val < win0_3.index ⟨16 * (i 0).val + 15, hN⟩ 1 * 1 + 1
    rw [e1]; omega
  | ⟨2, _⟩ =>
    show win0_3.index ⟨16 * (i 0).val + 15, hN⟩ 2 * 512 ≤ (i 2).val ∧ (i 2).val < win0_3.index ⟨16 * (i 0).val + 15, hN⟩ 2 * 512 + 512
    rw [e2]; omega

end R0V

open R0V

/-- The class-sum result array after the region: entry `(a, k, d)` is half `a`'s share of class `k`'s sum. -/
theorem arr0_2 (c : Dev nD) (xs : Cert.Spec.XS) (ys : Cert.Spec.YS) (hxs : V c main_arg2 = xs)
    (hys : ∀ s : Fin 65536, V c main_v0 (ix2 s (0 : Fin 1)) = ys (ix1 s)) (a : Fin 2) (k : Fin 512) (d : Fin 128) :
    (dat0 (F := Ideal) V c).arrAt 2 cfg0.N (ix3 a k d) = Cert.Spec.musPart xs ys a k d := by
  have h := (dat0 (F := Ideal) V c).arrAt_eq_of_cover 2 (G2 xs ys) (flushed2_eq V c xs ys hxs hys) cover2
  rw [h]
  rfl

/-- The count result array after the region: entry `(a, 0, k)` is half `a`'s share of class `k`'s count. -/
theorem arr0_3 (c : Dev nD) (ys : Cert.Spec.YS)
    (hys : ∀ s : Fin 65536, V c main_v0 (ix2 s (0 : Fin 1)) = ys (ix1 s)) (a : Fin 2) (k : Fin 512) :
    (dat0 (F := Ideal) V c).arrAt 3 cfg0.N (ix3 a (0 : Fin 1) k) = Cert.Spec.cntPart ys a k := by
  have h := (dat0 (F := Ideal) V c).arrAt_eq_of_cover 3 (G3 ys) (flushed3_eq V c ys hys) cover3
  rw [h]
  rfl

end Cert.KernelIdeal.Hand

end
-- ==== Proof.KI.R1Val.lean ====
/-
  What the finalize call leaves in its result array, at the exact instance: entry `a` is the sum of the losses of half
  `a`'s queries, each a function of the arrays the call is handed.

  The road: layout operations on columns and one-axis reductions read at coordinates; each payload of the call read at
  coordinates as the specification's function of its operands (the plain prototypes, their squared norms, the one-hot of
  the query's class, the own-class logit, the product of queries and prototypes, the masked log-sum-exp summed over the
  rows); one point's result block as the sum over its 1024 queries; each operand block as rows of its array; and the two
  points' blocks tiling the result array.
-/
import proofs.«413345_j40647570489383_3_alg».proof.Proof.KI.R1Def
import proofs.«413345_j40647570489383_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

namespace R1

/-! ## Layout operations on columns, read at coordinates -/

section Layout
variable {α : Type}

/-- A column `[a, 1]` broadcast along its rows to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) (u : Fin 1) :
    broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- A vector `[a]` cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## Reductions along one axis of a matrix, read at coordinates -/

section Reduce
variable {φ : FTy}

/-- The index over row `r` with lane `d` inserted on axis 1. -/
theorem lift_axis1 {a b : ℕ} (h : (⟨2, ![a, b]⟩ : Shape).Reduces [1] ⟨1, ![a]⟩) (r : Fin a) (d : Fin b) :
    h.lift (ix1 r) d = ix2 r d := by
  funext c
  match c with
  | ⟨0, _⟩ => exact Fin.ext rfl
  | ⟨1, _⟩ => exact Fin.ext rfl

/-- The index over the one column entry with row `r` inserted on axis 0. -/
theorem lift_axis0 {a : ℕ} (h : (⟨2, ![a, 1]⟩ : Shape).Reduces [0] ⟨1, ![1]⟩) (u : Fin 1) (r : Fin a) :
    h.lift (ix1 u) r = ix2 r u := by
  funext c
  match c with
  | ⟨0, _⟩ => exact Fin.ext rfl
  | ⟨1, _⟩ => exact Fin.ext rfl

/-- A lane sum of a matrix, at row `r`: the sum of the row. -/
theorem rowSum_apply {a b : ℕ} (src : FVec Ideal ⟨2, ![a, b]⟩ .f32)
    (h : (⟨2, ![a, b]⟩ : Shape).Reduces [1] ⟨1, ![a]⟩) (hacc : (0x00000000#32 : BitVec 32) = 0x00000000#32) (r : Fin a) :
    multiReduction .add [1] ⟨1, ![a]⟩ src 0x00000000#32 h (.inl rfl) hacc (ix1 r) = ∑ d : Fin b, src (ix2 r d) := by
  refine (Ideal.multiReduction_add_single src 0x00000000#32 h (.inl rfl) hacc (ix1 r)).trans ?_
  exact Finset.sum_congr rfl fun d _ => congrArg src (lift_axis1 h r d)

/-- A sum down the one column of a `[a, 1]` matrix: the sum of its entries. -/
theorem colSum_apply {a : ℕ} (src : FVec Ideal ⟨2, ![a, 1]⟩ .f32)
    (h : (⟨2, ![a, 1]⟩ : Shape).Reduces [0] ⟨1, ![1]⟩) (hacc : (0x00000000#32 : BitVec 32) = 0x00000000#32) (u : Fin 1) :
    multiReduction .add [0] ⟨1, ![1]⟩ src 0x00000000#32 h (.inl rfl) hacc (ix1 u) = ∑ r : Fin a, src (ix2 r u) := by
  refine (Ideal.multiReduction_add_single src 0x00000000#32 h (.inl rfl) hacc (ix1 u)).trans ?_
  exact Finset.sum_congr rfl fun r _ => congrArg src (lift_axis0 h u r)

/-- The word of `-∞` is the bottom of the extended reals. -/
theorem ofBits_ninf : Ideal.ofBits .f32 0xFF800000#32 = ⊥ := by simp [Ideal.ofBits, Ideal.ieee]

/-- A lane maximum of a matrix from `-∞`, at row `r`: the supremum of the row. -/
theorem rowMax_apply {a b : ℕ} (src : FVec Ideal ⟨2, ![a, b]⟩ .f32)
    (h : (⟨2, ![a, b]⟩ : Shape).Reduces [1] ⟨1, ![a]⟩)
    (hacc : (0xFF800000#32 : BitVec 32) = 0xFF800000#32) (r : Fin a) :
    multiReduction .maximumf [1] ⟨1, ![a]⟩ src 0xFF800000#32 h (.inl rfl) hacc (ix1 r)
      = Finset.univ.sup fun k : Fin b => src (ix2 r k) := by
  refine (Ideal.multiReduction_maximumf_single src 0xFF800000#32 h (.inl rfl) hacc (ix1 r)).trans ?_
  show Finset.univ.fold max (Ideal.ofBits .f32 0xFF800000#32) (src ∘ h.lift (ix1 r)) = _
  rw [ofBits_ninf, show (src ∘ h.lift (ix1 r)) = fun k : Fin b => src (ix2 r k) from
    funext fun d => congrArg src (lift_axis1 h r d)]
  rfl

end Reduce

/-! ## The finalize call's payloads at the exact instance, read at coordinates -/

section Payloads

/-- The plain prototype of class `k` at lane `d`: the class sum over the count floored at one tenth. -/
theorem pay3_apply (cr : FVec Ideal S1x512 .f32) (mu : FVec Ideal S512x128 .f32) (k : Fin 512) (d : Fin 128) :
    k1_pay3 (F := Ideal) cr mu (ix2 k d) = Cert.Spec.proto (fun k d => mu (ix2 k d)) (fun k => cr (ix2 0 k)) k d := by
  unfold k1_pay3 Cert.Spec.proto
  simp only [shapeCast_self]
  rw [divf_apply, broadcastTo_a1_ab_apply _ _ k d 0, maximumf_apply, transpose_ix2_apply, broadcast_apply]
  rfl

theorem pay4_apply (cr : FVec Ideal S1x512 .f32) (mu : FVec Ideal S512x128 .f32) (k : Fin 512) (d : Fin 128) :
    k1_pay4 (F := Ideal) cr mu (ix2 k d) = Cert.Spec.proto (fun k d => mu (ix2 k d)) (fun k => cr (ix2 0 k)) k d := by
  unfold k1_pay4
  simp only [shapeCast_self]
  exact pay3_apply cr mu k d

/-- The squared norm of class `k`'s prototype. -/
theorem pay5_apply (cr : FVec Ideal S1x512 .f32) (mu : FVec Ideal S512x128 .f32) (u : Fin 1) (k : Fin 512) :
    k1_pay5 (F := Ideal) cr mu (ix2 u k) = Cert.Spec.psq (fun k d => mu (ix2 k d)) (fun k => cr (ix2 0 k)) k := by
  unfold k1_pay5 Cert.Spec.psq
  simp only [shapeCast_self]
  rw [transpose_ix2_apply, shapeCast_a_a1_apply, rowSum_apply]
  exact Finset.sum_congr rfl fun d _ => by rw [mulf_apply, pay3_apply]

/-- The one-hot of a query's class against the class axis. -/
theorem pay6_apply (y : IVec S1024x1 32) (r : Fin 1024) (k : Fin 512) :
    k1_pay6 (F := Ideal) y (ix2 r k) = BitVec.ofBool (y (ix2 r 0) == BitVec.ofNat 32 k.val) := by
  unfold k1_pay6
  simp only [shapeCast_self]
  show IntOp.cmpi .eq (broadcastTo S1024x512 y broadcasts_S1024x1_S1024x512 (ix2 r k))
      (iota .tc S1024x512 32 [1] iota_S1024x512_d1_w32 (ix2 r k)) = _
  rw [broadcastTo_a1_ab_apply _ _ r k 0, iota_single_apply]
  rfl

/-- A comparison against one tenth, widened and converted: the mask of a count above one tenth. -/
theorem gt01_word (v : EReal) :
    FloatOps.sitofp (F := Ideal) .f32 (BitVec.setWidth 32 (FloatOps.cmpf (F := Ideal) (φ := .f32) .ogt v (FloatOps.ofBits (F := Ideal) .f32 0x3DCCCCCD#32)))
      = Cert.Spec.gt01 v := by
  show (((BitVec.setWidth 32 (Ideal.cmp .ogt v (Ideal.ofBits .f32 0x3DCCCCCD#32))).toInt : ℝ) : EReal) = Cert.Spec.gt01 v
  unfold Cert.Spec.gt01 Ideal.cmp
  by_cases h : Cert.Spec.c01 < v
  · rw [if_pos h]; simp [h]
  · rw [if_neg h]; simp [h]

/-- The own-class logit of query `r`, the query left out of its class's sum and count. -/
theorem pay7_apply (x ms : FVec Ideal S1024x128 .f32) (cs : FVec Ideal S1024x1 .f32) (r : Fin 1024) (u : Fin 1) :
    k1_pay7 (F := Ideal) x ms cs (ix2 r u)
      = Cert.Spec.lselfOf (fun d => x (ix2 r d)) (fun d => ms (ix2 r d)) (cs (ix2 r 0)) := by
  have hu : u = 0 := Subsingleton.elim _ _
  subst hu
  unfold k1_pay7 Cert.Spec.lselfOf
  simp only [shapeCast_self]
  rw [mulf_apply, mulf_apply, broadcast_apply, shapeCast_a_a1_apply, rowSum_apply, sitofp_apply, extui_apply, cmpf_apply,
    subf_apply, broadcast_apply, broadcast_apply]
  rw [gt01_word]
  refine congrArg₂ (· * ·) (congrArg (_ * ·) (Finset.sum_congr rfl fun d _ => ?_)) rfl
  rw [mulf_apply, subf_apply, divf_apply, subf_apply, broadcastTo_a1_ab_apply _ _ r d 0, maximumf_apply, subf_apply,
    broadcast_apply, broadcast_apply]
  rfl

theorem pay9_apply (x : FVec Ideal S1024x128 .f32) (r : Fin 1024) (d : Fin 128) :
    k1_pay9 (F := Ideal) x (ix2 r d) = x (ix2 r d) * x (ix2 r d) := rfl

end Payloads

/-! ## The product of the queries with the prototypes -/

section Dot

theorem dot_lhs_0 (j : S1024x512.Idx) (q : dot_S1024x128_S512x128_S1024x512_1_1_0_0_n_n.contr.Idx) :
    (dot_S1024x128_S512x128_S1024x512_1_1_0_0_n_n.lhsIdx j q (0 : Fin 2)).val = (j 0).val := by
  simp [DotDims.lhsIdx, dot_S1024x128_S512x128_S1024x512_1_1_0_0_n_n]; rfl

theorem dot_lhs_1 (j : S1024x512.Idx) (q : dot_S1024x128_S512x128_S1024x512_1_1_0_0_n_n.contr.Idx) :
    (dot_S1024x128_S512x128_S1024x512_1_1_0_0_n_n.lhsIdx j q (1 : Fin 2)).val = (q ⟨0, by decide⟩).val :=
  dot_S1024x128_S512x128_S1024x512_1_1_0_0_n_n.lhsIdx_val_of_single rfl j q

theorem dot_rhs_0 (j : S1024x512.Idx) (q : dot_S1024x128_S512x128_S1024x512_1_1_0_0_n_n.contr.Idx) :
    (dot_S1024x128_S512x128_S1024x512_1_1_0_0_n_n.rhsIdx j q (0 : Fin 2)).val = (j 1).val := by
  simp [DotDims.rhsIdx, dot_S1024x128_S512x128_S1024x512_1_1_0_0_n_n]; rfl

theorem dot_rhs_1 (j : S1024x512.Idx) (q : dot_S1024x128_S512x128_S1024x512_1_1_0_0_n_n.contr.Idx) :
    (dot_S1024x128_S512x128_S1024x512_1_1_0_0_n_n.rhsIdx j q (1 : Fin 2)).val = (q ⟨0, by decide⟩).val :=
  dot_S1024x128_S512x128_S1024x512_1_1_0_0_n_n.rhsIdx_val_of_single rfl j q

/-- The product contracting the lane axis of both operands, into the zero accumulator: the inner product of row `r` of
    the one with row `k` of the other. -/
theorem dot_apply {φ₁ φ₂ : FTy} (A : FVec Ideal S1024x128 φ₁) (B : FVec Ideal S512x128 φ₂) (r : Fin 1024) (k : Fin 512) :
    matmul dot_S1024x128_S512x128_S1024x512_1_1_0_0_n_n none A B (constant S1024x512 .f32 0x00000000#32) (ix2 r k)
      = ∑ d : Fin 128, A (ix2 r d) * B (ix2 k d) := by
  show FloatOps.matmul _ none A B (constant S1024x512 .f32 0x00000000#32) (ix2 r k) = _
  rw [Ideal.matmul_constant_zero_apply,
    ← Equiv.sum_comp (contrEquiv1 dot_S1024x128_S512x128_S1024x512_1_1_0_0_n_n 128 rfl rfl).symm]
  refine Finset.sum_congr rfl fun d _ => ?_
  have cv := contrEquiv1_symm_val dot_S1024x128_S512x128_S1024x512_1_1_0_0_n_n 128 rfl rfl d
  have l : dot_S1024x128_S512x128_S1024x512_1_1_0_0_n_n.lhsIdx (ix2 r k)
      ((contrEquiv1 dot_S1024x128_S512x128_S1024x512_1_1_0_0_n_n 128 rfl rfl).symm d) = ix2 r d := by
    funext ax; apply Fin.ext
    match ax with
    | ⟨0, _⟩ => exact dot_lhs_0 _ _
    | ⟨1, _⟩ => exact (dot_lhs_1 _ _).trans cv
  have rr : dot_S1024x128_S512x128_S1024x512_1_1_0_0_n_n.rhsIdx (ix2 r k)
      ((contrEquiv1 dot_S1024x128_S512x128_S1024x512_1_1_0_0_n_n 128 rfl rfl).symm d) = ix2 k d := by
    funext ax; apply Fin.ext
    match ax with
    | ⟨0, _⟩ => exact dot_rhs_0 _ _
    | ⟨1, _⟩ => exact (dot_rhs_1 _ _).trans cv
  rw [l, rr]

/-- The queries against the prototypes: entry `(r, k)` is `⟨x r, p k⟩`. -/
theorem pay8_apply (x : FVec Ideal S1024x128 .f32) (p : FVec Ideal S512x128 .f32) (r : Fin 1024) (k : Fin 512) :
    k1_pay8 (F := Ideal) x p (ix2 r k) = ∑ d : Fin 128, x (ix2 r d) * p (ix2 k d) := by
  unfold k1_pay8
  exact dot_apply _ _ r k

end Dot

/-! ## The masked log-sum-exp and the sum over the rows -/

section Loss

theorem exp_apply {s : Shape} (a : FVec Ideal s .f32) (i : s.Idx) : exp a i = Ideal.exp (a i) := rfl
theorem log_apply {s : Shape} (a : FVec Ideal s .f32) (i : s.Idx) : log a i = Ideal.log (a i) := rfl

/-- The masked logits of the 1024 queries against the 512 classes, from the operands of the last payload: the one-hot `oh`,
    the own-class logits `ls`, the prototypes' squared norms `ps`, the products `xp`, the squares `xx`, the count row `cr`. -/
def lfinVec (oh : IVec S1024x512 1) (ls : FVec Ideal S1024x1 .f32) (ps : FVec Ideal S1x512 .f32)
    (xp : FVec Ideal S1024x512 .f32) (xx : FVec Ideal S1024x128 .f32) (cr : FVec Ideal S1x512 .f32) : FVec Ideal S1024x512 .f32 :=
  mulf
    (select oh (broadcastTo S1024x512 ls broadcasts_S1024x1_S1024x512)
      (mulf
        (subf
          (addf
            (broadcastTo S1024x512
              (mulf (broadcast S1024x1 (Scalar.ofBits .f32 0xBF000000#32))
                (shapeCast S1024x1 (multiReduction .add [1] S1024 xx 0x00000000#32 reduces_S1024x128_S1024 (.inl rfl) rfl)
                  shapeCasts_S1024_S1024x1))
              broadcasts_S1024x1_S1024x512)
            xp)
          (broadcastTo S1024x512 (mulf (broadcast S1x512 (Scalar.ofBits .f32 0x3F000000#32)) ps) broadcasts_S1x512_S1024x512))
        (broadcastTo S1024x512
          (sitofp .f32 (extui 32 (cmpf .ogt cr (broadcast S1x512 (Scalar.ofBits .f32 0x3DCCCCCD#32))) natLt_1_32))
          broadcasts_S1x512_S1024x512)))
    (broadcast S1024x512 (Scalar.ofBits .f32 0x3F800000#32))

/-- Row maxima of a `[1024, 512]` matrix, as a column. -/
def rowMaxVec (L : FVec Ideal S1024x512 .f32) : FVec Ideal S1024x1 .f32 :=
  shapeCast S1024x1 (multiReduction .maximumf [1] S1024 L 0xFF800000#32 reduces_S1024x512_S1024 (.inl rfl) rfl)
    shapeCasts_S1024_S1024x1

/-- Row log-sum-exp of a `[1024, 512]` matrix through the row maxima, as a column. -/
def lseVec (L : FVec Ideal S1024x512 .f32) : FVec Ideal S1024x1 .f32 :=
  addf (rowMaxVec L)
    (log (shapeCast S1024x1
      (multiReduction .add [1] S1024 (exp (subf L (broadcastTo S1024x512 (rowMaxVec L) broadcasts_S1024x1_S1024x512)))
        0x00000000#32 reduces_S1024x512_S1024 (.inl rfl) rfl)
      shapeCasts_S1024_S1024x1))

/-- The last payload is the accumulator plus the column sum of the rows' log-sum-exp less their own logits. -/
theorem pay10_eq (oh : IVec S1024x512 1) (ls : FVec Ideal S1024x1 .f32) (ps : FVec Ideal S1x512 .f32)
    (xp : FVec Ideal S1024x512 .f32) (xx : FVec Ideal S1024x128 .f32) (cr : FVec Ideal S1x512 .f32) (z : FVec Ideal S1x1 .f32) :
    k1_pay10 (F := Ideal) oh ls ps xp xx cr z
      = addf z (shapeCast S1x1
          (multiReduction .add [0] S1
            (subf (lseVec (lfinVec oh ls ps xp xx cr)) (mulf ls (broadcast S1024x1 (Scalar.ofBits .f32 0x3F800000#32))))
            0x00000000#32 reduces_S1024x1_S1 (.inl rfl) rfl)
          shapeCasts_S1_S1x1) := by
  unfold k1_pay10 lseVec rowMaxVec lfinVec
  simp only [shapeCast_self]

theorem lfinVec_apply (oh : IVec S1024x512 1) (ls : FVec Ideal S1024x1 .f32) (ps : FVec Ideal S1x512 .f32)
    (xp : FVec Ideal S1024x512 .f32) (xx : FVec Ideal S1024x128 .f32) (cr : FVec Ideal S1x512 .f32) (r : Fin 1024) (k : Fin 512) :
    lfinVec oh ls ps xp xx cr (ix2 r k)
      = Scalar.select (oh (ix2 r k)) (ls (ix2 r 0))
          ((((Cert.Spec.mhalf * ∑ d : Fin 128, xx (ix2 r d)) + xp (ix2 r k)) - Cert.Spec.half * ps (ix2 0 k))
            * Cert.Spec.gt01 (cr (ix2 0 k))) * Cert.Spec.one := by
  unfold lfinVec
  rw [mulf_apply, select_apply, broadcast_apply, broadcastTo_a1_ab_apply _ _ r k 0, mulf_apply, subf_apply, addf_apply,
    broadcastTo_a1_ab_apply _ _ r k 0, mulf_apply, broadcast_apply, shapeCast_a_a1_apply, rowSum_apply,
    broadcastTo_1b_ab_apply, mulf_apply, broadcast_apply, broadcastTo_1b_ab_apply, sitofp_apply, extui_apply, cmpf_apply,
    broadcast_apply]
  rw [show (Scalar.ofBits (F := Ideal) .f32 0x3DCCCCCD#32) = FloatOps.ofBits (F := Ideal) .f32 0x3DCCCCCD#32 from rfl, gt01_word]
  rfl

theorem rowMaxVec_apply (L : FVec Ideal S1024x512 .f32) (r : Fin 1024) (u : Fin 1) :
    rowMaxVec L (ix2 r u) = Finset.univ.sup fun k : Fin 512 => L (ix2 r k) := by
  unfold rowMaxVec
  rw [shapeCast_a_a1_apply, rowMax_apply]

theorem lseVec_apply (L : FVec Ideal S1024x512 .f32) (r : Fin 1024) (u : Fin 1) :
    lseVec L (ix2 r u)
      = (Finset.univ.sup fun k : Fin 512 => L (ix2 r k))
        + Ideal.log (∑ k : Fin 512, Ideal.exp (L (ix2 r k) - Finset.univ.sup fun k : Fin 512 => L (ix2 r k))) := by
  unfold lseVec
  rw [addf_apply, rowMaxVec_apply, log_apply, shapeCast_a_a1_apply, rowSum_apply]
  refine congrArg (_ + Ideal.log ·) (Finset.sum_congr rfl fun k _ => ?_)
  rw [exp_apply, subf_apply, broadcastTo_a1_ab_apply _ _ r k 0, rowMaxVec_apply]

/-- The last payload at its one entry: the accumulator plus the sum over the rows of the negative log-softmax at the own class. -/
theorem pay10_apply (oh : IVec S1024x512 1) (ls : FVec Ideal S1024x1 .f32) (ps : FVec Ideal S1x512 .f32)
    (xp : FVec Ideal S1024x512 .f32) (xx : FVec Ideal S1024x128 .f32) (cr : FVec Ideal S1x512 .f32) (z : FVec Ideal S1x1 .f32)
    (u v : Fin 1) :
    k1_pay10 (F := Ideal) oh ls ps xp xx cr z (ix2 u v)
      = z (ix2 u v) + ∑ r : Fin 1024,
          ((Finset.univ.sup (fun k : Fin 512 => lfinVec oh ls ps xp xx cr (ix2 r k))
            + Ideal.log (∑ k : Fin 512, Ideal.exp (lfinVec oh ls ps xp xx cr (ix2 r k)
                - Finset.univ.sup (fun k : Fin 512 => lfinVec oh ls ps xp xx cr (ix2 r k)))))
           - ls (ix2 r 0) * Cert.Spec.one) := by
  rw [pay10_eq, addf_apply, shapeCast_a_1a_apply, colSum_apply]
  refine congrArg (z (ix2 u v) + ·) (Finset.sum_congr rfl fun r _ => ?_)
  have hv : v = 0 := Subsingleton.elim _ _
  subst hv
  rw [subf_apply, lseVec_apply, mulf_apply, broadcast_apply]
  rfl

end Loss

/-! ## The finalize call's result block from its six operand blocks -/

section Compose

theorem select_beq {α : Type} (p q : BitVec 32) (a b : α) :
    Scalar.select (BitVec.ofBool (p == q)) a b = if p = q then a else b := by
  by_cases h : p = q
  · rw [if_pos h, show (p == q) = true from beq_iff_eq.mpr h]; exact select_one a b
  · rw [if_neg h, show (p == q) = false from beq_eq_false_iff_ne.mpr h]; exact select_zero a b

/-- The accumulator the call starts from is zero. -/
theorem pay2_apply (i : S1x1.Idx) : k1_pay2 (F := Ideal) i = 0 := by
  unfold k1_pay2
  simp only [shapeCast_self]
  exact Ideal.ofBits_zero_f32

/-- The masked logits the call forms for query `r` are the specification's. -/
theorem lfin_eq (x ms : FVec Ideal S1024x128 .f32) (y : IVec S1024x1 32) (cs : FVec Ideal S1024x1 .f32)
    (mu : FVec Ideal S512x128 .f32) (cr : FVec Ideal S1x512 .f32) (r : Fin 1024) (k : Fin 512) :
    lfinVec (k1_pay6 (F := Ideal) y) (k1_pay7 (F := Ideal) x ms cs) (k1_pay5 (F := Ideal) cr mu)
        (k1_pay8 (F := Ideal) x (k1_pay4 (F := Ideal) cr mu)) (k1_pay9 (F := Ideal) x) cr (ix2 r k)
      = Cert.Spec.lfin (fun k d => mu (ix2 k d)) (fun k => cr (ix2 0 k)) (fun d => x (ix2 r d)) (y (ix2 r 0))
          (Cert.Spec.lselfOf (fun d => x (ix2 r d)) (fun d => ms (ix2 r d)) (cs (ix2 r 0))) k := by
  rw [lfinVec_apply, pay6_apply, pay7_apply, pay5_apply, pay8_apply, select_beq]
  unfold Cert.Spec.lfin Cert.Spec.lgen
  simp only [pay4_apply, pay9_apply]

/-- One point's result: the sum over its 1024 queries of their losses. -/
theorem out1_apply (x ms : FVec Ideal S1024x128 .f32) (y : IVec S1024x1 32) (cs : FVec Ideal S1024x1 .f32)
    (mu : FVec Ideal S512x128 .f32) (cr : FVec Ideal S1x512 .f32) (u v w : Fin 1) :
    out1 (F := Ideal) x y ms cs mu cr (ix3 u v w)
      = ∑ r : Fin 1024, Cert.Spec.nllK (fun k d => mu (ix2 k d)) (fun k => cr (ix2 0 k)) (fun d => x (ix2 r d)) (y (ix2 r 0))
          (fun d => ms (ix2 r d)) (cs (ix2 r 0)) := by
  unfold out1 k1_pay1
  rw [shapeCast_ab_1ab_apply, pay10_apply, pay2_apply, zero_add]
  refine Finset.sum_congr rfl fun r _ => ?_
  unfold Cert.Spec.nllK
  simp only [lfin_eq]
  rw [pay7_apply]

end Compose

/-! ## From the points' blocks to the result array -/

section Blocks

variable (V : (c : Dev nD) → (b : Ref sig .tc) → Buf (Elt Ideal) ((c : Thread nD τ).loc b))

/-- The block index maps over the two points: the four query windows and the result window move with the point along
    their first axis, the two class windows stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val ∧ win1_6.index t (1 : Fin 3) = 0 ∧ win1_6.index t (2 : Fin 3) = 0 :=
  (by decide +kernel : ∀ t : Fin grid1.N, _)

/-- Point `t`'s block of the queries: rows `t * 1024 …` of the query array. -/
theorem iblk1_0_apply (c : Dev nD) (t : Fin cfg1.N) (a : Fin 2) (ha : a.val = t.val) (r : Fin 1024) (d : Fin 128) :
    iblk1 (F := Ideal) V c 0 t (ix2 r d) = V c main_arg0 (ix2 (Cert.Spec.qrow a r) d) := by
  obtain ⟨e0, e1, -⟩ := idx_facts1 t
  show V c main_arg0 (((cfg1.win 0).blk t).view.emb (ix2 r d)) = V c main_arg0 (ix2 (Cert.Spec.qrow a r) d)
  refine congrArg (V c main_arg0) (funext fun ax => Fin.ext ?_)
  match ax with
  | ⟨0, _⟩ => show win1_0.index t (0 : Fin 2) * 1024 + 1 * r.val = a.val * 1024 + r.val; omega
  | ⟨1, _⟩ => show win1_0.index t (1 : Fin 2) * 128 + 1 * d.val = d.val; omega

theorem iblk1_1_apply (c : Dev nD) (t : Fin cfg1.N) (a : Fin 2) (ha : a.val = t.val) (r : Fin 1024) (u : Fin 1) :
    iblk1 (F := Ideal) V c 1 t (ix2 r u) = V c main_v20 (ix2 (Cert.Spec.qrow a r) u) := by
  obtain ⟨-, -, e0, e1, -⟩ := idx_facts1 t
  show V c main_v20 (((cfg1.win 1).blk t).view.emb (ix2 r u)) = V c main_v20 (ix2 (Cert.Spec.qrow a r) u)
  refine congrArg (V c main_v20) (funext fun ax => Fin.ext ?_)
  match ax with
  | ⟨0, _⟩ => show win1_1.index t (0 : Fin 2) * 1024 + 1 * r.val = a.val * 1024 + r.val; omega
  | ⟨1, _⟩ => show win1_1.index t (1 : Fin 2) * 1 + 1 * u.val = u.val; omega

theorem iblk1_2_apply (c : Dev nD) (t : Fin cfg1.N) (a : Fin 2) (ha : a.val = t.val) (r : Fin 1024) (d : Fin 128) :
    iblk1 (F := Ideal) V c 2 t (ix2 r d) = V c main_v27 (ix2 (Cert.Spec.qrow a r) d) := by
  obtain ⟨-, -, -, -, e0, e1, -⟩ := idx_facts1 t
  show V c main_v27 (((cfg1.win 2).blk t).view.emb (ix2 r d)) = V c main_v27 (ix2 (Cert.Spec.qrow a r) d)
  refine congrArg (V c main_v27) (funext fun ax => Fin.ext ?_)
  match ax with
  | ⟨0, _⟩ => show win1_2.index t (0 : Fin 2) * 1024 + 1 * r.val = a.val * 1024 + r.val; omega
  | ⟨1, _⟩ => show win1_2.index t (1 : Fin 2) * 128 + 1 * d.val = d.val; omega

theorem iblk1_3_apply (c : Dev nD) (t : Fin cfg1.N) (a : Fin 2) (ha : a.val = t.val) (r : Fin 1024) (u : Fin 1) :
    iblk1 (F := Ideal) V c 3 t (ix2 r u) = V c main_v35 (ix2 (Cert.Spec.qrow a r) u) := by
  obtain ⟨-, -, -, -, -, -, e0, e1, -⟩ := idx_facts1 t
  show V c main_v35 (((cfg1.win 3).blk t).view.emb (ix2 r u)) = V c main_v35 (ix2 (Cert.Spec.qrow a r) u)
  refine congrArg (V c main_v35) (funext fun ax => Fin.ext ?_)
  match ax with
  | ⟨0, _⟩ => show win1_3.index t (0 : Fin 2) * 1024 + 1 * r.val = a.val * 1024 + r.val; omega
  | ⟨1, _⟩ => show win1_3.index t (1 : Fin 2) * 1 + 1 * u.val = u.val; omega

/-- Every point's block of the class sums is the whole array. -/
theorem iblk1_4_apply (c : Dev nD) (t : Fin cfg1.N) (k : Fin 512) (d : Fin 128) :
    iblk1 (F := Ideal) V c 4 t (ix2 k d) = V c main_v6 (ix2 k d) := by
  obtain ⟨-, -, -, -, -, -, -, -, e0, e1, -⟩ := idx_facts1 t
  show V c main_v6 (((cfg1.win 4).blk t).view.emb (ix2 k d)) = V c main_v6 (ix2 k d)
  refine congrArg (V c main_v6) (funext fun ax => Fin.ext ?_)
  match ax with
  | ⟨0, _⟩ => show win1_4.index t (0 : Fin 2) * 512 + 1 * k.val = k.val; omega
  | ⟨1, _⟩ => show win1_4.index t (1 : Fin 2) * 128 + 1 * d.val = d.val; omega

/-- Every point's block of the count row is the whole row. -/
theorem iblk1_5_apply (c : Dev nD) (t : Fin cfg1.N) (u : Fin 1) (k : Fin 512) :
    iblk1 (F := Ideal) V c 5 t (ix2 u k) = V c main_v11 (ix2 u k) := by
  obtain ⟨-, -, -, -, -, -, -, -, -, -, e0, e1, -⟩ := idx_facts1 t
  show V c main_v11 (((cfg1.win 5).blk t).view.emb (ix2 u k)) = V c main_v11 (ix2 u k)
  refine congrArg (V c main_v11) (funext fun ax => Fin.ext ?_)
  match ax with
  | ⟨0, _⟩ => show win1_5.index t (0 : Fin 2) * 1 + 1 * u.val = u.val; omega
  | ⟨1, _⟩ => show win1_5.index t (1 : Fin 2) * 512 + 1 * k.val = k.val; omega

/-- Half `a`'s result as a function of the arrays the call is handed. -/
abbrev outHalf (c : Dev nD) : Fin 2 → EReal :=
  Cert.Spec.outPart (V c main_arg0) (V c main_v20) (V c main_v27) (V c main_v35) (V c main_v6) (V c main_v11)

/-- What point `t` leaves in the result window: the sum of the losses of its half's queries. -/
theorem point_apply (c : Dev nD) (t : Fin cfg1.N) (a : Fin 2) (ha : a.val = t.val) (u v w : Fin 1) :
    out1 (F := Ideal) (iblk1 V c 0 t) (iblk1 V c 1 t) (iblk1 V c 2 t) (iblk1 V c 3 t) (iblk1 V c 4 t) (iblk1 V c 5 t) (ix3 u v w)
      = outHalf V c a := by
  refine (out1_apply _ _ _ _ _ _ u v w).trans ?_
  unfold outHalf Cert.Spec.outPart
  refine Finset.sum_congr rfl fun r _ => ?_
  simp only [iblk1_0_apply V c t a ha, iblk1_1_apply V c t a ha, iblk1_2_apply V c t a ha, iblk1_3_apply V c t a ha,
    iblk1_4_apply V c t, iblk1_5_apply V c t]

end Blocks

section Array

variable (V : (c : Dev nD) → (b : Ref sig .tc) → Buf (Elt Ideal) ((c : Thread nD τ).loc b))

/-- The one index of a `[1, 1, 1]` block. -/
theorem idx111 (j : S1x1x1.Idx) : j = ix3 (0 : Fin 1) (0 : Fin 1) (0 : Fin 1) := by
  funext ax
  match ax with
  | ⟨0, _⟩ => exact Subsingleton.elim (α := Fin 1) _ _
  | ⟨1, _⟩ => exact Subsingleton.elim (α := Fin 1) _ _
  | ⟨2, _⟩ => exact Subsingleton.elim (α := Fin 1) _ _

/-- The whole result array: entry `(a, 0, 0)` is half `a`'s sum. -/
abbrev outArr (c : Dev nD) : S2x1x1.Idx → EReal := fun i => outHalf V c (i 0)

/-- What point `t` writes back is its block of that array. -/
theorem flushed1_6 (c : Dev nD) (t : Fin cfg1.N) :
    (dat1 (F := Ideal) V c).flushed 6 t = ((cfg1.win 6).blk t).view.read (Elt Ideal) (outArr V c) := by
  show (cfg1.win 6).cut (grid1.coords t) ((dat1 (F := Ideal) V c).after 6 t) = _
  rw [after1_6]
  funext j
  obtain ⟨-, -, -, -, -, -, -, -, -, -, -, -, e0, e1, e2⟩ := idx_facts1 t
  have hj : j = ix3 (0 : Fin 1) (0 : Fin 1) (0 : Fin 1) := idx111 j
  subst hj
  have hlt : t.val < 2 := by have h := t.isLt; have hN : cfg1.N = 2 := N_1; omega
  refine (point_apply V c t ⟨t.val, hlt⟩ rfl 0 0 0).trans ?_
  show outHalf V c ⟨t.val, hlt⟩ = outHalf V c ((((cfg1.win 6).blk t).view.emb (ix3 (0 : Fin 1) (0 : Fin 1) (0 : Fin 1))) 0)
  refine congrArg (outHalf V c) (Fin.ext ?_)
  show t.val = win1_6.index t (0 : Fin 3) * 1 + 1 * 0
  omega

/-- An index of the result array is in point `t`'s block iff each coordinate is in the block's range on its axis. -/
theorem mem_blk1_6 (t : Fin cfg1.N) (i : S2x1x1.Idx) :
    i ∈ ((cfg1.win 6).blk t).view.set
      ↔ ∀ a : Fin 3, win1_6.index t a * S1x1x1.size a ≤ (i a).val ∧ (i a).val < win1_6.index t a * S1x1x1.size a + S1x1x1.size a := by
  show i ∈ ((View.whole main_v36).slice (win1_6.rect t)).set ↔ _
  rw [View.set_slice_whole, Rect.mem_set_unit]
  exact Iff.rfl

/-- The two points' blocks cover the result array. -/
theorem cover1_6 (i : S2x1x1.Idx) :
    ∃ t : Fin cfg1.N, (cfg1.win 6).flush t = true ∧ i ∈ ((cfg1.win 6).blk t).view.set := by
  have hi0 : (i 0).val < 2 := (i 0).isLt
  have hi1 : (i 1).val < 1 := (i 1).isLt
  have hi2 : (i 2).val < 1 := (i 2).isLt
  have hN : (i 0).val < cfg1.N := by have h2 : cfg1.N = 2 := N_1; omega
  obtain ⟨-, -, -, -, -, -, -, -, -, -, -, -, e0, e1, e2⟩ := idx_facts1 ⟨(i 0).val, hN⟩
  have e0' : win1_6.index ⟨(i 0).val, hN⟩ (0 : Fin 3) = (i 0).val := e0
  refine ⟨⟨(i 0).val, hN⟩, flush1_6 _, ?_⟩
  rw [mem_blk1_6]
  intro a
  match a with
  | ⟨0, _⟩ =>
    show win1_6.index ⟨(i 0).val, hN⟩ (0 : Fin 3) * 1 ≤ (i 0).val ∧ (i 0).val < win1_6.index ⟨(i 0).val, hN⟩ (0 : Fin 3) * 1 + 1
    omega
  | ⟨1, _⟩ =>
    show win1_6.index ⟨(i 0).val, hN⟩ (1 : Fin 3) * 1 ≤ (i 1).val ∧ (i 1).val < win1_6.index ⟨(i 0).val, hN⟩ (1 : Fin 3) * 1 + 1
    omega
  | ⟨2, _⟩ =>
    show win1_6.index ⟨(i 0).val, hN⟩ (2 : Fin 3) * 1 ≤ (i 2).val ∧ (i 2).val < win1_6.index ⟨(i 0).val, hN⟩ (2 : Fin 3) * 1 + 1
    omega

end Array

end R1

variable (V : (c : Dev nD) → (b : Ref sig .tc) → Buf (Elt Ideal) ((c : Thread nD τ).loc b))

theorem arr1_6 (c : Dev nD) (a : Fin 2) :
    (dat1 (F := Ideal) V c).arrAt 6 cfg1.N (ix3 a (0 : Fin 1) (0 : Fin 1))
      = Cert.Spec.outPart (V c main_arg0) (V c main_v20) (V c main_v27) (V c main_v35) (V c main_v6) (V c main_v11) a :=
  congrFun ((dat1 (F := Ideal) V c).arrAt_eq_of_cover 6 (R1.outArr V c) (fun t _ => R1.flushed1_6 V c t) R1.cover1_6)
    (ix3 a (0 : Fin 1) (0 : Fin 1))

end Cert.KernelIdeal.Hand

end
-- ==== Proof.KI.Chain.lean ====
/-
  The kernel program's result at the exact instance: the host operations between and after the two calls (the halves'
  sums, the queries' classes read at their positions, the gathered rows, the mean) composed with what the calls leave.

  Each stretch of host operations is first read over arbitrary contents, as a named function of the buffers it starts
  from; each such function is then read at an index; the chain instantiates them at the contents the two calls leave.
-/
import proofs.«413345_j40647570489383_3_alg».proof.Proof.KI.Vals
import proofs.«413345_j40647570489383_3_alg».proof.Proof.KI.R0Val
import proofs.«413345_j40647570489383_3_alg».proof.Proof.KI.R1Val
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-! ## The host operations between the two calls, as functions of the arrays they read -/

/-- A negative index wrapped once by the extent `n`, elementwise. -/
def wrapNeg (n : BitVec 32) (p : S2048.Idx → BitVec 32) : S2048.Idx → BitVec 32 :=
  select (cmpi .slt p (broadcastInDim S2048 ![] bcast_S_S2048 (constantI S_ 32 0#32)))
    (addi p (broadcastInDim S2048 ![] bcast_S_S2048 (constantI S_ 32 n))) p

/-- A vector of indices as the one-column table of start indices a gather reads. -/
def asCol (p : S2048.Idx → BitVec 32) : S2048x1.Idx → BitVec 32 := broadcastInDim S2048x1 ![0] bcast_S2048_S2048x1_0 p

/-- The queries' classes: the labels gathered at the wrapped positions. -/
def yqH (ys : S65536.Idx → BitVec 32) (pos : S2048.Idx → BitVec 32) : S2048.Idx → BitVec 32 :=
  Host.gather gather_S65536_S2048x1_S2048_n_0_n_n_0_1_1 ys (asCol (wrapNeg 65536#32 pos))

/-- The two halves of the class sums added. -/
def musH (x : S2x512x128.Idx → EReal) : S512x128.Idx → EReal :=
  addf (F := Ideal) (φ := .f32)
    (shapeCast S512x128 (extractStridedSlice S1x512x128 ![0, 0, 0] x slices_S2x512x128_S1x512x128_0_0_0) shapeCasts_S1x512x128_S512x128)
    (shapeCast S512x128 (extractStridedSlice S1x512x128 ![1, 0, 0] x slices_S2x512x128_S1x512x128_1_0_0) shapeCasts_S1x512x128_S512x128)

/-- The two halves of the class counts added, as a row. -/
def cntH (x : S2x1x512.Idx → EReal) : S1x512.Idx → EReal :=
  addf (F := Ideal) (φ := .f32)
    (shapeCast S1x512 (extractStridedSlice S1x1x512 ![0, 0, 0] x slices_S2x1x512_S1x1x512_0_0_0) shapeCasts_S1x1x512_S1x512)
    (shapeCast S1x512 (extractStridedSlice S1x1x512 ![1, 0, 0] x slices_S2x1x512_S1x1x512_1_0_0) shapeCasts_S1x1x512_S1x512)

/-- The class sums' rows gathered at the queries' wrapped classes. -/
def mselH (mu : S512x128.Idx → EReal) (y : S2048.Idx → BitVec 32) : S2048x128.Idx → EReal :=
  Host.gather gather_S512x128_S2048x1_S2048x128_1_0_n_n_0_1_1128 mu (asCol (wrapNeg 512#32 y))

/-- The class counts gathered at the queries' wrapped classes. -/
def cselH (cr : S1x512.Idx → EReal) (y : S2048.Idx → BitVec 32) : S2048.Idx → EReal :=
  Host.gather gather_S512_S2048x1_S2048_n_0_n_n_0_1_1 (shapeCast S512 cr shapeCasts_S1x512_S512) (asCol (wrapNeg 512#32 y))

/-- The two halves' losses added and scaled by the reciprocal of the number of queries. -/
def meanH (x : S2x1x1.Idx → EReal) : S_.Idx → EReal :=
  shapeCast S_
    (mulf (F := Ideal) (φ := .f32)
      (addf (F := Ideal) (φ := .f32)
        (shapeCast S_ (extractStridedSlice S1x1x1 ![0, 0, 0] x slices_S2x1x1_S1x1x1_0_0_0) shapeCasts_S1x1x1_S_)
        (shapeCast S_ (extractStridedSlice S1x1x1 ![1, 0, 0] x slices_S2x1x1_S1x1x1_1_0_0) shapeCasts_S1x1x1_S_))
      (constant (F := Ideal) S_ .f32 0x3A000000#32))
    shapeCasts_S_S_

/-! ## The three stretches of host operations over any contents: each buffer the calls read, and the result -/

section Hosts
variable (V : Valuation τ sig (Elt Ideal))

theorem h0_v0 :
    (StableHlo.after hostOps0 V (Proc.devRef .tc main_v0) : S65536x1.Idx → BitVec 32)
      = shapeCast S65536x1 (V (Proc.devRef .tc main_arg3)) shapeCasts_S65536_S65536x1 := by
  after_results
  rfl

theorem h1_v6 :
    (StableHlo.after hostOps1 V (Proc.devRef .tc main_v6) : S512x128.Idx → EReal) = musH (V (Proc.devRef .tc main_v1_0)) := by
  after_results_simp
  rfl

theorem h1_v11 :
    (StableHlo.after hostOps1 V (Proc.devRef .tc main_v11) : S1x512.Idx → EReal) = cntH (V (Proc.devRef .tc main_v1_1)) := by
  after_results_simp
  rfl

theorem h1_v20 :
    (StableHlo.after hostOps1 V (Proc.devRef .tc main_v20) : S2048x1.Idx → BitVec 32)
      = shapeCast S2048x1 (yqH (V (Proc.devRef .tc main_arg3)) (V (Proc.devRef .tc main_arg4))) shapeCasts_S2048_S2048x1 := by
  after_results_simp
  rfl

theorem h1_v27 :
    (StableHlo.after hostOps1 V (Proc.devRef .tc main_v27) : S2048x128.Idx → EReal)
      = mselH (musH (V (Proc.devRef .tc main_v1_0))) (yqH (V (Proc.devRef .tc main_arg3)) (V (Proc.devRef .tc main_arg4))) := by
  after_results_simp
  rfl

theorem h1_v35 :
    (StableHlo.after hostOps1 V (Proc.devRef .tc main_v35) : S2048x1.Idx → EReal)
      = shapeCast S2048x1 (cselH (cntH (V (Proc.devRef .tc main_v1_1))) (yqH (V (Proc.devRef .tc main_arg3)) (V (Proc.devRef .tc main_arg4))))
          shapeCasts_S2048_S2048x1 := by
  after_results_simp
  rfl

theorem h2_v43 :
    (StableHlo.after hostOps2 V (Proc.devRef .tc main_v43) : S_.Idx → EReal) = meanH (V (Proc.devRef .tc main_v36)) := by
  after_results
  rfl

end Hosts

/-! ## The functions read at an index -/

section Reads

theorem wrapNeg_apply (n : ℕ) (p : S2048.Idx → BitVec 32) (i : Fin 2048) :
    wrapNeg (BitVec.ofNat 32 n) p (ix1 i) = Cert.Spec.norm n (p (ix1 i)) := by
  show Scalar.select (IntOp.cmpi .slt (p (ix1 i)) 0#32) (IntOp.addi (p (ix1 i)) (BitVec.ofNat 32 n)) (p (ix1 i)) = _
  unfold Cert.Spec.norm Scalar.select IntOp.cmpi IntOp.addi
  cases (p (ix1 i)).slt 0#32 <;> rfl

theorem asCol_apply (p : S2048.Idx → BitVec 32) (i : Fin 2048) : asCol p (ix2 i (0 : Fin 1)) = p (ix1 i) :=
  broadcastInDim_apply _ _ p (ix2 i (0 : Fin 1)) (ix1 i) fun a => match a with | ⟨0, _⟩ => rfl

/-- A vector kept as a column reads, at row `i`, the vector at `i`. -/
theorem col_apply {α : Type} (v : S2048.Idx → α) (i : Fin 2048) :
    shapeCast S2048x1 v shapeCasts_S2048_S2048x1 (ix2 i (0 : Fin 1)) = v (ix1 i) :=
  shapeCast_apply v _ _ _ (by
    rw [Shape.rowMajor_val_one, Shape.rowMajor_val_two]
    show i.val = i.val * 1 + 0
    omega)

/-- A gather of single entries of a vector at a one-column table of start indices: entry `i` is the vector at the
    start index read signed and clamped into the vector. -/
theorem take_apply {α : Type} {N : ℕ} (hN : 0 < N) (g : GatherDims ⟨1, ![N]⟩ S2048x1 S2048)
    (hc : g.collapsedSliceDims = [0]) (hb : g.operandBatchingDims = []) (hs : g.startIndexMap = [0]) (hv : g.indexVectorDim = 1)
    (x : (⟨1, ![N]⟩ : Shape).Idx → α) (idx : S2048x1.Idx → BitVec 32) (i : Fin 2048) (v : BitVec 32)
    (hv : idx (ix2 i (0 : Fin 1)) = v) :
    Host.gather g x idx (ix1 i) = x (ix1 ⟨min v.toInt.toNat (N - 1), by omega⟩) := by
  subst hv
  have h := StableHlo.Predicate.gather_take g hc hb hs hv x idx i hN
  have e1 : ∀ {n : ℕ} (k : Fin n), Shape.Idx.ofFin k = ix1 k := fun k => funext fun a => match a with | ⟨0, _⟩ => rfl
  have e2 : (StableHlo.Predicate.ixP i : S2048x1.Idx) = ix2 i (0 : Fin 1) := funext fun a => match a with | ⟨0, _⟩ => rfl | ⟨1, _⟩ => rfl
  simp only [e1, e2] at h
  exact h

/-- A gather of whole rows of a matrix at a one-column table of start indices: row `i` is the matrix's row at the
    start index read signed and clamped into the rows. -/
theorem rows_apply (x : S512x128.Idx → EReal) (idx : S2048x1.Idx → BitVec 32) (i : Fin 2048) (d : Fin 128) (v : BitVec 32)
    (hv : idx (ix2 i (0 : Fin 1)) = v) :
    Host.gather gather_S512x128_S2048x1_S2048x128_1_0_n_n_0_1_1128 x idx (ix2 i d)
      = x (ix2 ⟨min v.toInt.toNat (512 - 1), by omega⟩ d) := by
  subst hv
  unfold Host.gather
  refine congrArg x (funext fun a => Fin.ext ?_)
  have hb : ∀ a : Fin 2, a ∉ gather_S512x128_S2048x1_S2048x128_1_0_n_n_0_1_1128.operandBatchingDims := fun a => List.not_mem_nil
  have h0s : (0 : Fin 2) ∈ gather_S512x128_S2048x1_S2048x128_1_0_n_n_0_1_1128.startIndexMap := List.mem_singleton.mpr rfl
  have h1s : (1 : Fin 2) ∉ gather_S512x128_S2048x1_S2048x128_1_0_n_n_0_1_1128.startIndexMap := by decide
  have h0k : (0 : Fin 2) ∉ gather_S512x128_S2048x1_S2048x128_1_0_n_n_0_1_1128.sKept := by decide
  have h1k : (1 : Fin 2) ∈ gather_S512x128_S2048x1_S2048x128_1_0_n_n_0_1_1128.sKept := by decide
  match a with
  | ⟨0, _⟩ =>
    show gather_S512x128_S2048x1_S2048x128_1_0_n_n_0_1_1128.start (ix2 i d) idx (0 : Fin 2)
        + gather_S512x128_S2048x1_S2048x128_1_0_n_n_0_1_1128.batchCoord (ix2 i d) (0 : Fin 2)
        + gather_S512x128_S2048x1_S2048x128_1_0_n_n_0_1_1128.offCoord (ix2 i d) (0 : Fin 2) = min _ (512 - 1)
    rw [GatherDims.batchCoord_eq_zero _ _ _ (hb 0), GatherDims.offCoord_eq_zero _ _ _ h0k]
    simp only [Nat.add_zero]
    unfold GatherDims.start
    rw [dif_pos h0s]
    refine congrArg₂ min (congrArg (fun t => (idx t).toInt.toNat) (funext fun b => Fin.ext ?_)) rfl
    match b with
    | ⟨0, _⟩ => rfl
    | ⟨1, _⟩ => rfl
  | ⟨1, _⟩ =>
    show gather_S512x128_S2048x1_S2048x128_1_0_n_n_0_1_1128.start (ix2 i d) idx (1 : Fin 2)
        + gather_S512x128_S2048x1_S2048x128_1_0_n_n_0_1_1128.batchCoord (ix2 i d) (1 : Fin 2)
        + gather_S512x128_S2048x1_S2048x128_1_0_n_n_0_1_1128.offCoord (ix2 i d) (1 : Fin 2) = d.val
    rw [GatherDims.batchCoord_eq_zero _ _ _ (hb 1)]
    simp only [Nat.add_zero]
    unfold GatherDims.start
    rw [dif_neg h1s, Nat.zero_add]
    unfold GatherDims.offCoord
    rw [dif_pos h1k]
    rfl

end Reads

section Reads2

theorem yqH_apply (ys : S65536.Idx → BitVec 32) (pos : S2048.Idx → BitVec 32) (i : Fin 2048) :
    yqH ys pos (ix1 i) = Cert.Spec.yq ys pos i := by
  exact take_apply (by decide) _ rfl rfl rfl rfl ys _ i _ ((asCol_apply _ i).trans (wrapNeg_apply 65536 pos i))

theorem musH_apply (x : S2x512x128.Idx → EReal) (k : Fin 512) (d : Fin 128) :
    musH x (ix2 k d) = x (ix3 (0 : Fin 2) k d) + x (ix3 (1 : Fin 2) k d) := by
  show shapeCast S512x128 (extractStridedSlice S1x512x128 ![0, 0, 0] x slices_S2x512x128_S1x512x128_0_0_0) shapeCasts_S1x512x128_S512x128 (ix2 k d)
      + shapeCast S512x128 (extractStridedSlice S1x512x128 ![1, 0, 0] x slices_S2x512x128_S1x512x128_1_0_0) shapeCasts_S1x512x128_S512x128 (ix2 k d) = _
  rw [shapeCast_1ab_ab_apply, shapeCast_1ab_ab_apply]
  refine congrArg₂ (· + ·) ?_ ?_
  · exact extractStridedSlice_apply _ x _ _ (ix3 (0 : Fin 2) k d) fun a => match a with
      | ⟨0, _⟩ => rfl | ⟨1, _⟩ => (Nat.zero_add _).symm | ⟨2, _⟩ => (Nat.zero_add _).symm
  · exact extractStridedSlice_apply _ x _ _ (ix3 (1 : Fin 2) k d) fun a => match a with
      | ⟨0, _⟩ => rfl | ⟨1, _⟩ => (Nat.zero_add _).symm | ⟨2, _⟩ => (Nat.zero_add _).symm

theorem cntH_apply (x : S2x1x512.Idx → EReal) (k : Fin 512) :
    cntH x (ix2 (0 : Fin 1) k) = x (ix3 (0 : Fin 2) (0 : Fin 1) k) + x (ix3 (1 : Fin 2) (0 : Fin 1) k) := by
  show shapeCast S1x512 (extractStridedSlice S1x1x512 ![0, 0, 0] x slices_S2x1x512_S1x1x512_0_0_0) shapeCasts_S1x1x512_S1x512 (ix2 (0 : Fin 1) k)
      + shapeCast S1x512 (extractStridedSlice S1x1x512 ![1, 0, 0] x slices_S2x1x512_S1x1x512_1_0_0) shapeCasts_S1x1x512_S1x512 (ix2 (0 : Fin 1) k) = _
  rw [shapeCast_1ab_ab_apply, shapeCast_1ab_ab_apply]
  refine congrArg₂ (· + ·) ?_ ?_
  · exact extractStridedSlice_apply _ x _ _ (ix3 (0 : Fin 2) (0 : Fin 1) k) fun a => match a with
      | ⟨0, _⟩ => rfl | ⟨1, _⟩ => rfl | ⟨2, _⟩ => (Nat.zero_add _).symm
  · exact extractStridedSlice_apply _ x _ _ (ix3 (1 : Fin 2) (0 : Fin 1) k) fun a => match a with
      | ⟨0, _⟩ => rfl | ⟨1, _⟩ => rfl | ⟨2, _⟩ => (Nat.zero_add _).symm

theorem mselH_apply (mu : S512x128.Idx → EReal) (y : S2048.Idx → BitVec 32) (i : Fin 2048) (d : Fin 128) :
    mselH mu y (ix2 i d) = mu (ix2 (Cert.Spec.gidx 512 (by decide) (y (ix1 i))) d) := by
  exact rows_apply mu _ i d _ ((asCol_apply _ i).trans (wrapNeg_apply 512 y i))

theorem cselH_apply (cr : S1x512.Idx → EReal) (y : S2048.Idx → BitVec 32) (i : Fin 2048) :
    cselH cr y (ix1 i) = cr (ix2 (0 : Fin 1) (Cert.Spec.gidx 512 (by decide) (y (ix1 i)))) := by
  refine (take_apply (by decide) _ rfl rfl rfl rfl _ _ i _ ((asCol_apply _ i).trans (wrapNeg_apply 512 y i))).trans ?_
  exact shapeCast_1a_a_apply cr _ _

theorem meanH_apply (x : S2x1x1.Idx → EReal) (j : S_.Idx) :
    meanH x j = (x (ix3 (0 : Fin 2) (0 : Fin 1) (0 : Fin 1)) + x (ix3 (1 : Fin 2) (0 : Fin 1) (0 : Fin 1))) * Cert.Spec.inv2048 := by
  have hz : ∀ (k : S1x1x1.Idx), (S1x1x1.rowMajor k).val = (S_.rowMajor j).val := fun k => by
    rw [Shape.rowMajor_val_three]
    show ((k 0).val * 1 + (k 1).val) * 1 + (k 2).val = (Shape.rowMajorPi _ _).val
    rw [Shape.rowMajorPi_zero]
    have h0 := (k 0).isLt; have h1 := (k 1).isLt; have h2 := (k 2).isLt
    change (k 0).val < 1 at h0; change (k 1).val < 1 at h1; change (k 2).val < 1 at h2
    omega
  unfold meanH
  rw [shapeCast_apply _ shapeCasts_S_S_ j j rfl, mulf_apply, addf_apply, constant_apply,
    shapeCast_apply _ shapeCasts_S1x1x1_S_ j (ix3 (0 : Fin 1) (0 : Fin 1) (0 : Fin 1)) (hz _),
    shapeCast_apply _ shapeCasts_S1x1x1_S_ j (ix3 (0 : Fin 1) (0 : Fin 1) (0 : Fin 1)) (hz _)]
  refine congrArg₂ (· * ·) (congrArg₂ (· + ·) ?_ ?_) rfl
  · exact extractStridedSlice_apply _ x _ _ (ix3 (0 : Fin 2) (0 : Fin 1) (0 : Fin 1)) fun a => match a with
      | ⟨0, _⟩ => rfl | ⟨1, _⟩ => rfl | ⟨2, _⟩ => rfl
  · exact extractStridedSlice_apply _ x _ _ (ix3 (1 : Fin 2) (0 : Fin 1) (0 : Fin 1)) fun a => match a with
      | ⟨0, _⟩ => rfl | ⟨1, _⟩ => rfl | ⟨2, _⟩ => rfl

end Reads2

/-! ## The chain: launch contents, the reduction call, the host operations, the finalize call, the mean -/

section Chain

/-- The labels as the reduction call reads them: a column holding the launch labels. -/
theorem V1_labels (c : Dev nD) (s : Fin 65536) :
    VR1 m c main_v0 (ix2 s (0 : Fin 1)) = m ((c.tc : Thread nD τ).loc main_arg3) (ix1 s) := by
  show StableHlo.after hostOps0 (V0 m c) (Proc.devRef .tc main_v0) (ix2 s (0 : Fin 1)) = _
  rw [h0_v0]
  exact shapeCast_apply _ _ _ (ix1 s) (by
    rw [Shape.rowMajor_val_one, Shape.rowMajor_val_two]
    show s.val = s.val * 1 + 0
    omega)

/-- The reduction call's two result arrays: each half's share of the class sums and of the counts. -/
theorem W2_sums (c : Dev nD) (a : Fin 2) (k : Fin 512) (d : Fin 128) :
    W2 m c (Proc.devRef .tc main_v1_0) (ix3 a k d)
      = Cert.Spec.musPart (m ((c.tc : Thread nD τ).loc main_arg2)) (m ((c.tc : Thread nD τ).loc main_arg3)) a k d :=
  (congrFun (Pipeline.withArrays_arr spec0 launch0.win.arr_inj c (V1 m c) (fun w => (dat0 (VR1 m) c).arrAt w cfg0.N) 2) (ix3 a k d)).trans
    (arr0_2 (VR1 m) c _ _ (V1_of m c main_arg2 (by decide)) (V1_labels m c) a k d)

theorem W2_counts (c : Dev nD) (a : Fin 2) (k : Fin 512) :
    W2 m c (Proc.devRef .tc main_v1_1) (ix3 a (0 : Fin 1) k)
      = Cert.Spec.cntPart (m ((c.tc : Thread nD τ).loc main_arg3)) a k :=
  (congrFun (Pipeline.withArrays_arr spec0 launch0.win.arr_inj c (V1 m c) (fun w => (dat0 (VR1 m) c).arrAt w cfg0.N) 3) (ix3 a (0 : Fin 1) k)).trans
    (arr0_3 (VR1 m) c _ (V1_labels m c) a k)

/-- What the host operations between the calls start from: the two result arrays, and the launch arrays untouched. -/
theorem V2_at_sums (c : Dev nD) : V2 m (outsA m) c (Proc.devRef .tc main_v1_0) = W2 m c (Proc.devRef .tc main_v1_0) :=
  (Function.update_of_ne
      (StableHlo.devRef_ne_of_ne (by decide) : (Proc.devRef .tc main_v1_0 : DevRef τ sig) ≠ Proc.devRef .tc main_v1_1) _ _).trans
    (Function.update_self _ _ _)

theorem V2_at_counts (c : Dev nD) : V2 m (outsA m) c (Proc.devRef .tc main_v1_1) = W2 m c (Proc.devRef .tc main_v1_1) :=
  Function.update_self _ _ _

theorem V2_labels (c : Dev nD) : V2 m (outsA m) c (Proc.devRef .tc main_arg3) = m ((c.tc : Thread nD τ).loc main_arg3) :=
  (V2_of m (outsA m) c main_arg3 (by decide)).trans (V1_of m c main_arg3 (by decide))

theorem V2_positions (c : Dev nD) : V2 m (outsA m) c (Proc.devRef .tc main_arg4) = m ((c.tc : Thread nD τ).loc main_arg4) :=
  (V2_of m (outsA m) c main_arg4 (by decide)).trans (V1_of m c main_arg4 (by decide))

/-- The finalize call's entry contents, as functions of the launch arrays. -/
theorem V3_queries (c : Dev nD) : VR3 m c main_arg0 = m ((c.tc : Thread nD τ).loc main_arg0) :=
  (V3_of m (outsA m) c main_arg0 (by decide)).trans
    ((V2_of m (outsA m) c main_arg0 (by decide)).trans (V1_of m c main_arg0 (by decide)))

theorem V3_mus (c : Dev nD) (k : Fin 512) (d : Fin 128) :
    VR3 m c main_v6 (ix2 k d)
      = Cert.Spec.musK (m ((c.tc : Thread nD τ).loc main_arg2)) (m ((c.tc : Thread nD τ).loc main_arg3)) k d := by
  show StableHlo.after hostOps1 (V2 m (outsA m) c) (Proc.devRef .tc main_v6) (ix2 k d) = _
  rw [h1_v6, V2_at_sums, musH_apply, W2_sums, W2_sums]
  rfl

theorem V3_cnt (c : Dev nD) (k : Fin 512) :
    VR3 m c main_v11 (ix2 (0 : Fin 1) k) = Cert.Spec.cntK (m ((c.tc : Thread nD τ).loc main_arg3)) k := by
  show StableHlo.after hostOps1 (V2 m (outsA m) c) (Proc.devRef .tc main_v11) (ix2 (0 : Fin 1) k) = _
  rw [h1_v11, V2_at_counts, cntH_apply, W2_counts, W2_counts]
  rfl

theorem V3_yq (c : Dev nD) (i : Fin 2048) :
    VR3 m c main_v20 (ix2 i (0 : Fin 1))
      = Cert.Spec.yq (m ((c.tc : Thread nD τ).loc main_arg3)) (m ((c.tc : Thread nD τ).loc main_arg4)) i := by
  show StableHlo.after hostOps1 (V2 m (outsA m) c) (Proc.devRef .tc main_v20) (ix2 i (0 : Fin 1)) = _
  rw [h1_v20, col_apply, yqH_apply, V2_labels, V2_positions]

theorem V3_msel (c : Dev nD) (i : Fin 2048) (d : Fin 128) :
    VR3 m c main_v27 (ix2 i d)
      = Cert.Spec.musK (m ((c.tc : Thread nD τ).loc main_arg2)) (m ((c.tc : Thread nD τ).loc main_arg3))
          (Cert.Spec.gidx 512 (by decide) (Cert.Spec.yq (m ((c.tc : Thread nD τ).loc main_arg3)) (m ((c.tc : Thread nD τ).loc main_arg4)) i)) d := by
  show StableHlo.after hostOps1 (V2 m (outsA m) c) (Proc.devRef .tc main_v27) (ix2 i d) = _
  rw [h1_v27, mselH_apply, yqH_apply, musH_apply, V2_at_sums, W2_sums, W2_sums, V2_labels, V2_positions]
  rfl

theorem V3_csel (c : Dev nD) (i : Fin 2048) :
    VR3 m c main_v35 (ix2 i (0 : Fin 1))
      = Cert.Spec.cntK (m ((c.tc : Thread nD τ).loc main_arg3))
          (Cert.Spec.gidx 512 (by decide) (Cert.Spec.yq (m ((c.tc : Thread nD τ).loc main_arg3)) (m ((c.tc : Thread nD τ).loc main_arg4)) i)) := by
  show StableHlo.after hostOps1 (V2 m (outsA m) c) (Proc.devRef .tc main_v35) (ix2 i (0 : Fin 1)) = _
  rw [h1_v35, col_apply, cselH_apply, yqH_apply, cntH_apply, V2_at_counts, W2_counts, W2_counts, V2_labels, V2_positions]
  rfl

end Chain

/-! ## The finalize call's result, and the mean -/

section Final

/-- One half's result: the sum of its queries' losses, over the launch arrays. -/
theorem half_eq (c : Dev nD) (a : Fin 2) :
    Cert.Spec.outPart (VR3 m c main_arg0) (VR3 m c main_v20) (VR3 m c main_v27) (VR3 m c main_v35) (VR3 m c main_v6) (VR3 m c main_v11) a
      = ∑ r : Fin 1024,
          Cert.Spec.nllK (Cert.Spec.musK (m ((c.tc : Thread nD τ).loc main_arg2)) (m ((c.tc : Thread nD τ).loc main_arg3)))
            (Cert.Spec.cntK (m ((c.tc : Thread nD τ).loc main_arg3)))
            (fun d => m ((c.tc : Thread nD τ).loc main_arg0) (ix2 (Cert.Spec.qrow a r) d))
            (Cert.Spec.yq (m ((c.tc : Thread nD τ).loc main_arg3)) (m ((c.tc : Thread nD τ).loc main_arg4)) (Cert.Spec.qrow a r))
            (fun d => Cert.Spec.musK (m ((c.tc : Thread nD τ).loc main_arg2)) (m ((c.tc : Thread nD τ).loc main_arg3))
              (Cert.Spec.gidx 512 (by decide)
                (Cert.Spec.yq (m ((c.tc : Thread nD τ).loc main_arg3)) (m ((c.tc : Thread nD τ).loc main_arg4)) (Cert.Spec.qrow a r))) d)
            (Cert.Spec.cntK (m ((c.tc : Thread nD τ).loc main_arg3))
              (Cert.Spec.gidx 512 (by decide)
                (Cert.Spec.yq (m ((c.tc : Thread nD τ).loc main_arg3)) (m ((c.tc : Thread nD τ).loc main_arg4)) (Cert.Spec.qrow a r)))) := by
  unfold Cert.Spec.outPart
  refine Finset.sum_congr rfl fun r _ => ?_
  have e1 : (fun (k : Fin 512) (d : Fin 128) => VR3 m c main_v6 (ix2 k d))
      = Cert.Spec.musK (m ((c.tc : Thread nD τ).loc main_arg2)) (m ((c.tc : Thread nD τ).loc main_arg3)) :=
    funext fun k => funext fun d => V3_mus m c k d
  have e2 : (fun (k : Fin 512) => VR3 m c main_v11 (ix2 (0 : Fin 1) k)) = Cert.Spec.cntK (m ((c.tc : Thread nD τ).loc main_arg3)) :=
    funext fun k => V3_cnt m c k
  have e3 : (fun (d : Fin 128) => VR3 m c main_v27 (ix2 (Cert.Spec.qrow a r) d))
      = fun d => Cert.Spec.musK (m ((c.tc : Thread nD τ).loc main_arg2)) (m ((c.tc : Thread nD τ).loc main_arg3))
          (Cert.Spec.gidx 512 (by decide)
            (Cert.Spec.yq (m ((c.tc : Thread nD τ).loc main_arg3)) (m ((c.tc : Thread nD τ).loc main_arg4)) (Cert.Spec.qrow a r))) d :=
    funext fun d => V3_msel m c _ d
  rw [e1, e2, e3, V3_yq, V3_csel, V3_queries]

theorem V4_out (c : Dev nD) : V4 m (outs m) c (Proc.devRef .tc main_v36) = W4 m c (Proc.devRef .tc main_v36) :=
  (Function.update_self _ _ _).trans (outs_four m main_v36 c)

theorem W4_half (c : Dev nD) (a : Fin 2) :
    W4 m c (Proc.devRef .tc main_v36) (ix3 a (0 : Fin 1) (0 : Fin 1))
      = Cert.Spec.outPart (VR3 m c main_arg0) (VR3 m c main_v20) (VR3 m c main_v27) (VR3 m c main_v35) (VR3 m c main_v6) (VR3 m c main_v11) a :=
  (congrFun (Pipeline.withArrays_arr spec1 launch1.win.arr_inj c (V3 m (outsA m) c) (fun w => (dat1 (VR3 m) c).arrAt w cfg1.N) 6)
      (ix3 a (0 : Fin 1) (0 : Fin 1))).trans (arr1_6 (VR3 m) c a)

end Final

/-- The result buffer after @main's last item holds the loss in the kernel's arrangement. -/
theorem kernel_value (c : Dev nD) :
    V5 m (outs m) c main_v43 = fun _ => Cert.Spec.kerLoss (m ((c.tc : Thread nD τ).loc main_arg0)) (m ((c.tc : Thread nD τ).loc main_arg2))
      (m ((c.tc : Thread nD τ).loc main_arg3)) (m ((c.tc : Thread nD τ).loc main_arg4)) := by
  funext j
  show StableHlo.after hostOps2 (V4 m (outs m) c) (Proc.devRef .tc main_v43) j = _
  rw [h2_v43, meanH_apply, V4_out, W4_half, W4_half, half_eq, half_eq]
  rfl

end Cert.KernelIdeal.Hand

end
-- ==== Proof.Ref.Term.lean ====
/-
  The reference program's result as one pure term of its argument arrays: its operations composed in order.
-/
import proofs.«413345_j40647570489383_3_alg».proof.Proof.Gen.ReferenceIdeal

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

set_option maxHeartbeats 40000000 in  -- one long chain of bindings
/-- @main's operations composed: the result buffer's contents as a function of the arguments. -/
def refTerm (xq : FVec F S2048x128 .f32) (xs : FVec F S65536x128 .f32) (ys : IVec S65536 32) (pos : IVec S2048 32) : FVec F S_ .f32 :=
  let main_arg0 : FVec F S2048x128 .f32 := xq
  let main_arg2 : FVec F S65536x128 .f32 := xs
  let main_arg3 : IVec S65536 32 := ys
  let main_arg4 : IVec S2048 32 := pos
  -- the class indices, and the one-hot table of the support labels
  let main_v0 : IVec S512 32 := iotaInDim S512 32 0
  let main_v1 : IVec S65536x1 32 := broadcastInDim (s := S65536) S65536x1 ![0] bcast_S65536_S65536x1_0 main_arg3
  let main_v2 : IVec S1x512 32 := broadcastInDim (s := S512) S1x512 ![1] bcast_S512_S1x512_1 main_v0
  let main_v3 : IVec S65536x512 32 := broadcastInDim (s := S65536x1) S65536x512 ![0, 1] bcast_S65536x1_S65536x512_0_1 main_v1
  let main_v4 : IVec S65536x512 32 := broadcastInDim (s := S1x512) S65536x512 ![0, 1] bcast_S1x512_S65536x512_0_1 main_v2
  let main_v5 : IVec S65536x512 1 := cmpi .eq main_v3 main_v4
  -- the class counts
  let main_v6 : IVec S65536x512 32 := (extui 32 · natLt_1_32) main_v5
  let main_c : IVec S_ 32 := constantI S_ 32 0#32
  let main_v7 : IVec S512 32 := (fun x v => Host.reduce IntOp.addi x v reducesTo_S65536x512_S512_d0 h_S_) main_v6 main_c
  -- the positions, a negative one wrapped, and the one-hot rows they select
  let main_c_0 : IVec S_ 32 := constantI S_ 32 0#32
  let main_v8 : IVec S2048 32 := broadcastInDim (s := S_) S2048 ![] bcast_S_S2048 main_c_0
  let main_v9 : IVec S2048 1 := cmpi .slt main_arg4 main_v8
  let main_c_1 : IVec S_ 32 := constantI S_ 32 65536#32
  let main_v10 : IVec S2048 32 := broadcastInDim (s := S_) S2048 ![] bcast_S_S2048 main_c_1
  let main_v11 : IVec S2048 32 := addi main_arg4 main_v10
  let main_v12 : IVec S2048 32 := select main_v9 main_v11 main_arg4
  let main_v13 : IVec S2048x1 32 := broadcastInDim (s := S2048) S2048x1 ![0] bcast_S2048_S2048x1_0 main_v12
  let main_v14 : IVec S2048x512 1 := (fun x i => Host.gather gather_S65536x512_S2048x1_S2048x512_1_0_n_n_0_1_1512 x i) main_v5 main_v13
  -- the arg-max of each selected row: the query's own class
  let main_call0_v0 : IVec S2048x512 32 := iotaInDim S2048x512 32 1
  let main_call0_c : IVec S_ 1 := constantI S_ 1 0#1
  let main_call0_c_0 : IVec S_ 32 := constantI S_ 32 0#32
  let main_call0_v1_0 : IVec S2048 1 := (fun x y u v j => (Host.reduce2 reducer_argmax_i1_i32 x y u v reducesTo_S2048x512_S2048_d1 h_S_ j).1) main_v14 main_call0_v0 main_call0_c main_call0_c_0
  let main_v15 : IVec S2048 32 := (fun x y u v j => (Host.reduce2 reducer_argmax_i1_i32 x y u v reducesTo_S2048x512_S2048_d1 h_S_ j).2) main_v14 main_call0_v0 main_call0_c main_call0_c_0
  -- the class sums
  let main_v16 : FVec F S65536x512 .f32 := uitofp .f32 main_v5
  let main_v17 : FVec F S512x65536 .f32 := (transpose S512x65536 [1, 0] · transposes_S65536x512_S512x65536_1_0) main_v16
  let main_v18 : FVec F S512x128 .f32 := (fun l r => Host.dotGeneral dot_S512x65536_S65536x128_S512x128_1_0_0_1_n_n none l r) main_v17 main_arg2
  -- the queries' one-hot rows
  let main_v19 : IVec S2048x1 32 := broadcastInDim (s := S2048) S2048x1 ![0] bcast_S2048_S2048x1_0 main_v15
  let main_v20 : IVec S1x512 32 := broadcastInDim (s := S512) S1x512 ![1] bcast_S512_S1x512_1 main_v0
  let main_v21 : IVec S2048x512 32 := broadcastInDim (s := S2048x1) S2048x512 ![0, 1] bcast_S2048x1_S2048x512_0_1 main_v19
  let main_v22 : IVec S2048x512 32 := broadcastInDim (s := S1x512) S2048x512 ![0, 1] bcast_S1x512_S2048x512_0_1 main_v20
  let main_v23 : IVec S2048x512 1 := cmpi .eq main_v21 main_v22
  let main_v24 : FVec F S2048x512 .f32 := uitofp .f32 main_v23
  -- the leave-one-out sums
  let main_v25 : FVec F S1x512x128 .f32 := broadcastInDim (s := S512x128) S1x512x128 ![1, 2] bcast_S512x128_S1x512x128_1_2 main_v18
  let main_v26 : FVec F S2048x512x1 .f32 := broadcastInDim (s := S2048x512) S2048x512x1 ![0, 1] bcast_S2048x512_S2048x512x1_0_1 main_v24
  let main_v27 : FVec F S2048x1x128 .f32 := broadcastInDim (s := S2048x128) S2048x1x128 ![0, 2] bcast_S2048x128_S2048x1x128_0_2 main_arg0
  let main_v28 : FVec F S2048x512x128 .f32 := broadcastInDim (s := S2048x512x1) S2048x512x128 ![0, 1, 2] bcast_S2048x512x1_S2048x512x128_0_1_2 main_v26
  let main_v29 : FVec F S2048x512x128 .f32 := broadcastInDim (s := S2048x1x128) S2048x512x128 ![0, 1, 2] bcast_S2048x1x128_S2048x512x128_0_1_2 main_v27
  let main_v30 : FVec F S2048x512x128 .f32 := mulf main_v28 main_v29
  let main_v31 : FVec F S2048x512x128 .f32 := broadcastInDim (s := S1x512x128) S2048x512x128 ![0, 1, 2] bcast_S1x512x128_S2048x512x128_0_1_2 main_v25
  let main_v32 : FVec F S2048x512x128 .f32 := subf main_v31 main_v30
  -- the leave-one-out counts, floored
  let main_v33 : IVec S1x512 32 := broadcastInDim (s := S512) S1x512 ![1] bcast_S512_S1x512_1 main_v7
  let main_v34 : FVec F S1x512 .f32 := sitofp .f32 main_v33
  let main_v35 : FVec F S2048x512 .f32 := broadcastInDim (s := S1x512) S2048x512 ![0, 1] bcast_S1x512_S2048x512_0_1 main_v34
  let main_v36 : FVec F S2048x512 .f32 := subf main_v35 main_v24
  let main_cst : FVec F S_ .f32 := constant S_ .f32 0x3DCCCCCD#32
  let main_v37 : FVec F S2048x512 .f32 := broadcastInDim (s := S_) S2048x512 ![] bcast_S_S2048x512 main_cst
  let main_v38 : FVec F S2048x512 .f32 := maximumf main_v36 main_v37
  let main_v39 : FVec F S2048x512x1 .f32 := broadcastInDim (s := S2048x512) S2048x512x1 ![0, 1] bcast_S2048x512_S2048x512x1_0_1 main_v38
  let main_v40 : FVec F S2048x512x128 .f32 := broadcastInDim (s := S2048x512x1) S2048x512x128 ![0, 1, 2] bcast_S2048x512x1_S2048x512x128_0_1_2 main_v39
  -- the leave-one-out prototypes and the squared distances to them
  let main_v41 : FVec F S2048x512x128 .f32 := Host.divf main_v32 main_v40
  let main_v42 : FVec F S2048x1x128 .f32 := broadcastInDim (s := S2048x128) S2048x1x128 ![0, 2] bcast_S2048x128_S2048x1x128_0_2 main_arg0
  let main_v43 : FVec F S2048x512x128 .f32 := broadcastInDim (s := S2048x1x128) S2048x512x128 ![0, 1, 2] bcast_S2048x1x128_S2048x512x128_0_1_2 main_v42
  let main_v44 : FVec F S2048x512x128 .f32 := subf main_v43 main_v41
  let main_v45 : FVec F S2048x512x128 .f32 := mulf main_v44 main_v44
  let main_cst_2 : FVec F S_ .f32 := constant S_ .f32 0x00000000#32
  let main_v46 : FVec F S2048x512 .f32 := (fun x v => Host.reduceAdd x v reducesTo_S2048x512x128_S2048x512_d2 h_S_) main_v45 main_cst_2
  let main_cst_3 : FVec F S_ .f32 := constant S_ .f32 0xBF000000#32
  let main_v47 : FVec F S2048x512 .f32 := broadcastInDim (s := S_) S2048x512 ![] bcast_S_S2048x512 main_cst_3
  let main_v48 : FVec F S2048x512 .f32 := mulf main_v47 main_v46
  -- the mask of the classes that are not empty, and the logits
  let main_cst_4 : FVec F S_ .f32 := constant S_ .f32 0x3DCCCCCD#32
  let main_v49 : FVec F S2048x512 .f32 := broadcastInDim (s := S_) S2048x512 ![] bcast_S_S2048x512 main_cst_4
  let main_v50 : IVec S2048x512 1 := cmpf .ogt main_v36 main_v49
  let main_v51 : FVec F S2048x512 .f32 := uitofp .f32 main_v50
  let main_v52 : FVec F S2048x512 .f32 := mulf main_v48 main_v51
  let main_cst_5 : FVec F S_ .f32 := constant S_ .f32 0x3F800000#32
  let main_v53 : FVec F S2048x512 .f32 := broadcastInDim (s := S_) S2048x512 ![] bcast_S_S2048x512 main_cst_5
  let main_v54 : FVec F S2048x512 .f32 := Host.divf main_v52 main_v53
  -- the log-softmax of each row of logits
  let main_call1_cst : FVec F S_ .f32 := constant S_ .f32 0xFF800000#32
  let main_call1_v0 : FVec F S2048 .f32 := (fun x v => Host.reduce FloatOps.maximumf x v reducesTo_S2048x512_S2048_d1 h_S_) main_v54 main_call1_cst
  let main_call1_cst_0 : FVec F S_ .f32 := constant S_ .f32 0xFF800000#32
  let main_call1_v1 : FVec F S2048 .f32 := broadcastInDim (s := S_) S2048 ![] bcast_S_S2048 main_call1_cst_0
  let main_call1_v2 : FVec F S2048 .f32 := maximumf main_call1_v1 main_call1_v0
  let main_call1_v3 : FVec F S2048x1 .f32 := broadcastInDim (s := S2048) S2048x1 ![0] bcast_S2048_S2048x1_0 main_call1_v2
  let main_call1_v4 : FVec F S2048x512 .f32 := broadcastInDim (s := S2048x1) S2048x512 ![0, 1] bcast_S2048x1_S2048x512_0_1 main_call1_v3
  let main_call1_v5 : FVec F S2048x512 .f32 := subf main_v54 main_call1_v4
  let main_call1_v6 : FVec F S2048x512 .f32 := Host.exp main_call1_v5
  let main_call1_cst_1 : FVec F S_ .f32 := constant S_ .f32 0x00000000#32
  let main_call1_v7 : FVec F S2048 .f32 := (fun x v => Host.reduceAdd x v reducesTo_S2048x512_S2048_d1 h_S_) main_call1_v6 main_call1_cst_1
  let main_call1_v8 : FVec F S2048x1 .f32 := broadcastInDim (s := S2048) S2048x1 ![0] bcast_S2048_S2048x1_0 main_call1_v7
  let main_call1_v9 : FVec F S2048x1 .f32 := Host.log main_call1_v8
  let main_call1_v10 : FVec F S2048x512 .f32 := broadcastInDim (s := S2048x1) S2048x512 ![0, 1] bcast_S2048x1_S2048x512_0_1 main_call1_v9
  let main_v55 : FVec F S2048x512 .f32 := subf main_call1_v5 main_call1_v10
  -- the entry of each row at the query's own class: a negative index wrapped, one out of range read as not-a-number
  let main_v56 : IVec S2048x1 32 := broadcastInDim (s := S2048) S2048x1 ![0] bcast_S2048_S2048x1_0 main_v15
  let main_call2_c : IVec S_ 32 := constantI S_ 32 0#32
  let main_call2_v0 : IVec S2048x1 32 := broadcastInDim (s := S_) S2048x1 ![] bcast_S_S2048x1 main_call2_c
  let main_call2_v1 : IVec S2048x1 1 := cmpi .slt main_v56 main_call2_v0
  let main_call2_c_0 : IVec S_ 32 := constantI S_ 32 512#32
  let main_call2_v2 : IVec S2048x1 32 := broadcastInDim (s := S_) S2048x1 ![] bcast_S_S2048x1 main_call2_c_0
  let main_call2_v3 : IVec S2048x1 32 := addi main_v56 main_call2_v2
  let main_call2_v4 : IVec S2048x1 32 := select main_call2_v1 main_call2_v3 main_v56
  let main_call2_v5 : IVec S2048x1x1 32 := (shapeCast S2048x1x1 · shapeCasts_S2048x1_S2048x1x1) main_call2_v4
  let main_call2_c_1 : IVec S1 32 := constantI S1 32 511#32
  let main_call2_c_2 : IVec S_ 32 := constantI S_ 32 0#32
  let main_call2_v6 : IVec S2048x1x1 32 := broadcastInDim (s := S_) S2048x1x1 ![] bcast_S_S2048x1x1 main_call2_c_2
  let main_call2_v7 : IVec S2048x1x1 1 := cmpi .sge main_call2_v5 main_call2_v6
  let main_call2_v8 : IVec S1x1x1 32 := broadcastInDim (s := S1) S1x1x1 ![2] bcast_S1_S1x1x1_2 main_call2_c_1
  let main_call2_v9 : IVec S2048x1x1 32 := broadcastInDim (s := S1x1x1) S2048x1x1 ![0, 1, 2] bcast_S1x1x1_S2048x1x1_0_1_2 main_call2_v8
  let main_call2_v10 : IVec S2048x1x1 1 := cmpi .sle main_call2_v5 main_call2_v9
  let main_call2_v11 : IVec S2048x1x1 1 := andi main_call2_v7 main_call2_v10
  let main_call2_c_3 : IVec S_ 1 := constantI S_ 1 1#1
  let main_call2_v12 : IVec S2048x1 1 := (fun x v => Host.reduce IntOp.andi x v reducesTo_S2048x1x1_S2048x1_d2 h_S_) main_call2_v11 main_call2_c_3
  let main_call2_v13 : FVec F S2048x1 .f32 := (fun x i => Host.gather gather_S2048x512_S2048x1x1_S2048x1_n_1_0_0_1_2_11 x i) main_v55 main_call2_v5
  let main_call2_cst : FVec F S_ .f32 := constant S_ .f32 0x7FC00000#32
  let main_call2_v14 : FVec F S2048x1 .f32 := broadcastInDim (s := S_) S2048x1 ![] bcast_S_S2048x1 main_call2_cst
  let main_v57 : FVec F S2048x1 .f32 := select main_call2_v12 main_call2_v13 main_call2_v14
  -- the mean of the negated entries
  let main_v58 : FVec F S2048 .f32 := (shapeCast S2048 · shapeCasts_S2048x1_S2048) main_v57
  let main_v59 : FVec F S2048 .f32 := Host.negf main_v58
  let main_cst_6 : FVec F S_ .f32 := constant S_ .f32 0x00000000#32
  let main_v60 : FVec F S_ .f32 := (fun x v => Host.reduceAdd x v reducesTo_S2048_S_d0 h_S_) main_v59 main_cst_6
  let main_cst_7 : FVec F S_ .f32 := constant S_ .f32 0x45000000#32
  let main_v61 : FVec F S_ .f32 := Host.divf main_v60 main_cst_7
  main_v61

end Cert.ReferenceIdeal.Hand

end
-- ==== Proof.Ref.Ops.lean ====
/-
  The reference program as one straight line: @main's operations in order, the called functions' operations in place
  of their calls, and the facts its run asks of that line.
-/
import proofs.«413345_j40647570489383_3_alg».proof.Proof.Gen.ReferenceIdeal
import Idealize.ShloMosaic.Lib.StableHlo.Run

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

/-- @main's operations in order, each called function's operations in place of its call, over that call's buffers:
    the arg-max of the selected one-hot rows (five), the log-softmax of the logits (fifteen), the entry taken along
    the class axis (twenty-two). -/
abbrev ops : List (HloOp τ sig (Elt F)) :=
  [
    nullary main_v0 (iotaInDim S512 32 0),
    unary main_arg3 main_v1 (broadcastInDim S65536x1 ![0] bcast_S65536_S65536x1_0 : (⟨S65536, .i32⟩ : BufTy).Contents (Elt F) → (⟨S65536x1, .i32⟩ : BufTy).Contents (Elt F)),
    unary main_v0 main_v2 (broadcastInDim S1x512 ![1] bcast_S512_S1x512_1 : (⟨S512, .i32⟩ : BufTy).Contents (Elt F) → (⟨S1x512, .i32⟩ : BufTy).Contents (Elt F)),
    unary main_v1 main_v3 (broadcastInDim S65536x512 ![0, 1] bcast_S65536x1_S65536x512_0_1 : (⟨S65536x1, .i32⟩ : BufTy).Contents (Elt F) → (⟨S65536x512, .i32⟩ : BufTy).Contents (Elt F)),
    unary main_v2 main_v4 (broadcastInDim S65536x512 ![0, 1] bcast_S1x512_S65536x512_0_1 : (⟨S1x512, .i32⟩ : BufTy).Contents (Elt F) → (⟨S65536x512, .i32⟩ : BufTy).Contents (Elt F)),
    binary main_v3 main_v4 main_v5 (cmpi .eq : (⟨S65536x512, .i32⟩ : BufTy).Contents (Elt F) → (⟨S65536x512, .i32⟩ : BufTy).Contents (Elt F) → (⟨S65536x512, .i1⟩ : BufTy).Contents (Elt F)),
    unary main_v5 main_v6 ((extui 32 · natLt_1_32) : (⟨S65536x512, .i1⟩ : BufTy).Contents (Elt F) → (⟨S65536x512, .i32⟩ : BufTy).Contents (Elt F)),
    nullary main_c (constantI S_ 32 0#32),
    binary main_v6 main_c main_v7 ((fun x v => Host.reduce IntOp.addi x v reducesTo_S65536x512_S512_d0 h_S_) : (⟨S65536x512, .i32⟩ : BufTy).Contents (Elt F) → (⟨S_, .i32⟩ : BufTy).Contents (Elt F) → (⟨S512, .i32⟩ : BufTy).Contents (Elt F)),
    nullary main_c_0 (constantI S_ 32 0#32),
    unary main_c_0 main_v8 (broadcastInDim S2048 ![] bcast_S_S2048 : (⟨S_, .i32⟩ : BufTy).Contents (Elt F) → (⟨S2048, .i32⟩ : BufTy).Contents (Elt F)),
    binary main_arg4 main_v8 main_v9 (cmpi .slt : (⟨S2048, .i32⟩ : BufTy).Contents (Elt F) → (⟨S2048, .i32⟩ : BufTy).Contents (Elt F) → (⟨S2048, .i1⟩ : BufTy).Contents (Elt F)),
    nullary main_c_1 (constantI S_ 32 65536#32),
    unary main_c_1 main_v10 (broadcastInDim S2048 ![] bcast_S_S2048 : (⟨S_, .i32⟩ : BufTy).Contents (Elt F) → (⟨S2048, .i32⟩ : BufTy).Contents (Elt F)),
    binary main_arg4 main_v10 main_v11 (addi : (⟨S2048, .i32⟩ : BufTy).Contents (Elt F) → (⟨S2048, .i32⟩ : BufTy).Contents (Elt F) → (⟨S2048, .i32⟩ : BufTy).Contents (Elt F)),
    ternary main_v9 main_v11 main_arg4 main_v12 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v12 main_v13 (broadcastInDim S2048x1 ![0] bcast_S2048_S2048x1_0 : (⟨S2048, .i32⟩ : BufTy).Contents (Elt F) → (⟨S2048x1, .i32⟩ : BufTy).Contents (Elt F)),
    binary main_v5 main_v13 main_v14 ((fun x i => Host.gather gather_S65536x512_S2048x1_S2048x512_1_0_n_n_0_1_1512 x i) : (⟨S65536x512, .i1⟩ : BufTy).Contents (Elt F) → (⟨S2048x1, .i32⟩ : BufTy).Contents (Elt F) → (⟨S2048x512, .i1⟩ : BufTy).Contents (Elt F)),
    TRef.nullary (TRef.of (T := ⟨S2048x512, .i32⟩) main_call0_v0) (iotaInDim S2048x512 32 1),
    TRef.nullary (TRef.of (T := ⟨S_, .i1⟩) main_call0_c) (constantI S_ 1 0#1),
    TRef.nullary (TRef.of (T := ⟨S_, .i32⟩) main_call0_c_0) (constantI S_ 32 0#32),
    TRef.quaternary (TRef.of (T := ⟨S2048x512, .i1⟩) main_v14) (TRef.of (T := ⟨S2048x512, .i32⟩) main_call0_v0) (TRef.of (T := ⟨S_, .i1⟩) main_call0_c) (TRef.of (T := ⟨S_, .i32⟩) main_call0_c_0) (TRef.of (T := ⟨S2048, .i1⟩) main_call0_v1_0) (fun x y u v j => (Host.reduce2 reducer_argmax_i1_i32 x y u v reducesTo_S2048x512_S2048_d1 h_S_ j).1),
    TRef.quaternary (TRef.of (T := ⟨S2048x512, .i1⟩) main_v14) (TRef.of (T := ⟨S2048x512, .i32⟩) main_call0_v0) (TRef.of (T := ⟨S_, .i1⟩) main_call0_c) (TRef.of (T := ⟨S_, .i32⟩) main_call0_c_0) (TRef.of (T := ⟨S2048, .i32⟩) main_v15) (fun x y u v j => (Host.reduce2 reducer_argmax_i1_i32 x y u v reducesTo_S2048x512_S2048_d1 h_S_ j).2),
    unary main_v5 main_v16 (uitofp .f32 : (⟨S65536x512, .i1⟩ : BufTy).Contents (Elt F) → (⟨S65536x512, .f32⟩ : BufTy).Contents (Elt F)),
    unary main_v16 main_v17 ((transpose S512x65536 [1, 0] · transposes_S65536x512_S512x65536_1_0) : (⟨S65536x512, .f32⟩ : BufTy).Contents (Elt F) → (⟨S512x65536, .f32⟩ : BufTy).Contents (Elt F)),
    binary main_v17 main_arg2 main_v18 ((fun l r => Host.dotGeneral dot_S512x65536_S65536x128_S512x128_1_0_0_1_n_n none l r) : (⟨S512x65536, .f32⟩ : BufTy).Contents (Elt F) → (⟨S65536x128, .f32⟩ : BufTy).Contents (Elt F) → (⟨S512x128, .f32⟩ : BufTy).Contents (Elt F)),
    unary main_v15 main_v19 (broadcastInDim S2048x1 ![0] bcast_S2048_S2048x1_0 : (⟨S2048, .i32⟩ : BufTy).Contents (Elt F) → (⟨S2048x1, .i32⟩ : BufTy).Contents (Elt F)),
    unary main_v0 main_v20 (broadcastInDim S1x512 ![1] bcast_S512_S1x512_1 : (⟨S512, .i32⟩ : BufTy).Contents (Elt F) → (⟨S1x512, .i32⟩ : BufTy).Contents (Elt F)),
    unary main_v19 main_v21 (broadcastInDim S2048x512 ![0, 1] bcast_S2048x1_S2048x512_0_1 : (⟨S2048x1, .i32⟩ : BufTy).Contents (Elt F) → (⟨S2048x512, .i32⟩ : BufTy).Contents (Elt F)),
    unary main_v20 main_v22 (broadcastInDim S2048x512 ![0, 1] bcast_S1x512_S2048x512_0_1 : (⟨S1x512, .i32⟩ : BufTy).Contents (Elt F) → (⟨S2048x512, .i32⟩ : BufTy).Contents (Elt F)),
    binary main_v21 main_v22 main_v23 (cmpi .eq : (⟨S2048x512, .i32⟩ : BufTy).Contents (Elt F) → (⟨S2048x512, .i32⟩ : BufTy).Contents (Elt F) → (⟨S2048x512, .i1⟩ : BufTy).Contents (Elt F)),
    unary main_v23 main_v24 (uitofp .f32 : (⟨S2048x512, .i1⟩ : BufTy).Contents (Elt F) → (⟨S2048x512, .f32⟩ : BufTy).Contents (Elt F)),
    unary main_v18 main_v25 (broadcastInDim S1x512x128 ![1, 2] bcast_S512x128_S1x512x128_1_2 : (⟨S512x128, .f32⟩ : BufTy).Contents (Elt F) → (⟨S1x512x128, .f32⟩ : BufTy).Contents (Elt F)),
    unary main_v24 main_v26 (broadcastInDim S2048x512x1 ![0, 1] bcast_S2048x512_S2048x512x1_0_1 : (⟨S2048x512, .f32⟩ : BufTy).Contents (Elt F) → (⟨S2048x512x1, .f32⟩ : BufTy).Contents (Elt F)),
    unary main_arg0 main_v27 (broadcastInDim S2048x1x128 ![0, 2] bcast_S2048x128_S2048x1x128_0_2 : (⟨S2048x128, .f32⟩ : BufTy).Contents (Elt F) → (⟨S2048x1x128, .f32⟩ : BufTy).Contents (Elt F)),
    unary main_v26 main_v28 (broadcastInDim S2048x512x128 ![0, 1, 2] bcast_S2048x512x1_S2048x512x128_0_1_2 : (⟨S2048x512x1, .f32⟩ : BufTy).Contents (Elt F) → (⟨S2048x512x128, .f32⟩ : BufTy).Contents (Elt F)),
    unary main_v27 main_v29 (broadcastInDim S2048x512x128 ![0, 1, 2] bcast_S2048x1x128_S2048x512x128_0_1_2 : (⟨S2048x1x128, .f32⟩ : BufTy).Contents (Elt F) → (⟨S2048x512x128, .f32⟩ : BufTy).Contents (Elt F)),
    binary main_v28 main_v29 main_v30 (mulf : (⟨S2048x512x128, .f32⟩ : BufTy).Contents (Elt F) → (⟨S2048x512x128, .f32⟩ : BufTy).Contents (Elt F) → (⟨S2048x512x128, .f32⟩ : BufTy).Contents (Elt F)),
    unary main_v25 main_v31 (broadcastInDim S2048x512x128 ![0, 1, 2] bcast_S1x512x128_S2048x512x128_0_1_2 : (⟨S1x512x128, .f32⟩ : BufTy).Contents (Elt F) → (⟨S2048x512x128, .f32⟩ : BufTy).Contents (Elt F)),
    binary main_v31 main_v30 main_v32 (subf : (⟨S2048x512x128, .f32⟩ : BufTy).Contents (Elt F) → (⟨S2048x512x128, .f32⟩ : BufTy).Contents (Elt F) → (⟨S2048x512x128, .f32⟩ : BufTy).Contents (Elt F)),
    unary main_v7 main_v33 (broadcastInDim S1x512 ![1] bcast_S512_S1x512_1 : (⟨S512, .i32⟩ : BufTy).Contents (Elt F) → (⟨S1x512, .i32⟩ : BufTy).Contents (Elt F)),
    unary main_v33 main_v34 (sitofp .f32 : (⟨S1x512, .i32⟩ : BufTy).Contents (Elt F) → (⟨S1x512, .f32⟩ : BufTy).Contents (Elt F)),
    unary main_v34 main_v35 (broadcastInDim S2048x512 ![0, 1] bcast_S1x512_S2048x512_0_1 : (⟨S1x512, .f32⟩ : BufTy).Contents (Elt F) → (⟨S2048x512, .f32⟩ : BufTy).Contents (Elt F)),
    binary main_v35 main_v24 main_v36 (subf : (⟨S2048x512, .f32⟩ : BufTy).Contents (Elt F) → (⟨S2048x512, .f32⟩ : BufTy).Contents (Elt F) → (⟨S2048x512, .f32⟩ : BufTy).Contents (Elt F)),
    nullary main_cst (constant S_ .f32 0x3DCCCCCD#32),
    unary main_cst main_v37 (broadcastInDim S2048x512 ![] bcast_S_S2048x512 : (⟨S_, .f32⟩ : BufTy).Contents (Elt F) → (⟨S2048x512, .f32⟩ : BufTy).Contents (Elt F)),
    binary main_v36 main_v37 main_v38 (maximumf : (⟨S2048x512, .f32⟩ : BufTy).Contents (Elt F) → (⟨S2048x512, .f32⟩ : BufTy).Contents (Elt F) → (⟨S2048x512, .f32⟩ : BufTy).Contents (Elt F)),
    unary main_v38 main_v39 (broadcastInDim S2048x512x1 ![0, 1] bcast_S2048x512_S2048x512x1_0_1 : (⟨S2048x512, .f32⟩ : BufTy).Contents (Elt F) → (⟨S2048x512x1, .f32⟩ : BufTy).Contents (Elt F)),
    unary main_v39 main_v40 (broadcastInDim S2048x512x128 ![0, 1, 2] bcast_S2048x512x1_S2048x512x128_0_1_2 : (⟨S2048x512x1, .f32⟩ : BufTy).Contents (Elt F) → (⟨S2048x512x128, .f32⟩ : BufTy).Contents (Elt F)),
    binary main_v32 main_v40 main_v41 (Host.divf : (⟨S2048x512x128, .f32⟩ : BufTy).Contents (Elt F) → (⟨S2048x512x128, .f32⟩ : BufTy).Contents (Elt F) → (⟨S2048x512x128, .f32⟩ : BufTy).Contents (Elt F)),
    unary main_arg0 main_v42 (broadcastInDim S2048x1x128 ![0, 2] bcast_S2048x128_S2048x1x128_0_2 : (⟨S2048x128, .f32⟩ : BufTy).Contents (Elt F) → (⟨S2048x1x128, .f32⟩ : BufTy).Contents (Elt F)),
    unary main_v42 main_v43 (broadcastInDim S2048x512x128 ![0, 1, 2] bcast_S2048x1x128_S2048x512x128_0_1_2 : (⟨S2048x1x128, .f32⟩ : BufTy).Contents (Elt F) → (⟨S2048x512x128, .f32⟩ : BufTy).Contents (Elt F)),
    binary main_v43 main_v41 main_v44 (subf : (⟨S2048x512x128, .f32⟩ : BufTy).Contents (Elt F) → (⟨S2048x512x128, .f32⟩ : BufTy).Contents (Elt F) → (⟨S2048x512x128, .f32⟩ : BufTy).Contents (Elt F)),
    binary main_v44 main_v44 main_v45 (mulf : (⟨S2048x512x128, .f32⟩ : BufTy).Contents (Elt F) → (⟨S2048x512x128, .f32⟩ : BufTy).Contents (Elt F) → (⟨S2048x512x128, .f32⟩ : BufTy).Contents (Elt F)),
    nullary main_cst_2 (constant S_ .f32 0x00000000#32),
    binary main_v45 main_cst_2 main_v46 ((fun x v => Host.reduceAdd x v reducesTo_S2048x512x128_S2048x512_d2 h_S_) : (⟨S2048x512x128, .f32⟩ : BufTy).Contents (Elt F) → (⟨S_, .f32⟩ : BufTy).Contents (Elt F) → (⟨S2048x512, .f32⟩ : BufTy).Contents (Elt F)),
    nullary main_cst_3 (constant S_ .f32 0xBF000000#32),
    unary main_cst_3 main_v47 (broadcastInDim S2048x512 ![] bcast_S_S2048x512 : (⟨S_, .f32⟩ : BufTy).Contents (Elt F) → (⟨S2048x512, .f32⟩ : BufTy).Contents (Elt F)),
    binary main_v47 main_v46 main_v48 (mulf : (⟨S2048x512, .f32⟩ : BufTy).Contents (Elt F) → (⟨S2048x512, .f32⟩ : BufTy).Contents (Elt F) → (⟨S2048x512, .f32⟩ : BufTy).Contents (Elt F)),
    nullary main_cst_4 (constant S_ .f32 0x3DCCCCCD#32),
    unary main_cst_4 main_v49 (broadcastInDim S2048x512 ![] bcast_S_S2048x512 : (⟨S_, .f32⟩ : BufTy).Contents (Elt F) → (⟨S2048x512, .f32⟩ : BufTy).Contents (Elt F)),
    binary main_v36 main_v49 main_v50 (cmpf .ogt : (⟨S2048x512, .f32⟩ : BufTy).Contents (Elt F) → (⟨S2048x512, .f32⟩ : BufTy).Contents (Elt F) → (⟨S2048x512, .i1⟩ : BufTy).Contents (Elt F)),
    unary main_v50 main_v51 (uitofp .f32 : (⟨S2048x512, .i1⟩ : BufTy).Contents (Elt F) → (⟨S2048x512, .f32⟩ : BufTy).Contents (Elt F)),
    binary main_v48 main_v51 main_v52 (mulf : (⟨S2048x512, .f32⟩ : BufTy).Contents (Elt F) → (⟨S2048x512, .f32⟩ : BufTy).Contents (Elt F) → (⟨S2048x512, .f32⟩ : BufTy).Contents (Elt F)),
    nullary main_cst_5 (constant S_ .f32 0x3F800000#32),
    unary main_cst_5 main_v53 (broadcastInDim S2048x512 ![] bcast_S_S2048x512 : (⟨S_, .f32⟩ : BufTy).Contents (Elt F) → (⟨S2048x512, .f32⟩ : BufTy).Contents (Elt F)),
    binary main_v52 main_v53 main_v54 (Host.divf : (⟨S2048x512, .f32⟩ : BufTy).Contents (Elt F) → (⟨S2048x512, .f32⟩ : BufTy).Contents (Elt F) → (⟨S2048x512, .f32⟩ : BufTy).Contents (Elt F)),
    TRef.nullary (TRef.of (T := ⟨S_, .f32⟩) main_call1_cst) (constant S_ .f32 0xFF800000#32),
    TRef.binary (TRef.of (T := ⟨S2048x512, .f32⟩) main_v54) (TRef.of (T := ⟨S_, .f32⟩) main_call1_cst) (TRef.of (T := ⟨S2048, .f32⟩) main_call1_v0) (fun x v => Host.reduce FloatOps.maximumf x v reducesTo_S2048x512_S2048_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S2048, .f32⟩) main_call1_v1) (broadcastInDim S2048 ![] bcast_S_S2048),
    TRef.binary (TRef.of (T := ⟨S2048, .f32⟩) main_call1_v1) (TRef.of (T := ⟨S2048, .f32⟩) main_call1_v0) (TRef.of (T := ⟨S2048, .f32⟩) main_call1_v2) maximumf,
    TRef.unary (TRef.of (T := ⟨S2048, .f32⟩) main_call1_v2) (TRef.of (T := ⟨S2048x1, .f32⟩) main_call1_v3) (broadcastInDim S2048x1 ![0] bcast_S2048_S2048x1_0),
    TRef.unary (TRef.of (T := ⟨S2048x1, .f32⟩) main_call1_v3) (TRef.of (T := ⟨S2048x512, .f32⟩) main_call1_v4) (broadcastInDim S2048x512 ![0, 1] bcast_S2048x1_S2048x512_0_1),
    TRef.binary (TRef.of (T := ⟨S2048x512, .f32⟩) main_v54) (TRef.of (T := ⟨S2048x512, .f32⟩) main_call1_v4) (TRef.of (T := ⟨S2048x512, .f32⟩) main_call1_v5) subf,
    TRef.unary (TRef.of (T := ⟨S2048x512, .f32⟩) main_call1_v5) (TRef.of (T := ⟨S2048x512, .f32⟩) main_call1_v6) Host.exp,
    TRef.nullary (TRef.of (T := ⟨S_, .f32⟩) main_call1_cst_1) (constant S_ .f32 0x00000000#32),
    TRef.binary (TRef.of (T := ⟨S2048x512, .f32⟩) main_call1_v6) (TRef.of (T := ⟨S_, .f32⟩) main_call1_cst_1) (TRef.of (T := ⟨S2048, .f32⟩) main_call1_v7) (fun x v => Host.reduceAdd x v reducesTo_S2048x512_S2048_d1 h_S_),
    TRef.unary (TRef.of (T := ⟨S2048, .f32⟩) main_call1_v7) (TRef.of (T := ⟨S2048x1, .f32⟩) main_call1_v8) (broadcastInDim S2048x1 ![0] bcast_S2048_S2048x1_0),
    TRef.unary (TRef.of (T := ⟨S2048x1, .f32⟩) main_call1_v8) (TRef.of (T := ⟨S2048x1, .f32⟩) main_call1_v9) Host.log,
    TRef.unary (TRef.of (T := ⟨S2048x1, .f32⟩) main_call1_v9) (TRef.of (T := ⟨S2048x512, .f32⟩) main_call1_v10) (broadcastInDim S2048x512 ![0, 1] bcast_S2048x1_S2048x512_0_1),
    TRef.binary (TRef.of (T := ⟨S2048x512, .f32⟩) main_call1_v5) (TRef.of (T := ⟨S2048x512, .f32⟩) main_call1_v10) (TRef.of (T := ⟨S2048x512, .f32⟩) main_v55) subf,
    unary main_v15 main_v56 (broadcastInDim S2048x1 ![0] bcast_S2048_S2048x1_0 : (⟨S2048, .i32⟩ : BufTy).Contents (Elt F) → (⟨S2048x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S2048x1, .i32⟩) main_call2_v0) (broadcastInDim S2048x1 ![] bcast_S_S2048x1),
    TRef.binary (TRef.of (T := ⟨S2048x1, .i32⟩) main_v56) (TRef.of (T := ⟨S2048x1, .i32⟩) main_call2_v0) (TRef.of (T := ⟨S2048x1, .i1⟩) main_call2_v1) (cmpi .slt),
    TRef.nullary (TRef.of (T := ⟨S_, .i32⟩) main_call2_c_0) (constantI S_ 32 512#32),
    TRef.unary (TRef.of (T := ⟨S_, .i32⟩) main_call2_c_0) (TRef.of (T := ⟨S2048x1, .i32⟩) main_call2_v2) (broadcastInDim S2048x1 ![] bcast_S_S2048x1),
    TRef.binary (TRef.of (T := ⟨S2048x1, .i32⟩) main_v56) (TRef.of (T := ⟨S2048x1, .i32⟩) main_call2_v2) (TRef.of (T := ⟨S2048x1, .i32⟩) main_call2_v3) addi,
    TRef.ternary (TRef.of (T := ⟨S2048x1, .i1⟩) main_call2_v1) (TRef.of (T := ⟨S2048x1, .i32⟩) main_call2_v3) (TRef.of (T := ⟨S2048x1, .i32⟩) main_v56) (TRef.of (T := ⟨S2048x1, .i32⟩) main_call2_v4) select,
    TRef.reshape (TRef.of (T := ⟨S2048x1, .i32⟩) main_call2_v4) (TRef.of (T := ⟨S2048x1x1, .i32⟩) main_call2_v5) rfl shapeCasts_S2048x1_S2048x1x1,
    TRef.nullary (TRef.of (T := ⟨S1, .i32⟩) main_call2_c_1) (constantI S1 32 511#32),
    TRef.nullary (TRef.of (T := ⟨S_, .i32⟩) main_call2_c_2) (constantI S_ 32 0#32),
    TRef.unary (TRef.of (T := ⟨S_, .i32⟩) main_call2_c_2) (TRef.of (T := ⟨S2048x1x1, .i32⟩) main_call2_v6) (broadcastInDim S2048x1x1 ![] bcast_S_S2048x1x1),
    TRef.binary (TRef.of (T := ⟨S2048x1x1, .i32⟩) main_call2_v5) (TRef.of (T := ⟨S2048x1x1, .i32⟩) main_call2_v6) (TRef.of (T := ⟨S2048x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S2048x1x1, .i32⟩) main_call2_v9) (broadcastInDim S2048x1x1 ![0, 1, 2] bcast_S1x1x1_S2048x1x1_0_1_2),
    TRef.binary (TRef.of (T := ⟨S2048x1x1, .i32⟩) main_call2_v5) (TRef.of (T := ⟨S2048x1x1, .i32⟩) main_call2_v9) (TRef.of (T := ⟨S2048x1x1, .i1⟩) main_call2_v10) (cmpi .sle),
    TRef.binary (TRef.of (T := ⟨S2048x1x1, .i1⟩) main_call2_v7) (TRef.of (T := ⟨S2048x1x1, .i1⟩) main_call2_v10) (TRef.of (T := ⟨S2048x1x1, .i1⟩) main_call2_v11) andi,
    TRef.nullary (TRef.of (T := ⟨S_, .i1⟩) main_call2_c_3) (constantI S_ 1 1#1),
    TRef.binary (TRef.of (T := ⟨S2048x1x1, .i1⟩) main_call2_v11) (TRef.of (T := ⟨S_, .i1⟩) main_call2_c_3) (TRef.of (T := ⟨S2048x1, .i1⟩) main_call2_v12) (fun x v => Host.reduce IntOp.andi x v reducesTo_S2048x1x1_S2048x1_d2 h_S_),
    TRef.binary (TRef.of (T := ⟨S2048x512, .f32⟩) main_v55) (TRef.of (T := ⟨S2048x1x1, .i32⟩) main_call2_v5) (TRef.of (T := ⟨S2048x1, .f32⟩) main_call2_v13) (fun x i => Host.gather gather_S2048x512_S2048x1x1_S2048x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S2048x1, .f32⟩) main_call2_v14) (broadcastInDim S2048x1 ![] bcast_S_S2048x1),
    TRef.ternary (TRef.of (T := ⟨S2048x1, .i1⟩) main_call2_v12) (TRef.of (T := ⟨S2048x1, .f32⟩) main_call2_v13) (TRef.of (T := ⟨S2048x1, .f32⟩) main_call2_v14) (TRef.of (T := ⟨S2048x1, .f32⟩) main_v57) select,
    reshape main_v57 main_v58 rfl shapeCasts_S2048x1_S2048,
    unary main_v58 main_v59 (Host.negf : (⟨S2048, .f32⟩ : BufTy).Contents (Elt F) → (⟨S2048, .f32⟩ : BufTy).Contents (Elt F)),
    nullary main_cst_6 (constant S_ .f32 0x00000000#32),
    binary main_v59 main_cst_6 main_v60 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_7 (constant S_ .f32 0x45000000#32),
    binary main_v60 main_cst_7 main_v61 (Host.divf : (⟨S_, .f32⟩ : BufTy).Contents (Elt F) → (⟨S_, .f32⟩ : BufTy).Contents (Elt F) → (⟨S_, .f32⟩ : BufTy).Contents (Elt F)) ]

set_option maxHeartbeats 4000000 in
/-- @main is that straight line: the two windows, and the called functions' bodies at their calls, are one chain of
    steps once sequencing is reassociated. -/
theorem main_eq (c : Dev nD) : main (F := F) c = seq ops := by
  simp only [main, main_part0, main_part1, fn_argmax.body, fn_log_softmax.body, fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., unary_bufs_sub .., unary_bufs_sub .., unary_bufs_sub .., binary_bufs_sub ..,
    unary_bufs_sub .., nullary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., nullary_bufs_sub .., nullary_bufs_sub .., quaternary_bufs_sub .., quaternary_bufs_sub .., unary_bufs_sub ..,
    unary_bufs_sub .., binary_bufs_sub .., unary_bufs_sub .., unary_bufs_sub .., unary_bufs_sub .., unary_bufs_sub ..,
    binary_bufs_sub .., unary_bufs_sub .., unary_bufs_sub .., unary_bufs_sub .., unary_bufs_sub .., unary_bufs_sub ..,
    unary_bufs_sub .., binary_bufs_sub .., unary_bufs_sub .., binary_bufs_sub .., unary_bufs_sub .., unary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., binary_bufs_sub .., nullary_bufs_sub .., unary_bufs_sub .., binary_bufs_sub .., nullary_bufs_sub ..,
    unary_bufs_sub .., binary_bufs_sub .., unary_bufs_sub .., binary_bufs_sub .., nullary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    nullary_bufs_sub .., unary_bufs_sub .., ternary_bufs_sub .., reshape_bufs_sub .., unary_bufs_sub .., nullary_bufs_sub ..,
    binary_bufs_sub .., nullary_bufs_sub .., binary_bufs_sub ..⟩

end Cert.ReferenceIdeal.Hand

end
-- ==== Proof.Ref.Run.lean ====
/-
  The reference program's run: every execution ends with the result buffer at the operations' composed term of the
  arguments, the arguments unchanged.
-/
import proofs.«413345_j40647570489383_3_alg».proof.Proof.Ref.Term
import proofs.«413345_j40647570489383_3_alg».proof.Proof.Ref.Ops
import Idealize.ShloMosaic.Lib.StableHlo.Run

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

/-! ## The line in two windows

The first window ends at the logits (`main_v54`) and holds the queries' own classes (`main_v15`); the second is the
log-softmax, the entry taken at the own class, and the mean. -/

/-- The operations through the logits. -/
abbrev opsA : List (HloOp τ sig (Elt F)) :=
  [
    nullary main_v0 (iotaInDim S512 32 0),
    unary main_arg3 main_v1 (broadcastInDim S65536x1 ![0] bcast_S65536_S65536x1_0 : (⟨S65536, .i32⟩ : BufTy).Contents (Elt F) → (⟨S65536x1, .i32⟩ : BufTy).Contents (Elt F)),
    unary main_v0 main_v2 (broadcastInDim S1x512 ![1] bcast_S512_S1x512_1 : (⟨S512, .i32⟩ : BufTy).Contents (Elt F) → (⟨S1x512, .i32⟩ : BufTy).Contents (Elt F)),
    unary main_v1 main_v3 (broadcastInDim S65536x512 ![0, 1] bcast_S65536x1_S65536x512_0_1 : (⟨S65536x1, .i32⟩ : BufTy).Contents (Elt F) → (⟨S65536x512, .i32⟩ : BufTy).Contents (Elt F)),
    unary main_v2 main_v4 (broadcastInDim S65536x512 ![0, 1] bcast_S1x512_S65536x512_0_1 : (⟨S1x512, .i32⟩ : BufTy).Contents (Elt F) → (⟨S65536x512, .i32⟩ : BufTy).Contents (Elt F)),
    binary main_v3 main_v4 main_v5 (cmpi .eq : (⟨S65536x512, .i32⟩ : BufTy).Contents (Elt F) → (⟨S65536x512, .i32⟩ : BufTy).Contents (Elt F) → (⟨S65536x512, .i1⟩ : BufTy).Contents (Elt F)),
    unary main_v5 main_v6 ((extui 32 · natLt_1_32) : (⟨S65536x512, .i1⟩ : BufTy).Contents (Elt F) → (⟨S65536x512, .i32⟩ : BufTy).Contents (Elt F)),
    nullary main_c (constantI S_ 32 0#32),
    binary main_v6 main_c main_v7 ((fun x v => Host.reduce IntOp.addi x v reducesTo_S65536x512_S512_d0 h_S_) : (⟨S65536x512, .i32⟩ : BufTy).Contents (Elt F) → (⟨S_, .i32⟩ : BufTy).Contents (Elt F) → (⟨S512, .i32⟩ : BufTy).Contents (Elt F)),
    nullary main_c_0 (constantI S_ 32 0#32),
    unary main_c_0 main_v8 (broadcastInDim S2048 ![] bcast_S_S2048 : (⟨S_, .i32⟩ : BufTy).Contents (Elt F) → (⟨S2048, .i32⟩ : BufTy).Contents (Elt F)),
    binary main_arg4 main_v8 main_v9 (cmpi .slt : (⟨S2048, .i32⟩ : BufTy).Contents (Elt F) → (⟨S2048, .i32⟩ : BufTy).Contents (Elt F) → (⟨S2048, .i1⟩ : BufTy).Contents (Elt F)),
    nullary main_c_1 (constantI S_ 32 65536#32),
    unary main_c_1 main_v10 (broadcastInDim S2048 ![] bcast_S_S2048 : (⟨S_, .i32⟩ : BufTy).Contents (Elt F) → (⟨S2048, .i32⟩ : BufTy).Contents (Elt F)),
    binary main_arg4 main_v10 main_v11 (addi : (⟨S2048, .i32⟩ : BufTy).Contents (Elt F) → (⟨S2048, .i32⟩ : BufTy).Contents (Elt F) → (⟨S2048, .i32⟩ : BufTy).Contents (Elt F)),
    ternary main_v9 main_v11 main_arg4 main_v12 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v12 main_v13 (broadcastInDim S2048x1 ![0] bcast_S2048_S2048x1_0 : (⟨S2048, .i32⟩ : BufTy).Contents (Elt F) → (⟨S2048x1, .i32⟩ : BufTy).Contents (Elt F)),
    binary main_v5 main_v13 main_v14 ((fun x i => Host.gather gather_S65536x512_S2048x1_S2048x512_1_0_n_n_0_1_1512 x i) : (⟨S65536x512, .i1⟩ : BufTy).Contents (Elt F) → (⟨S2048x1, .i32⟩ : BufTy).Contents (Elt F) → (⟨S2048x512, .i1⟩ : BufTy).Contents (Elt F)),
    TRef.nullary (TRef.of (T := ⟨S2048x512, .i32⟩) main_call0_v0) (iotaInDim S2048x512 32 1),
    TRef.nullary (TRef.of (T := ⟨S_, .i1⟩) main_call0_c) (constantI S_ 1 0#1),
    TRef.nullary (TRef.of (T := ⟨S_, .i32⟩) main_call0_c_0) (constantI S_ 32 0#32),
    TRef.quaternary (TRef.of (T := ⟨S2048x512, .i1⟩) main_v14) (TRef.of (T := ⟨S2048x512, .i32⟩) main_call0_v0) (TRef.of (T := ⟨S_, .i1⟩) main_call0_c) (TRef.of (T := ⟨S_, .i32⟩) main_call0_c_0) (TRef.of (T := ⟨S2048, .i1⟩) main_call0_v1_0) (fun x y u v j => (Host.reduce2 reducer_argmax_i1_i32 x y u v reducesTo_S2048x512_S2048_d1 h_S_ j).1),
    TRef.quaternary (TRef.of (T := ⟨S2048x512, .i1⟩) main_v14) (TRef.of (T := ⟨S2048x512, .i32⟩) main_call0_v0) (TRef.of (T := ⟨S_, .i1⟩) main_call0_c) (TRef.of (T := ⟨S_, .i32⟩) main_call0_c_0) (TRef.of (T := ⟨S2048, .i32⟩) main_v15) (fun x y u v j => (Host.reduce2 reducer_argmax_i1_i32 x y u v reducesTo_S2048x512_S2048_d1 h_S_ j).2),
    unary main_v5 main_v16 (uitofp .f32 : (⟨S65536x512, .i1⟩ : BufTy).Contents (Elt F) → (⟨S65536x512, .f32⟩ : BufTy).Contents (Elt F)),
    unary main_v16 main_v17 ((transpose S512x65536 [1, 0] · transposes_S65536x512_S512x65536_1_0) : (⟨S65536x512, .f32⟩ : BufTy).Contents (Elt F) → (⟨S512x65536, .f32⟩ : BufTy).Contents (Elt F)),
    binary main_v17 main_arg2 main_v18 ((fun l r => Host.dotGeneral dot_S512x65536_S65536x128_S512x128_1_0_0_1_n_n none l r) : (⟨S512x65536, .f32⟩ : BufTy).Contents (Elt F) → (⟨S65536x128, .f32⟩ : BufTy).Contents (Elt F) → (⟨S512x128, .f32⟩ : BufTy).Contents (Elt F)),
    unary main_v15 main_v19 (broadcastInDim S2048x1 ![0] bcast_S2048_S2048x1_0 : (⟨S2048, .i32⟩ : BufTy).Contents (Elt F) → (⟨S2048x1, .i32⟩ : BufTy).Contents (Elt F)),
    unary main_v0 main_v20 (broadcastInDim S1x512 ![1] bcast_S512_S1x512_1 : (⟨S512, .i32⟩ : BufTy).Contents (Elt F) → (⟨S1x512, .i32⟩ : BufTy).Contents (Elt F)),
    unary main_v19 main_v21 (broadcastInDim S2048x512 ![0, 1] bcast_S2048x1_S2048x512_0_1 : (⟨S2048x1, .i32⟩ : BufTy).Contents (Elt F) → (⟨S2048x512, .i32⟩ : BufTy).Contents (Elt F)),
    unary main_v20 main_v22 (broadcastInDim S2048x512 ![0, 1] bcast_S1x512_S2048x512_0_1 : (⟨S1x512, .i32⟩ : BufTy).Contents (Elt F) → (⟨S2048x512, .i32⟩ : BufTy).Contents (Elt F)),
    binary main_v21 main_v22 main_v23 (cmpi .eq : (⟨S2048x512, .i32⟩ : BufTy).Contents (Elt F) → (⟨S2048x512, .i32⟩ : BufTy).Contents (Elt F) → (⟨S2048x512, .i1⟩ : BufTy).Contents (Elt F)),
    unary main_v23 main_v24 (uitofp .f32 : (⟨S2048x512, .i1⟩ : BufTy).Contents (Elt F) → (⟨S2048x512, .f32⟩ : BufTy).Contents (Elt F)),
    unary main_v18 main_v25 (broadcastInDim S1x512x128 ![1, 2] bcast_S512x128_S1x512x128_1_2 : (⟨S512x128, .f32⟩ : BufTy).Contents (Elt F) → (⟨S1x512x128, .f32⟩ : BufTy).Contents (Elt F)),
    unary main_v24 main_v26 (broadcastInDim S2048x512x1 ![0, 1] bcast_S2048x512_S2048x512x1_0_1 : (⟨S2048x512, .f32⟩ : BufTy).Contents (Elt F) → (⟨S2048x512x1, .f32⟩ : BufTy).Contents (Elt F)),
    unary main_arg0 main_v27 (broadcastInDim S2048x1x128 ![0, 2] bcast_S2048x128_S2048x1x128_0_2 : (⟨S2048x128, .f32⟩ : BufTy).Contents (Elt F) → (⟨S2048x1x128, .f32⟩ : BufTy).Contents (Elt F)),
    unary main_v26 main_v28 (broadcastInDim S2048x512x128 ![0, 1, 2] bcast_S2048x512x1_S2048x512x128_0_1_2 : (⟨S2048x512x1, .f32⟩ : BufTy).Contents (Elt F) → (⟨S2048x512x128, .f32⟩ : BufTy).Contents (Elt F)),
    unary main_v27 main_v29 (broadcastInDim S2048x512x128 ![0, 1, 2] bcast_S2048x1x128_S2048x512x128_0_1_2 : (⟨S2048x1x128, .f32⟩ : BufTy).Contents (Elt F) → (⟨S2048x512x128, .f32⟩ : BufTy).Contents (Elt F)),
    binary main_v28 main_v29 main_v30 (mulf : (⟨S2048x512x128, .f32⟩ : BufTy).Contents (Elt F) → (⟨S2048x512x128, .f32⟩ : BufTy).Contents (Elt F) → (⟨S2048x512x128, .f32⟩ : BufTy).Contents (Elt F)),
    unary main_v25 main_v31 (broadcastInDim S2048x512x128 ![0, 1, 2] bcast_S1x512x128_S2048x512x128_0_1_2 : (⟨S1x512x128, .f32⟩ : BufTy).Contents (Elt F) → (⟨S2048x512x128, .f32⟩ : BufTy).Contents (Elt F)),
    binary main_v31 main_v30 main_v32 (subf : (⟨S2048x512x128, .f32⟩ : BufTy).Contents (Elt F) → (⟨S2048x512x128, .f32⟩ : BufTy).Contents (Elt F) → (⟨S2048x512x128, .f32⟩ : BufTy).Contents (Elt F)),
    unary main_v7 main_v33 (broadcastInDim S1x512 ![1] bcast_S512_S1x512_1 : (⟨S512, .i32⟩ : BufTy).Contents (Elt F) → (⟨S1x512, .i32⟩ : BufTy).Contents (Elt F)),
    unary main_v33 main_v34 (sitofp .f32 : (⟨S1x512, .i32⟩ : BufTy).Contents (Elt F) → (⟨S1x512, .f32⟩ : BufTy).Contents (Elt F)),
    unary main_v34 main_v35 (broadcastInDim S2048x512 ![0, 1] bcast_S1x512_S2048x512_0_1 : (⟨S1x512, .f32⟩ : BufTy).Contents (Elt F) → (⟨S2048x512, .f32⟩ : BufTy).Contents (Elt F)),
    binary main_v35 main_v24 main_v36 (subf : (⟨S2048x512, .f32⟩ : BufTy).Contents (Elt F) → (⟨S2048x512, .f32⟩ : BufTy).Contents (Elt F) → (⟨S2048x512, .f32⟩ : BufTy).Contents (Elt F)),
    nullary main_cst (constant S_ .f32 0x3DCCCCCD#32),
    unary main_cst main_v37 (broadcastInDim S2048x512 ![] bcast_S_S2048x512 : (⟨S_, .f32⟩ : BufTy).Contents (Elt F) → (⟨S2048x512, .f32⟩ : BufTy).Contents (Elt F)),
    binary main_v36 main_v37 main_v38 (maximumf : (⟨S2048x512, .f32⟩ : BufTy).Contents (Elt F) → (⟨S2048x512, .f32⟩ : BufTy).Contents (Elt F) → (⟨S2048x512, .f32⟩ : BufTy).Contents (Elt F)),
    unary main_v38 main_v39 (broadcastInDim S2048x512x1 ![0, 1] bcast_S2048x512_S2048x512x1_0_1 : (⟨S2048x512, .f32⟩ : BufTy).Contents (Elt F) → (⟨S2048x512x1, .f32⟩ : BufTy).Contents (Elt F)),
    unary main_v39 main_v40 (broadcastInDim S2048x512x128 ![0, 1, 2] bcast_S2048x512x1_S2048x512x128_0_1_2 : (⟨S2048x512x1, .f32⟩ : BufTy).Contents (Elt F) → (⟨S2048x512x128, .f32⟩ : BufTy).Contents (Elt F)),
    binary main_v32 main_v40 main_v41 (Host.divf : (⟨S2048x512x128, .f32⟩ : BufTy).Contents (Elt F) → (⟨S2048x512x128, .f32⟩ : BufTy).Contents (Elt F) → (⟨S2048x512x128, .f32⟩ : BufTy).Contents (Elt F)),
    unary main_arg0 main_v42 (broadcastInDim S2048x1x128 ![0, 2] bcast_S2048x128_S2048x1x128_0_2 : (⟨S2048x128, .f32⟩ : BufTy).Contents (Elt F) → (⟨S2048x1x128, .f32⟩ : BufTy).Contents (Elt F)),
    unary main_v42 main_v43 (broadcastInDim S2048x512x128 ![0, 1, 2] bcast_S2048x1x128_S2048x512x128_0_1_2 : (⟨S2048x1x128, .f32⟩ : BufTy).Contents (Elt F) → (⟨S2048x512x128, .f32⟩ : BufTy).Contents (Elt F)),
    binary main_v43 main_v41 main_v44 (subf : (⟨S2048x512x128, .f32⟩ : BufTy).Contents (Elt F) → (⟨S2048x512x128, .f32⟩ : BufTy).Contents (Elt F) → (⟨S2048x512x128, .f32⟩ : BufTy).Contents (Elt F)),
    binary main_v44 main_v44 main_v45 (mulf : (⟨S2048x512x128, .f32⟩ : BufTy).Contents (Elt F) → (⟨S2048x512x128, .f32⟩ : BufTy).Contents (Elt F) → (⟨S2048x512x128, .f32⟩ : BufTy).Contents (Elt F)),
    nullary main_cst_2 (constant S_ .f32 0x00000000#32),
    binary main_v45 main_cst_2 main_v46 ((fun x v => Host.reduceAdd x v reducesTo_S2048x512x128_S2048x512_d2 h_S_) : (⟨S2048x512x128, .f32⟩ : BufTy).Contents (Elt F) → (⟨S_, .f32⟩ : BufTy).Contents (Elt F) → (⟨S2048x512, .f32⟩ : BufTy).Contents (Elt F)),
    nullary main_cst_3 (constant S_ .f32 0xBF000000#32),
    unary main_cst_3 main_v47 (broadcastInDim S2048x512 ![] bcast_S_S2048x512 : (⟨S_, .f32⟩ : BufTy).Contents (Elt F) → (⟨S2048x512, .f32⟩ : BufTy).Contents (Elt F)),
    binary main_v47 main_v46 main_v48 (mulf : (⟨S2048x512, .f32⟩ : BufTy).Contents (Elt F) → (⟨S2048x512, .f32⟩ : BufTy).Contents (Elt F) → (⟨S2048x512, .f32⟩ : BufTy).Contents (Elt F)),
    nullary main_cst_4 (constant S_ .f32 0x3DCCCCCD#32),
    unary main_cst_4 main_v49 (broadcastInDim S2048x512 ![] bcast_S_S2048x512 : (⟨S_, .f32⟩ : BufTy).Contents (Elt F) → (⟨S2048x512, .f32⟩ : BufTy).Contents (Elt F)),
    binary main_v36 main_v49 main_v50 (cmpf .ogt : (⟨S2048x512, .f32⟩ : BufTy).Contents (Elt F) → (⟨S2048x512, .f32⟩ : BufTy).Contents (Elt F) → (⟨S2048x512, .i1⟩ : BufTy).Contents (Elt F)),
    unary main_v50 main_v51 (uitofp .f32 : (⟨S2048x512, .i1⟩ : BufTy).Contents (Elt F) → (⟨S2048x512, .f32⟩ : BufTy).Contents (Elt F)),
    binary main_v48 main_v51 main_v52 (mulf : (⟨S2048x512, .f32⟩ : BufTy).Contents (Elt F) → (⟨S2048x512, .f32⟩ : BufTy).Contents (Elt F) → (⟨S2048x512, .f32⟩ : BufTy).Contents (Elt F)),
    nullary main_cst_5 (constant S_ .f32 0x3F800000#32),
    unary main_cst_5 main_v53 (broadcastInDim S2048x512 ![] bcast_S_S2048x512 : (⟨S_, .f32⟩ : BufTy).Contents (Elt F) → (⟨S2048x512, .f32⟩ : BufTy).Contents (Elt F)),
    binary main_v52 main_v53 main_v54 (Host.divf : (⟨S2048x512, .f32⟩ : BufTy).Contents (Elt F) → (⟨S2048x512, .f32⟩ : BufTy).Contents (Elt F) → (⟨S2048x512, .f32⟩ : BufTy).Contents (Elt F)) ]

/-- The operations after the logits. -/
abbrev opsB : List (HloOp τ sig (Elt F)) :=
  [
    TRef.nullary (TRef.of (T := ⟨S_, .f32⟩) main_call1_cst) (constant S_ .f32 0xFF800000#32),
    TRef.binary (TRef.of (T := ⟨S2048x512, .f32⟩) main_v54) (TRef.of (T := ⟨S_, .f32⟩) main_call1_cst) (TRef.of (T := ⟨S2048, .f32⟩) main_call1_v0) (fun x v => Host.reduce FloatOps.maximumf x v reducesTo_S2048x512_S2048_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S2048, .f32⟩) main_call1_v1) (broadcastInDim S2048 ![] bcast_S_S2048),
    TRef.binary (TRef.of (T := ⟨S2048, .f32⟩) main_call1_v1) (TRef.of (T := ⟨S2048, .f32⟩) main_call1_v0) (TRef.of (T := ⟨S2048, .f32⟩) main_call1_v2) maximumf,
    TRef.unary (TRef.of (T := ⟨S2048, .f32⟩) main_call1_v2) (TRef.of (T := ⟨S2048x1, .f32⟩) main_call1_v3) (broadcastInDim S2048x1 ![0] bcast_S2048_S2048x1_0),
    TRef.unary (TRef.of (T := ⟨S2048x1, .f32⟩) main_call1_v3) (TRef.of (T := ⟨S2048x512, .f32⟩) main_call1_v4) (broadcastInDim S2048x512 ![0, 1] bcast_S2048x1_S2048x512_0_1),
    TRef.binary (TRef.of (T := ⟨S2048x512, .f32⟩) main_v54) (TRef.of (T := ⟨S2048x512, .f32⟩) main_call1_v4) (TRef.of (T := ⟨S2048x512, .f32⟩) main_call1_v5) subf,
    TRef.unary (TRef.of (T := ⟨S2048x512, .f32⟩) main_call1_v5) (TRef.of (T := ⟨S2048x512, .f32⟩) main_call1_v6) Host.exp,
    TRef.nullary (TRef.of (T := ⟨S_, .f32⟩) main_call1_cst_1) (constant S_ .f32 0x00000000#32),
    TRef.binary (TRef.of (T := ⟨S2048x512, .f32⟩) main_call1_v6) (TRef.of (T := ⟨S_, .f32⟩) main_call1_cst_1) (TRef.of (T := ⟨S2048, .f32⟩) main_call1_v7) (fun x v => Host.reduceAdd x v reducesTo_S2048x512_S2048_d1 h_S_),
    TRef.unary (TRef.of (T := ⟨S2048, .f32⟩) main_call1_v7) (TRef.of (T := ⟨S2048x1, .f32⟩) main_call1_v8) (broadcastInDim S2048x1 ![0] bcast_S2048_S2048x1_0),
    TRef.unary (TRef.of (T := ⟨S2048x1, .f32⟩) main_call1_v8) (TRef.of (T := ⟨S2048x1, .f32⟩) main_call1_v9) Host.log,
    TRef.unary (TRef.of (T := ⟨S2048x1, .f32⟩) main_call1_v9) (TRef.of (T := ⟨S2048x512, .f32⟩) main_call1_v10) (broadcastInDim S2048x512 ![0, 1] bcast_S2048x1_S2048x512_0_1),
    TRef.binary (TRef.of (T := ⟨S2048x512, .f32⟩) main_call1_v5) (TRef.of (T := ⟨S2048x512, .f32⟩) main_call1_v10) (TRef.of (T := ⟨S2048x512, .f32⟩) main_v55) subf,
    unary main_v15 main_v56 (broadcastInDim S2048x1 ![0] bcast_S2048_S2048x1_0 : (⟨S2048, .i32⟩ : BufTy).Contents (Elt F) → (⟨S2048x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S2048x1, .i32⟩) main_call2_v0) (broadcastInDim S2048x1 ![] bcast_S_S2048x1),
    TRef.binary (TRef.of (T := ⟨S2048x1, .i32⟩) main_v56) (TRef.of (T := ⟨S2048x1, .i32⟩) main_call2_v0) (TRef.of (T := ⟨S2048x1, .i1⟩) main_call2_v1) (cmpi .slt),
    TRef.nullary (TRef.of (T := ⟨S_, .i32⟩) main_call2_c_0) (constantI S_ 32 512#32),
    TRef.unary (TRef.of (T := ⟨S_, .i32⟩) main_call2_c_0) (TRef.of (T := ⟨S2048x1, .i32⟩) main_call2_v2) (broadcastInDim S2048x1 ![] bcast_S_S2048x1),
    TRef.binary (TRef.of (T := ⟨S2048x1, .i32⟩) main_v56) (TRef.of (T := ⟨S2048x1, .i32⟩) main_call2_v2) (TRef.of (T := ⟨S2048x1, .i32⟩) main_call2_v3) addi,
    TRef.ternary (TRef.of (T := ⟨S2048x1, .i1⟩) main_call2_v1) (TRef.of (T := ⟨S2048x1, .i32⟩) main_call2_v3) (TRef.of (T := ⟨S2048x1, .i32⟩) main_v56) (TRef.of (T := ⟨S2048x1, .i32⟩) main_call2_v4) select,
    TRef.reshape (TRef.of (T := ⟨S2048x1, .i32⟩) main_call2_v4) (TRef.of (T := ⟨S2048x1x1, .i32⟩) main_call2_v5) rfl shapeCasts_S2048x1_S2048x1x1,
    TRef.nullary (TRef.of (T := ⟨S1, .i32⟩) main_call2_c_1) (constantI S1 32 511#32),
    TRef.nullary (TRef.of (T := ⟨S_, .i32⟩) main_call2_c_2) (constantI S_ 32 0#32),
    TRef.unary (TRef.of (T := ⟨S_, .i32⟩) main_call2_c_2) (TRef.of (T := ⟨S2048x1x1, .i32⟩) main_call2_v6) (broadcastInDim S2048x1x1 ![] bcast_S_S2048x1x1),
    TRef.binary (TRef.of (T := ⟨S2048x1x1, .i32⟩) main_call2_v5) (TRef.of (T := ⟨S2048x1x1, .i32⟩) main_call2_v6) (TRef.of (T := ⟨S2048x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S2048x1x1, .i32⟩) main_call2_v9) (broadcastInDim S2048x1x1 ![0, 1, 2] bcast_S1x1x1_S2048x1x1_0_1_2),
    TRef.binary (TRef.of (T := ⟨S2048x1x1, .i32⟩) main_call2_v5) (TRef.of (T := ⟨S2048x1x1, .i32⟩) main_call2_v9) (TRef.of (T := ⟨S2048x1x1, .i1⟩) main_call2_v10) (cmpi .sle),
    TRef.binary (TRef.of (T := ⟨S2048x1x1, .i1⟩) main_call2_v7) (TRef.of (T := ⟨S2048x1x1, .i1⟩) main_call2_v10) (TRef.of (T := ⟨S2048x1x1, .i1⟩) main_call2_v11) andi,
    TRef.nullary (TRef.of (T := ⟨S_, .i1⟩) main_call2_c_3) (constantI S_ 1 1#1),
    TRef.binary (TRef.of (T := ⟨S2048x1x1, .i1⟩) main_call2_v11) (TRef.of (T := ⟨S_, .i1⟩) main_call2_c_3) (TRef.of (T := ⟨S2048x1, .i1⟩) main_call2_v12) (fun x v => Host.reduce IntOp.andi x v reducesTo_S2048x1x1_S2048x1_d2 h_S_),
    TRef.binary (TRef.of (T := ⟨S2048x512, .f32⟩) main_v55) (TRef.of (T := ⟨S2048x1x1, .i32⟩) main_call2_v5) (TRef.of (T := ⟨S2048x1, .f32⟩) main_call2_v13) (fun x i => Host.gather gather_S2048x512_S2048x1x1_S2048x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S2048x1, .f32⟩) main_call2_v14) (broadcastInDim S2048x1 ![] bcast_S_S2048x1),
    TRef.ternary (TRef.of (T := ⟨S2048x1, .i1⟩) main_call2_v12) (TRef.of (T := ⟨S2048x1, .f32⟩) main_call2_v13) (TRef.of (T := ⟨S2048x1, .f32⟩) main_call2_v14) (TRef.of (T := ⟨S2048x1, .f32⟩) main_v57) select,
    reshape main_v57 main_v58 rfl shapeCasts_S2048x1_S2048,
    unary main_v58 main_v59 (Host.negf : (⟨S2048, .f32⟩ : BufTy).Contents (Elt F) → (⟨S2048, .f32⟩ : BufTy).Contents (Elt F)),
    nullary main_cst_6 (constant S_ .f32 0x00000000#32),
    binary main_v59 main_cst_6 main_v60 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_7 (constant S_ .f32 0x45000000#32),
    binary main_v60 main_cst_7 main_v61 (Host.divf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = opsA ++ opsB := rfl

/-- A line run after another is their concatenation's fold. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

set_option maxHeartbeats 40000000 in
/-- The queries' own classes as a function of the labels and the positions: the first window's bindings through `main_v15`. -/
def ownT (ys : IVec S65536 32) (pos : IVec S2048 32) : IVec S2048 32 :=
  let main_arg3 : IVec S65536 32 := ys
  let main_arg4 : IVec S2048 32 := pos
  let main_v0 : IVec S512 32 := iotaInDim S512 32 0
  let main_v1 : IVec S65536x1 32 := broadcastInDim (s := S65536) S65536x1 ![0] bcast_S65536_S65536x1_0 main_arg3
  let main_v2 : IVec S1x512 32 := broadcastInDim (s := S512) S1x512 ![1] bcast_S512_S1x512_1 main_v0
  let main_v3 : IVec S65536x512 32 := broadcastInDim (s := S65536x1) S65536x512 ![0, 1] bcast_S65536x1_S65536x512_0_1 main_v1
  let main_v4 : IVec S65536x512 32 := broadcastInDim (s := S1x512) S65536x512 ![0, 1] bcast_S1x512_S65536x512_0_1 main_v2
  let main_v5 : IVec S65536x512 1 := cmpi .eq main_v3 main_v4
  let main_v6 : IVec S65536x512 32 := (extui 32 · natLt_1_32) main_v5
  let main_c : IVec S_ 32 := constantI S_ 32 0#32
  let main_v7 : IVec S512 32 := (fun x v => Host.reduce IntOp.addi x v reducesTo_S65536x512_S512_d0 h_S_) main_v6 main_c
  let main_c_0 : IVec S_ 32 := constantI S_ 32 0#32
  let main_v8 : IVec S2048 32 := broadcastInDim (s := S_) S2048 ![] bcast_S_S2048 main_c_0
  let main_v9 : IVec S2048 1 := cmpi .slt main_arg4 main_v8
  let main_c_1 : IVec S_ 32 := constantI S_ 32 65536#32
  let main_v10 : IVec S2048 32 := broadcastInDim (s := S_) S2048 ![] bcast_S_S2048 main_c_1
  let main_v11 : IVec S2048 32 := addi main_arg4 main_v10
  let main_v12 : IVec S2048 32 := select main_v9 main_v11 main_arg4
  let main_v13 : IVec S2048x1 32 := broadcastInDim (s := S2048) S2048x1 ![0] bcast_S2048_S2048x1_0 main_v12
  let main_v14 : IVec S2048x512 1 := (fun x i => Host.gather gather_S65536x512_S2048x1_S2048x512_1_0_n_n_0_1_1512 x i) main_v5 main_v13
  let main_call0_v0 : IVec S2048x512 32 := iotaInDim S2048x512 32 1
  let main_call0_c : IVec S_ 1 := constantI S_ 1 0#1
  let main_call0_c_0 : IVec S_ 32 := constantI S_ 32 0#32
  let main_call0_v1_0 : IVec S2048 1 := (fun x y u v j => (Host.reduce2 reducer_argmax_i1_i32 x y u v reducesTo_S2048x512_S2048_d1 h_S_ j).1) main_v14 main_call0_v0 main_call0_c main_call0_c_0
  let main_v15 : IVec S2048 32 := (fun x y u v j => (Host.reduce2 reducer_argmax_i1_i32 x y u v reducesTo_S2048x512_S2048_d1 h_S_ j).2) main_v14 main_call0_v0 main_call0_c main_call0_c_0
  main_v15

set_option maxHeartbeats 40000000 in
/-- The logits as a function of the arguments: the first window's bindings. -/
def logitsT (xq : FVec F S2048x128 .f32) (xs : FVec F S65536x128 .f32) (ys : IVec S65536 32) (pos : IVec S2048 32) : FVec F S2048x512 .f32 :=
  let main_arg0 : FVec F S2048x128 .f32 := xq
  let main_arg2 : FVec F S65536x128 .f32 := xs
  let main_arg3 : IVec S65536 32 := ys
  let main_arg4 : IVec S2048 32 := pos
  let main_v0 : IVec S512 32 := iotaInDim S512 32 0
  let main_v1 : IVec S65536x1 32 := broadcastInDim (s := S65536) S65536x1 ![0] bcast_S65536_S65536x1_0 main_arg3
  let main_v2 : IVec S1x512 32 := broadcastInDim (s := S512) S1x512 ![1] bcast_S512_S1x512_1 main_v0
  let main_v3 : IVec S65536x512 32 := broadcastInDim (s := S65536x1) S65536x512 ![0, 1] bcast_S65536x1_S65536x512_0_1 main_v1
  let main_v4 : IVec S65536x512 32 := broadcastInDim (s := S1x512) S65536x512 ![0, 1] bcast_S1x512_S65536x512_0_1 main_v2
  let main_v5 : IVec S65536x512 1 := cmpi .eq main_v3 main_v4
  let main_v6 : IVec S65536x512 32 := (extui 32 · natLt_1_32) main_v5
  let main_c : IVec S_ 32 := constantI S_ 32 0#32
  let main_v7 : IVec S512 32 := (fun x v => Host.reduce IntOp.addi x v reducesTo_S65536x512_S512_d0 h_S_) main_v6 main_c
  let main_c_0 : IVec S_ 32 := constantI S_ 32 0#32
  let main_v8 : IVec S2048 32 := broadcastInDim (s := S_) S2048 ![] bcast_S_S2048 main_c_0
  let main_v9 : IVec S2048 1 := cmpi .slt main_arg4 main_v8
  let main_c_1 : IVec S_ 32 := constantI S_ 32 65536#32
  let main_v10 : IVec S2048 32 := broadcastInDim (s := S_) S2048 ![] bcast_S_S2048 main_c_1
  let main_v11 : IVec S2048 32 := addi main_arg4 main_v10
  let main_v12 : IVec S2048 32 := select main_v9 main_v11 main_arg4
  let main_v13 : IVec S2048x1 32 := broadcastInDim (s := S2048) S2048x1 ![0] bcast_S2048_S2048x1_0 main_v12
  let main_v14 : IVec S2048x512 1 := (fun x i => Host.gather gather_S65536x512_S2048x1_S2048x512_1_0_n_n_0_1_1512 x i) main_v5 main_v13
  let main_call0_v0 : IVec S2048x512 32 := iotaInDim S2048x512 32 1
  let main_call0_c : IVec S_ 1 := constantI S_ 1 0#1
  let main_call0_c_0 : IVec S_ 32 := constantI S_ 32 0#32
  let main_call0_v1_0 : IVec S2048 1 := (fun x y u v j => (Host.reduce2 reducer_argmax_i1_i32 x y u v reducesTo_S2048x512_S2048_d1 h_S_ j).1) main_v14 main_call0_v0 main_call0_c main_call0_c_0
  let main_v15 : IVec S2048 32 := (fun x y u v j => (Host.reduce2 reducer_argmax_i1_i32 x y u v reducesTo_S2048x512_S2048_d1 h_S_ j).2) main_v14 main_call0_v0 main_call0_c main_call0_c_0
  let main_v16 : FVec F S65536x512 .f32 := uitofp .f32 main_v5
  let main_v17 : FVec F S512x65536 .f32 := (transpose S512x65536 [1, 0] · transposes_S65536x512_S512x65536_1_0) main_v16
  let main_v18 : FVec F S512x128 .f32 := (fun l r => Host.dotGeneral dot_S512x65536_S65536x128_S512x128_1_0_0_1_n_n none l r) main_v17 main_arg2
  let main_v19 : IVec S2048x1 32 := broadcastInDim (s := S2048) S2048x1 ![0] bcast_S2048_S2048x1_0 main_v15
  let main_v20 : IVec S1x512 32 := broadcastInDim (s := S512) S1x512 ![1] bcast_S512_S1x512_1 main_v0
  let main_v21 : IVec S2048x512 32 := broadcastInDim (s := S2048x1) S2048x512 ![0, 1] bcast_S2048x1_S2048x512_0_1 main_v19
  let main_v22 : IVec S2048x512 32 := broadcastInDim (s := S1x512) S2048x512 ![0, 1] bcast_S1x512_S2048x512_0_1 main_v20
  let main_v23 : IVec S2048x512 1 := cmpi .eq main_v21 main_v22
  let main_v24 : FVec F S2048x512 .f32 := uitofp .f32 main_v23
  let main_v25 : FVec F S1x512x128 .f32 := broadcastInDim (s := S512x128) S1x512x128 ![1, 2] bcast_S512x128_S1x512x128_1_2 main_v18
  let main_v26 : FVec F S2048x512x1 .f32 := broadcastInDim (s := S2048x512) S2048x512x1 ![0, 1] bcast_S2048x512_S2048x512x1_0_1 main_v24
  let main_v27 : FVec F S2048x1x128 .f32 := broadcastInDim (s := S2048x128) S2048x1x128 ![0, 2] bcast_S2048x128_S2048x1x128_0_2 main_arg0
  let main_v28 : FVec F S2048x512x128 .f32 := broadcastInDim (s := S2048x512x1) S2048x512x128 ![0, 1, 2] bcast_S2048x512x1_S2048x512x128_0_1_2 main_v26
  let main_v29 : FVec F S2048x512x128 .f32 := broadcastInDim (s := S2048x1x128) S2048x512x128 ![0, 1, 2] bcast_S2048x1x128_S2048x512x128_0_1_2 main_v27
  let main_v30 : FVec F S2048x512x128 .f32 := mulf main_v28 main_v29
  let main_v31 : FVec F S2048x512x128 .f32 := broadcastInDim (s := S1x512x128) S2048x512x128 ![0, 1, 2] bcast_S1x512x128_S2048x512x128_0_1_2 main_v25
  let main_v32 : FVec F S2048x512x128 .f32 := subf main_v31 main_v30
  let main_v33 : IVec S1x512 32 := broadcastInDim (s := S512) S1x512 ![1] bcast_S512_S1x512_1 main_v7
  let main_v34 : FVec F S1x512 .f32 := sitofp .f32 main_v33
  let main_v35 : FVec F S2048x512 .f32 := broadcastInDim (s := S1x512) S2048x512 ![0, 1] bcast_S1x512_S2048x512_0_1 main_v34
  let main_v36 : FVec F S2048x512 .f32 := subf main_v35 main_v24
  let main_cst : FVec F S_ .f32 := constant S_ .f32 0x3DCCCCCD#32
  let main_v37 : FVec F S2048x512 .f32 := broadcastInDim (s := S_) S2048x512 ![] bcast_S_S2048x512 main_cst
  let main_v38 : FVec F S2048x512 .f32 := maximumf main_v36 main_v37
  let main_v39 : FVec F S2048x512x1 .f32 := broadcastInDim (s := S2048x512) S2048x512x1 ![0, 1] bcast_S2048x512_S2048x512x1_0_1 main_v38
  let main_v40 : FVec F S2048x512x128 .f32 := broadcastInDim (s := S2048x512x1) S2048x512x128 ![0, 1, 2] bcast_S2048x512x1_S2048x512x128_0_1_2 main_v39
  let main_v41 : FVec F S2048x512x128 .f32 := Host.divf main_v32 main_v40
  let main_v42 : FVec F S2048x1x128 .f32 := broadcastInDim (s := S2048x128) S2048x1x128 ![0, 2] bcast_S2048x128_S2048x1x128_0_2 main_arg0
  let main_v43 : FVec F S2048x512x128 .f32 := broadcastInDim (s := S2048x1x128) S2048x512x128 ![0, 1, 2] bcast_S2048x1x128_S2048x512x128_0_1_2 main_v42
  let main_v44 : FVec F S2048x512x128 .f32 := subf main_v43 main_v41
  let main_v45 : FVec F S2048x512x128 .f32 := mulf main_v44 main_v44
  let main_cst_2 : FVec F S_ .f32 := constant S_ .f32 0x00000000#32
  let main_v46 : FVec F S2048x512 .f32 := (fun x v => Host.reduceAdd x v reducesTo_S2048x512x128_S2048x512_d2 h_S_) main_v45 main_cst_2
  let main_cst_3 : FVec F S_ .f32 := constant S_ .f32 0xBF000000#32
  let main_v47 : FVec F S2048x512 .f32 := broadcastInDim (s := S_) S2048x512 ![] bcast_S_S2048x512 main_cst_3
  let main_v48 : FVec F S2048x512 .f32 := mulf main_v47 main_v46
  let main_cst_4 : FVec F S_ .f32 := constant S_ .f32 0x3DCCCCCD#32
  let main_v49 : FVec F S2048x512 .f32 := broadcastInDim (s := S_) S2048x512 ![] bcast_S_S2048x512 main_cst_4
  let main_v50 : IVec S2048x512 1 := cmpf .ogt main_v36 main_v49
  let main_v51 : FVec F S2048x512 .f32 := uitofp .f32 main_v50
  let main_v52 : FVec F S2048x512 .f32 := mulf main_v48 main_v51
  let main_cst_5 : FVec F S_ .f32 := constant S_ .f32 0x3F800000#32
  let main_v53 : FVec F S2048x512 .f32 := broadcastInDim (s := S_) S2048x512 ![] bcast_S_S2048x512 main_cst_5
  let main_v54 : FVec F S2048x512 .f32 := Host.divf main_v52 main_v53
  main_v54

set_option maxHeartbeats 40000000 in
/-- The result as a function of the logits and the own classes: the second window's bindings. -/
def tailT (main_v54 : FVec F S2048x512 .f32) (main_v15 : IVec S2048 32) : FVec F S_ .f32 :=
  let main_call1_cst : FVec F S_ .f32 := constant S_ .f32 0xFF800000#32
  let main_call1_v0 : FVec F S2048 .f32 := (fun x v => Host.reduce FloatOps.maximumf x v reducesTo_S2048x512_S2048_d1 h_S_) main_v54 main_call1_cst
  let main_call1_cst_0 : FVec F S_ .f32 := constant S_ .f32 0xFF800000#32
  let main_call1_v1 : FVec F S2048 .f32 := broadcastInDim (s := S_) S2048 ![] bcast_S_S2048 main_call1_cst_0
  let main_call1_v2 : FVec F S2048 .f32 := maximumf main_call1_v1 main_call1_v0
  let main_call1_v3 : FVec F S2048x1 .f32 := broadcastInDim (s := S2048) S2048x1 ![0] bcast_S2048_S2048x1_0 main_call1_v2
  let main_call1_v4 : FVec F S2048x512 .f32 := broadcastInDim (s := S2048x1) S2048x512 ![0, 1] bcast_S2048x1_S2048x512_0_1 main_call1_v3
  let main_call1_v5 : FVec F S2048x512 .f32 := subf main_v54 main_call1_v4
  let main_call1_v6 : FVec F S2048x512 .f32 := Host.exp main_call1_v5
  let main_call1_cst_1 : FVec F S_ .f32 := constant S_ .f32 0x00000000#32
  let main_call1_v7 : FVec F S2048 .f32 := (fun x v => Host.reduceAdd x v reducesTo_S2048x512_S2048_d1 h_S_) main_call1_v6 main_call1_cst_1
  let main_call1_v8 : FVec F S2048x1 .f32 := broadcastInDim (s := S2048) S2048x1 ![0] bcast_S2048_S2048x1_0 main_call1_v7
  let main_call1_v9 : FVec F S2048x1 .f32 := Host.log main_call1_v8
  let main_call1_v10 : FVec F S2048x512 .f32 := broadcastInDim (s := S2048x1) S2048x512 ![0, 1] bcast_S2048x1_S2048x512_0_1 main_call1_v9
  let main_v55 : FVec F S2048x512 .f32 := subf main_call1_v5 main_call1_v10
  let main_v56 : IVec S2048x1 32 := broadcastInDim (s := S2048) S2048x1 ![0] bcast_S2048_S2048x1_0 main_v15
  let main_call2_c : IVec S_ 32 := constantI S_ 32 0#32
  let main_call2_v0 : IVec S2048x1 32 := broadcastInDim (s := S_) S2048x1 ![] bcast_S_S2048x1 main_call2_c
  let main_call2_v1 : IVec S2048x1 1 := cmpi .slt main_v56 main_call2_v0
  let main_call2_c_0 : IVec S_ 32 := constantI S_ 32 512#32
  let main_call2_v2 : IVec S2048x1 32 := broadcastInDim (s := S_) S2048x1 ![] bcast_S_S2048x1 main_call2_c_0
  let main_call2_v3 : IVec S2048x1 32 := addi main_v56 main_call2_v2
  let main_call2_v4 : IVec S2048x1 32 := select main_call2_v1 main_call2_v3 main_v56
  let main_call2_v5 : IVec S2048x1x1 32 := (shapeCast S2048x1x1 · shapeCasts_S2048x1_S2048x1x1) main_call2_v4
  let main_call2_c_1 : IVec S1 32 := constantI S1 32 511#32
  let main_call2_c_2 : IVec S_ 32 := constantI S_ 32 0#32
  let main_call2_v6 : IVec S2048x1x1 32 := broadcastInDim (s := S_) S2048x1x1 ![] bcast_S_S2048x1x1 main_call2_c_2
  let main_call2_v7 : IVec S2048x1x1 1 := cmpi .sge main_call2_v5 main_call2_v6
  let main_call2_v8 : IVec S1x1x1 32 := broadcastInDim (s := S1) S1x1x1 ![2] bcast_S1_S1x1x1_2 main_call2_c_1
  let main_call2_v9 : IVec S2048x1x1 32 := broadcastInDim (s := S1x1x1) S2048x1x1 ![0, 1, 2] bcast_S1x1x1_S2048x1x1_0_1_2 main_call2_v8
  let main_call2_v10 : IVec S2048x1x1 1 := cmpi .sle main_call2_v5 main_call2_v9
  let main_call2_v11 : IVec S2048x1x1 1 := andi main_call2_v7 main_call2_v10
  let main_call2_c_3 : IVec S_ 1 := constantI S_ 1 1#1
  let main_call2_v12 : IVec S2048x1 1 := (fun x v => Host.reduce IntOp.andi x v reducesTo_S2048x1x1_S2048x1_d2 h_S_) main_call2_v11 main_call2_c_3
  let main_call2_v13 : FVec F S2048x1 .f32 := (fun x i => Host.gather gather_S2048x512_S2048x1x1_S2048x1_n_1_0_0_1_2_11 x i) main_v55 main_call2_v5
  let main_call2_cst : FVec F S_ .f32 := constant S_ .f32 0x7FC00000#32
  let main_call2_v14 : FVec F S2048x1 .f32 := broadcastInDim (s := S_) S2048x1 ![] bcast_S_S2048x1 main_call2_cst
  let main_v57 : FVec F S2048x1 .f32 := select main_call2_v12 main_call2_v13 main_call2_v14
  let main_v58 : FVec F S2048 .f32 := (shapeCast S2048 · shapeCasts_S2048x1_S2048) main_v57
  let main_v59 : FVec F S2048 .f32 := Host.negf main_v58
  let main_cst_6 : FVec F S_ .f32 := constant S_ .f32 0x00000000#32
  let main_v60 : FVec F S_ .f32 := (fun x v => Host.reduceAdd x v reducesTo_S2048_S_d0 h_S_) main_v59 main_cst_6
  let main_cst_7 : FVec F S_ .f32 := constant S_ .f32 0x45000000#32
  let main_v61 : FVec F S_ .f32 := Host.divf main_v60 main_cst_7
  main_v61

/-- Contents moved to a typed reference's buffer type and back are the contents. -/
theorem ofBuf_toBuf {T : BufTy} (x : TRef sig T) (v : T.Contents (Elt F)) : x.ofBuf (x.toBuf v) = v := by
  obtain ⟨r, h, _, _⟩ := x
  subst h
  rfl

/-- At a literal reference the move is the identity. -/
theorem ofBuf_v54 (v : FVec F S2048x512 .f32) :
    TRef.ofBuf (Val := Elt F) (TRef.of (sig := sig) (T := ⟨S2048x512, .f32⟩) main_v54) v = v := rfl
theorem ofBuf_v56 (v : IVec S2048x1 32) :
    TRef.ofBuf (Val := Elt F) (TRef.of (sig := sig) (T := ⟨S2048x1, .i32⟩) main_v56) v = v := rfl
theorem toBuf_v57 (v : FVec F S2048x1 .f32) :
    TRef.toBuf (Val := Elt F) (TRef.of (sig := sig) (T := ⟨S2048x1, .f32⟩) main_v57) v = v := rfl

set_option maxHeartbeats 4000000 in
/-- The first window leaves the logits at their composed term. -/
theorem after_A_logits (V : Valuation τ sig (Elt F)) :
    after opsA V (main_v54 : DevRef τ sig)
      = logitsT (V (main_arg0 : DevRef τ sig)) (V (main_arg2 : DevRef τ sig)) (V (main_arg3 : DevRef τ sig)) (V (main_arg4 : DevRef τ sig)) := by
  after_results_simp <;> rfl

set_option maxHeartbeats 4000000 in
/-- The first window leaves the own classes at their composed term. -/
theorem after_A_own (V : Valuation τ sig (Elt F)) :
    after opsA V (main_v15 : DevRef τ sig) = ownT (V (main_arg3 : DevRef τ sig)) (V (main_arg4 : DevRef τ sig)) := by
  after_results_simp <;> rfl

set_option maxHeartbeats 4000000 in
/-- The second window leaves the result at its composed term of the logits and the own classes it finds: the moves
    between a called function's buffer types and its values' types cancel, or are the identity at a literal reference. -/
theorem after_B (W : Valuation τ sig (Elt F)) :
    after opsB W (main_v61 : DevRef τ sig) = tailT (W (main_v54 : DevRef τ sig)) (W (main_v15 : DevRef τ sig)) := by
  after_results_simp
  simp only [ofBuf_toBuf, ofBuf_v54, ofBuf_v56, toBuf_v57]
  rfl

/-- The one chain of bindings is the second window's over the first's two values. -/
theorem refTerm_split (xq : FVec F S2048x128 .f32) (xs : FVec F S65536x128 .f32) (ys : IVec S65536 32) (pos : IVec S2048 32) :
    refTerm xq xs ys pos = tailT (logitsT xq xs ys pos) (ownT ys pos) := rfl

/-- After the whole line the result buffer holds the composed term of the arguments. -/
theorem out_eq (V : Valuation τ sig (Elt F)) :
    after ops V (main_v61 : DevRef τ sig)
      = refTerm (V (main_arg0 : DevRef τ sig)) (V (main_arg2 : DevRef τ sig)) (V (main_arg3 : DevRef τ sig)) (V (main_arg4 : DevRef τ sig)) := by
  rw [ops_split, after_append', after_B, after_A_logits, after_A_own]
  exact (refTerm_split _ _ _ _).symm

/-! No operation writes an argument. -/

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- Every execution of @main ends with the result buffer at the composed term of the arguments' launch contents, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = refTerm (m ((c.tc : Thread nD τ).loc main_arg0)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v61).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.Hand

end
-- ==== Proof.Ref.Read.lean ====
/-
  The reference program's term at the exact instance is the loss in the reference's arrangement, when every label is a
  class: a query's one-hot row then has exactly one entry set, and the arg-max of the row is the label.

  The term is read stage by stage. Each stage of the program is named as a function of the argument arrays and read at
  an index: the one-hot matrix of the labels, the class counts (a 32-bit sum of at most 65536 ones), the queries' rows
  gathered at their positions, the arg-max of a row with one entry set, the class sums (a contraction over the support
  set), the leave-one-out prototypes and squared distances, the masked logits, the log-softmax of each row, the entry
  at the query's own class, and the mean. The composition of the named stages is the program's term by unfolding.
-/
import proofs.«413345_j40647570489383_3_alg».proof.Proof.Ref.Term
import proofs.«413345_j40647570489383_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Idealize.ShloMosaic.Lib.StableHlo.Predicate
import Idealize.ShloMosaic.Lib.IdealHost
import Mathlib.Algebra.BigOperators.Group.Finset.Basic
import Mathlib.Algebra.BigOperators.Group.Finset.Defs
import Mathlib.Data.Finset.Fold
import Mathlib.Data.Finset.Filter
import Mathlib.Data.Finset.BooleanAlgebra
import Mathlib.Data.Finset.Lattice.Fold
import Mathlib.Data.Fintype.Card
import Mathlib.Data.Int.Cast.Basic

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen

open Idealize.ShloMosaic.ValueIdx
open scoped BigOperators

/-! ## The arg-max reducer on flagged pairs -/

theorem red_00 (a b : BitVec 1 × BitVec 32) (ha : a.1 = 0#1) (hb : b.1 = 0#1) :
    (reducer_argmax_i1_i32 a b).1 = 0#1 := by
  obtain ⟨a1, a2⟩ := a; obtain ⟨b1, b2⟩ := b
  simp only at ha hb; subst ha hb
  simp [reducer_argmax_i1_i32, IntOp.cmpi, IntOp.ori, IntOp.andi, Scalar.select]

theorem red_10 (v : BitVec 32) (b : BitVec 1 × BitVec 32) (hb : b.1 = 0#1) :
    reducer_argmax_i1_i32 (1#1, v) b = (1#1, v) := by
  obtain ⟨b1, b2⟩ := b
  simp only at hb; subst hb
  simp [reducer_argmax_i1_i32, IntOp.cmpi, IntOp.ori, IntOp.andi, Scalar.select]

theorem red_01 (a : BitVec 1 × BitVec 32) (v : BitVec 32) (ha : a.1 = 0#1) :
    reducer_argmax_i1_i32 a (1#1, v) = (1#1, v) := by
  obtain ⟨a1, a2⟩ := a
  simp only at ha; subst ha
  simp [reducer_argmax_i1_i32, IntOp.cmpi, IntOp.ori, IntOp.andi, Scalar.select]

/-- A left fold of the reducer over entries whose flags are all clear keeps a clear flag. -/
theorem foldl_red_clear {ι : Type} (g : ι → BitVec 1 × BitVec 32) (l : List ι) (hg : ∀ i ∈ l, (g i).1 = 0#1)
    (r : BitVec 1 × BitVec 32) (hr : r.1 = 0#1) :
    (l.foldl (fun r i => reducer_argmax_i1_i32 r (g i)) r).1 = 0#1 := by
  induction l generalizing r with
  | nil => exact hr
  | cons i l ih =>
    rw [List.foldl_cons]
    exact ih (fun i' hi' => hg i' (List.mem_cons_of_mem _ hi')) _ (red_00 _ _ hr (hg i List.mem_cons_self))

/-- Once the set entry has been met, entries with clear flags leave the pair alone. -/
theorem foldl_red_keep {ι : Type} (g : ι → BitVec 1 × BitVec 32) (l : List ι) (hg : ∀ i ∈ l, (g i).1 = 0#1)
    (v : BitVec 32) : l.foldl (fun r i => reducer_argmax_i1_i32 r (g i)) (1#1, v) = (1#1, v) := by
  induction l with
  | nil => rfl
  | cons i l ih =>
    rw [List.foldl_cons, red_10 v _ (hg i List.mem_cons_self)]
    exact ih (fun i' hi' => hg i' (List.mem_cons_of_mem _ hi'))

/-- A left fold over a list without repeats in which exactly one entry's flag is set, from a clear flag, ends at
    that entry. -/
theorem foldl_red_onehot {ι : Type} [DecidableEq ι] (g : ι → BitVec 1 × BitVec 32) (i₀ : ι) (v : BitVec 32)
    (h₀ : g i₀ = (1#1, v)) (l : List ι) (hn : l.Nodup) (hm : i₀ ∈ l) (hg : ∀ i ∈ l, i ≠ i₀ → (g i).1 = 0#1)
    (r : BitVec 1 × BitVec 32) (hr : r.1 = 0#1) :
    l.foldl (fun r i => reducer_argmax_i1_i32 r (g i)) r = (1#1, v) := by
  induction l generalizing r with
  | nil => exact absurd hm List.not_mem_nil
  | cons i l ih =>
    rw [List.foldl_cons]
    rw [List.nodup_cons] at hn
    by_cases hi : i = i₀
    · subst hi
      rw [h₀, red_01 r v hr]
      exact foldl_red_keep g l (fun i' hi' => hg i' (List.mem_cons_of_mem _ hi') (fun e => hn.1 (e ▸ hi'))) v
    · have hm' : i₀ ∈ l := by
        rcases List.mem_cons.1 hm with e | e
        · exact absurd e.symm hi
        · exact e
      exact ih hn.2 hm' (fun i' hi' => hg i' (List.mem_cons_of_mem _ hi')) _
        (red_00 _ _ hr (hg i List.mem_cons_self hi))

/-- THE ARG-MAX of a one-hot row: the index of its set entry. -/
theorem argmax_onehot (x : IVec S2048x512 1) (q : Fin 2048) (k₀ : Fin 512)
    (hx : ∀ k : Fin 512, x (ix2 q k) = if k = k₀ then 1#1 else 0#1) :
    (Host.reduce2 reducer_argmax_i1_i32 x (iotaInDim S2048x512 32 1) (constantI S_ 1 0#1) (constantI S_ 32 0#32)
      reducesTo_S2048x512_S2048_d1 h_S_ (ix1 q)).2 = BitVec.ofNat 32 k₀.val := by
  classical
  have hdrop : ∀ (a : Fin 2048) (b : Fin 512), reducesTo_S2048x512_S2048_d1.drop (ix2 a b) = ix1 q ↔ a = q := by
    intro a b
    have hv : (reducesTo_S2048x512_S2048_d1.drop (ix2 a b) 0 : Nat) = a := Shape.ReducesTo.drop_apply_val _ (ix2 a b) 0
    constructor
    · intro e; rw [e] at hv; exact Fin.ext hv.symm
    · intro e; funext c; have hc : c = 0 := Subsingleton.elim _ _; subst hc; exact Fin.ext (by rw [hv, e])
  have key := foldl_red_onehot (fun i : S2048x512.Idx => (x i, iotaInDim S2048x512 32 1 i)) (ix2 q k₀)
    (BitVec.ofNat 32 k₀.val) (by show (x (ix2 q k₀), _) = _; rw [hx k₀, if_pos rfl]; rfl)
    (((List.finRange S2048x512.numel).map S2048x512.rowMajor.symm).filter fun i => reducesTo_S2048x512_S2048_d1.drop i = ix1 q)
    (((List.nodup_finRange _).map S2048x512.rowMajor.symm.injective).filter _)
    (List.mem_filter.2 ⟨List.mem_map.2 ⟨S2048x512.rowMajor (ix2 q k₀), List.mem_finRange _, by simp⟩,
      decide_eq_true ((hdrop _ _).2 rfl)⟩)
    (fun i hi hne => by
      obtain ⟨a, b, rfl⟩ : ∃ (a : Fin 2048) (b : Fin 512), i = ix2 a b := ⟨i 0, i 1, eq_ix2 i⟩
      have h0 : a = q := (hdrop a b).1 (of_decide_eq_true (List.mem_filter.1 hi).2)
      subst h0
      show x (ix2 a b) = 0#1
      rw [hx, if_neg]
      intro e; exact hne (by rw [e]))
    (constantI S_ 1 0#1 (Shape.Idx.first h_S_), constantI S_ 32 0#32 (Shape.Idx.first h_S_)) rfl
  have := Shape.foldl_filter_rowMajor_eq_foldl reducesTo_S2048x512_S2048_d1.drop reducer_argmax_i1_i32
    (constantI S_ 1 0#1 (Shape.Idx.first h_S_), constantI S_ 32 0#32 (Shape.Idx.first h_S_))
    (fun i : S2048x512.Idx => (x i, iotaInDim S2048x512 32 1 i)) (ix1 q)
  unfold Host.reduce2
  rw [this.trans key]

/-- The same for the arg-max array given as a function of the row. -/
theorem argmax_onehot' (x : IVec S2048x512 1) (q : Fin 2048) (k₀ : Fin 512)
    (hx : ∀ k : Fin 512, x (ix2 q k) = if k = k₀ then 1#1 else 0#1) (g : S2048.Idx → BitVec 32)
    (hg : g = fun j => (Host.reduce2 reducer_argmax_i1_i32 x (iotaInDim S2048x512 32 1) (constantI S_ 1 0#1)
      (constantI S_ 32 0#32) reducesTo_S2048x512_S2048_d1 h_S_ j).2) :
    g (ix1 q) = BitVec.ofNat 32 k₀.val := by
  subst hg
  exact argmax_onehot x q k₀ hx

/-! ## The count of a class -/

theorem ij_eq_ix2 {n m : Nat} (p : Fin n) (q : Fin m) : Predicate.ij p q = ix2 p q := by
  funext b; match b with | ⟨0, _⟩ => rfl | ⟨1, _⟩ => rfl

/-- THE COUNT: the 32-bit sum over the support set of a widened one-bit mask's column, converted, is the number of set
    entries of the column as a real (at most 65536 of them, so the word neither wraps nor reads negative). -/
theorem count_apply (mask : IVec S65536x512 1) (k : Fin 512) :
    (FloatOps.sitofp (F := Ideal) .f32 (Host.reduce IntOp.addi (extui 32 mask natLt_1_32) (constantI S_ 32 0#32)
        reducesTo_S65536x512_S512_d0 h_S_ (ix1 k)) : EReal)
      = (((Finset.univ.filter fun s : Fin 65536 => mask (ix2 s k) = 1#1).card : ℝ) : EReal) := by
  have hc := Predicate.toNat_reduce_count_rows (n := 65536) (m := 512) (by decide) mask natLt_1_32
    reducesTo_S65536x512_S512_d0 h_S_ (ix1 k)
  have hle : (Finset.univ.filter fun s : Fin 65536 => mask (ix2 s k) = 1#1).card ≤ 65536 :=
    (Finset.card_le_univ _).trans (by simp)
  have hset : (Finset.univ.filter fun p : Fin 65536 => mask (Predicate.ij p ((ix1 k : S512.Idx) 0)) = 1#1)
      = Finset.univ.filter fun s : Fin 65536 => mask (ix2 s k) = 1#1 :=
    Finset.filter_congr fun p _ => by rw [ij_eq_ix2]
  rw [hset] at hc
  show (((Host.reduce IntOp.addi (extui 32 mask natLt_1_32) (constantI S_ 32 0#32)
        reducesTo_S65536x512_S512_d0 h_S_ (ix1 k)).toInt : ℝ) : EReal) = _
  rw [Predicate.toInt_eq_toNat_of_lt (by rw [hc]; omega), hc, Int.cast_natCast]

/-! ## The two gathers read at an index -/

/-- Rows of a matrix taken at a column of start indices: row (i, k) of the result is the operand's row at the start
    index read signed and clamped into the operand, column k. -/
theorem gather_rows_apply {α : Type} (x : S65536x512.Idx → α) (idx : IVec S2048x1 32) (i : Fin 2048) (k : Fin 512) :
    Host.gather gather_S65536x512_S2048x1_S2048x512_1_0_n_n_0_1_1512 x idx (ix2 i k)
      = x (ix2 (⟨min (idx (ix2 i 0)).toInt.toNat (65536 - 1), by omega⟩ : Fin 65536) k) := by
  unfold Host.gather
  congr 1
  funext a
  match a with
  | ⟨0, _⟩ =>
    apply Fin.ext
    have hb : (0 : Fin 2) ∉ gather_S65536x512_S2048x1_S2048x512_1_0_n_n_0_1_1512.operandBatchingDims := List.not_mem_nil
    have hk : (0 : Fin 2) ∉ gather_S65536x512_S2048x1_S2048x512_1_0_n_n_0_1_1512.sKept := fun h =>
      ((GatherDims.mem_sKept _ _).mp h).1 (List.mem_singleton.mpr rfl)
    have hm : (0 : Fin 2) ∈ gather_S65536x512_S2048x1_S2048x512_1_0_n_n_0_1_1512.startIndexMap := List.mem_singleton.mpr rfl
    show gather_S65536x512_S2048x1_S2048x512_1_0_n_n_0_1_1512.start (ix2 i k) idx 0
      + gather_S65536x512_S2048x1_S2048x512_1_0_n_n_0_1_1512.batchCoord (ix2 i k) 0
      + gather_S65536x512_S2048x1_S2048x512_1_0_n_n_0_1_1512.offCoord (ix2 i k) 0 = _
    rw [GatherDims.batchCoord_eq_zero _ _ _ hb, GatherDims.offCoord_eq_zero _ _ _ hk]
    simp only [Nat.add_zero]
    unfold GatherDims.start
    rw [dif_pos hm]
    have hsi : gather_S65536x512_S2048x1_S2048x512_1_0_n_n_0_1_1512.siIdx (ix2 i k)
        ⟨List.idxOf (0 : Fin 2) gather_S65536x512_S2048x1_S2048x512_1_0_n_n_0_1_1512.startIndexMap,
          List.idxOf_lt_length_iff.2 hm⟩ = ix2 i 0 := by
      funext b; refine Fin.ext ?_
      match b with
      | ⟨0, _⟩ => rfl
      | ⟨1, _⟩ => rfl
    rw [hsi]
    rfl
  | ⟨1, _⟩ =>
    apply Fin.ext
    have hm : (1 : Fin 2) ∉ gather_S65536x512_S2048x1_S2048x512_1_0_n_n_0_1_1512.startIndexMap := by decide
    have hb : (1 : Fin 2) ∉ gather_S65536x512_S2048x1_S2048x512_1_0_n_n_0_1_1512.operandBatchingDims := List.not_mem_nil
    have hk : (1 : Fin 2) ∈ gather_S65536x512_S2048x1_S2048x512_1_0_n_n_0_1_1512.sKept :=
      (GatherDims.mem_sKept _ _).2 ⟨by decide, List.not_mem_nil⟩
    show gather_S65536x512_S2048x1_S2048x512_1_0_n_n_0_1_1512.start (ix2 i k) idx 1
      + gather_S65536x512_S2048x1_S2048x512_1_0_n_n_0_1_1512.batchCoord (ix2 i k) 1
      + gather_S65536x512_S2048x1_S2048x512_1_0_n_n_0_1_1512.offCoord (ix2 i k) 1 = k.val
    rw [GatherDims.batchCoord_eq_zero _ _ _ hb]
    unfold GatherDims.start GatherDims.offCoord
    rw [dif_neg hm, dif_pos hk]
    simp only [Nat.zero_add, Nat.add_zero]
    rfl

/-- One entry of each row taken at that row's start index (the operand's first axis a batching axis): entry (i, 0) of
    the result is the operand at (i, the start index read signed and clamped). -/
theorem gather_along_apply {α : Type} (x : S2048x512.Idx → α) (idx : IVec S2048x1x1 32) (i : Fin 2048) :
    Host.gather gather_S2048x512_S2048x1x1_S2048x1_n_1_0_0_1_2_11 x idx (ix2 i 0)
      = x (ix2 i (⟨min (idx (ix3 i 0 0)).toInt.toNat (512 - 1), by omega⟩ : Fin 512)) := by
  unfold Host.gather
  congr 1
  funext a
  match a with
  | ⟨0, _⟩ =>
    apply Fin.ext
    have hm : (0 : Fin 2) ∉ gather_S2048x512_S2048x1x1_S2048x1_n_1_0_0_1_2_11.startIndexMap := by decide
    have hb : (0 : Fin 2) ∈ gather_S2048x512_S2048x1x1_S2048x1_n_1_0_0_1_2_11.operandBatchingDims := List.mem_singleton.mpr rfl
    have hk : (0 : Fin 2) ∉ gather_S2048x512_S2048x1x1_S2048x1_n_1_0_0_1_2_11.sKept := fun h =>
      ((GatherDims.mem_sKept _ _).mp h).2 hb
    show gather_S2048x512_S2048x1x1_S2048x1_n_1_0_0_1_2_11.start (ix2 i 0) idx 0
      + gather_S2048x512_S2048x1x1_S2048x1_n_1_0_0_1_2_11.batchCoord (ix2 i 0) 0
      + gather_S2048x512_S2048x1x1_S2048x1_n_1_0_0_1_2_11.offCoord (ix2 i 0) 0 = i.val
    rw [GatherDims.offCoord_eq_zero _ _ _ hk]
    unfold GatherDims.start GatherDims.batchCoord
    rw [dif_neg hm, dif_pos hb]
    simp only [Nat.zero_add, Nat.add_zero]
    rfl
  | ⟨1, _⟩ =>
    apply Fin.ext
    have hb : (1 : Fin 2) ∉ gather_S2048x512_S2048x1x1_S2048x1_n_1_0_0_1_2_11.operandBatchingDims := by decide
    have hk : (1 : Fin 2) ∉ gather_S2048x512_S2048x1x1_S2048x1_n_1_0_0_1_2_11.sKept := fun h =>
      ((GatherDims.mem_sKept _ _).mp h).1 (List.mem_singleton.mpr rfl)
    have hm : (1 : Fin 2) ∈ gather_S2048x512_S2048x1x1_S2048x1_n_1_0_0_1_2_11.startIndexMap := List.mem_singleton.mpr rfl
    show gather_S2048x512_S2048x1x1_S2048x1_n_1_0_0_1_2_11.start (ix2 i 0) idx 1
      + gather_S2048x512_S2048x1x1_S2048x1_n_1_0_0_1_2_11.batchCoord (ix2 i 0) 1
      + gather_S2048x512_S2048x1x1_S2048x1_n_1_0_0_1_2_11.offCoord (ix2 i 0) 1 = _
    rw [GatherDims.batchCoord_eq_zero _ _ _ hb, GatherDims.offCoord_eq_zero _ _ _ hk]
    simp only [Nat.add_zero]
    unfold GatherDims.start
    rw [dif_pos hm]
    have hsi : gather_S2048x512_S2048x1x1_S2048x1_n_1_0_0_1_2_11.siIdx (ix2 i 0)
        ⟨List.idxOf (1 : Fin 2) gather_S2048x512_S2048x1x1_S2048x1_n_1_0_0_1_2_11.startIndexMap,
          List.idxOf_lt_length_iff.2 hm⟩ = ix3 i 0 0 := by
      funext b; refine Fin.ext ?_
      match b with
      | ⟨0, _⟩ => rfl
      | ⟨1, _⟩ => rfl
      | ⟨2, _⟩ => rfl
    rw [hsi]
    rfl

/-- The same with the start word named. -/
theorem gather_rows_apply' {α : Type} (x : S65536x512.Idx → α) (idx : IVec S2048x1 32) (i : Fin 2048) (k : Fin 512)
    (w : BitVec 32) (hw : idx (ix2 i 0) = w) :
    Host.gather gather_S65536x512_S2048x1_S2048x512_1_0_n_n_0_1_1512 x idx (ix2 i k)
      = x (ix2 (⟨min w.toInt.toNat (65536 - 1), by omega⟩ : Fin 65536) k) := by
  subst hw; exact gather_rows_apply x idx i k

theorem gather_along_apply' {α : Type} (x : S2048x512.Idx → α) (idx : IVec S2048x1x1 32) (i : Fin 2048)
    (w : BitVec 32) (hw : idx (ix3 i 0 0) = w) :
    Host.gather gather_S2048x512_S2048x1x1_S2048x1_n_1_0_0_1_2_11 x idx (ix2 i 0)
      = x (ix2 i (⟨min w.toInt.toNat (512 - 1), by omega⟩ : Fin 512)) := by
  subst hw; exact gather_along_apply x idx i

/-! ## Broadcasts read at an index, at the program's shapes -/

section Bcast
variable {α : Type}

/-- A vector as a column, then along the rows of a matrix. -/
theorem bc_S65536_rows (v : S65536.Idx → α) (s : Fin 65536) (k : Fin 512) :
    broadcastInDim S65536x512 ![0, 1] bcast_S65536x1_S65536x512_0_1 (broadcastInDim S65536x1 ![0] bcast_S65536_S65536x1_0 v) (ix2 s k)
      = v (ix1 s) :=
  (broadcastInDim_apply _ _ _ (ix2 s k) (ix2 s (0 : Fin 1)) (fun a => match a with | ⟨0, _⟩ => rfl | ⟨1, _⟩ => rfl)).trans
    (broadcastInDim_apply _ _ _ (ix2 s (0 : Fin 1)) (ix1 s) (fun a => match a with | ⟨0, _⟩ => rfl))

/-- A vector as a row, then down the columns of a matrix. -/
theorem bc_S512_cols65536 (v : S512.Idx → α) (s : Fin 65536) (k : Fin 512) :
    broadcastInDim S65536x512 ![0, 1] bcast_S1x512_S65536x512_0_1 (broadcastInDim S1x512 ![1] bcast_S512_S1x512_1 v) (ix2 s k)
      = v (ix1 k) :=
  (broadcastInDim_apply _ _ _ (ix2 s k) (ix2 (0 : Fin 1) k) (fun a => match a with | ⟨0, _⟩ => rfl | ⟨1, _⟩ => rfl)).trans
    (broadcastInDim_apply _ _ _ (ix2 (0 : Fin 1) k) (ix1 k) (fun a => match a with | ⟨0, _⟩ => rfl))

theorem bc_S512_row (v : S512.Idx → α) (k : Fin 512) :
    broadcastInDim S1x512 ![1] bcast_S512_S1x512_1 v (ix2 (0 : Fin 1) k) = v (ix1 k) :=
  broadcastInDim_apply _ _ _ (ix2 (0 : Fin 1) k) (ix1 k) (fun a => match a with | ⟨0, _⟩ => rfl)

theorem bc_S1x512_2048 (v : S1x512.Idx → α) (i : Fin 2048) (k : Fin 512) :
    broadcastInDim S2048x512 ![0, 1] bcast_S1x512_S2048x512_0_1 v (ix2 i k) = v (ix2 (0 : Fin 1) k) :=
  broadcastInDim_apply _ _ _ (ix2 i k) (ix2 (0 : Fin 1) k) (fun a => match a with | ⟨0, _⟩ => rfl | ⟨1, _⟩ => rfl)

theorem bc_S2048_col (v : S2048.Idx → α) (i : Fin 2048) :
    broadcastInDim S2048x1 ![0] bcast_S2048_S2048x1_0 v (ix2 i (0 : Fin 1)) = v (ix1 i) :=
  broadcastInDim_apply _ _ _ (ix2 i (0 : Fin 1)) (ix1 i) (fun a => match a with | ⟨0, _⟩ => rfl)

theorem bc_S2048x1_512 (v : S2048x1.Idx → α) (i : Fin 2048) (k : Fin 512) :
    broadcastInDim S2048x512 ![0, 1] bcast_S2048x1_S2048x512_0_1 v (ix2 i k) = v (ix2 i (0 : Fin 1)) :=
  broadcastInDim_apply _ _ _ (ix2 i k) (ix2 i (0 : Fin 1)) (fun a => match a with | ⟨0, _⟩ => rfl | ⟨1, _⟩ => rfl)

theorem bc_S512x128_3 (v : S512x128.Idx → α) (i : Fin 2048) (k : Fin 512) (d : Fin 128) :
    broadcastInDim S2048x512x128 ![0, 1, 2] bcast_S1x512x128_S2048x512x128_0_1_2
        (broadcastInDim S1x512x128 ![1, 2] bcast_S512x128_S1x512x128_1_2 v) (ix3 i k d) = v (ix2 k d) :=
  (broadcastInDim_apply _ _ _ (ix3 i k d) (ix3 (0 : Fin 1) k d)
      (fun a => match a with | ⟨0, _⟩ => rfl | ⟨1, _⟩ => rfl | ⟨2, _⟩ => rfl)).trans
    (broadcastInDim_apply _ _ _ (ix3 (0 : Fin 1) k d) (ix2 k d) (fun a => match a with | ⟨0, _⟩ => rfl | ⟨1, _⟩ => rfl))

theorem bc_S2048x512_3 (v : S2048x512.Idx → α) (i : Fin 2048) (k : Fin 512) (d : Fin 128) :
    broadcastInDim S2048x512x128 ![0, 1, 2] bcast_S2048x512x1_S2048x512x128_0_1_2
        (broadcastInDim S2048x512x1 ![0, 1] bcast_S2048x512_S2048x512x1_0_1 v) (ix3 i k d) = v (ix2 i k) :=
  (broadcastInDim_apply _ _ _ (ix3 i k d) (ix3 i k (0 : Fin 1))
      (fun a => match a with | ⟨0, _⟩ => rfl | ⟨1, _⟩ => rfl | ⟨2, _⟩ => rfl)).trans
    (broadcastInDim_apply _ _ _ (ix3 i k (0 : Fin 1)) (ix2 i k) (fun a => match a with | ⟨0, _⟩ => rfl | ⟨1, _⟩ => rfl))

theorem bc_S2048x128_3 (v : S2048x128.Idx → α) (i : Fin 2048) (k : Fin 512) (d : Fin 128) :
    broadcastInDim S2048x512x128 ![0, 1, 2] bcast_S2048x1x128_S2048x512x128_0_1_2
        (broadcastInDim S2048x1x128 ![0, 2] bcast_S2048x128_S2048x1x128_0_2 v) (ix3 i k d) = v (ix2 i d) :=
  (broadcastInDim_apply _ _ _ (ix3 i k d) (ix3 i (0 : Fin 1) d)
      (fun a => match a with | ⟨0, _⟩ => rfl | ⟨1, _⟩ => rfl | ⟨2, _⟩ => rfl)).trans
    (broadcastInDim_apply _ _ _ (ix3 i (0 : Fin 1) d) (ix2 i d) (fun a => match a with | ⟨0, _⟩ => rfl | ⟨1, _⟩ => rfl))

theorem bc_S1_3 (v : S1.Idx → α) (i : Fin 2048) :
    broadcastInDim S2048x1x1 ![0, 1, 2] bcast_S1x1x1_S2048x1x1_0_1_2
        (broadcastInDim S1x1x1 ![2] bcast_S1_S1x1x1_2 v) (ix3 i (0 : Fin 1) (0 : Fin 1)) = v (ix1 (0 : Fin 1)) :=
  (broadcastInDim_apply _ _ _ (ix3 i (0 : Fin 1) (0 : Fin 1)) (ix3 (0 : Fin 1) (0 : Fin 1) (0 : Fin 1))
      (fun a => match a with | ⟨0, _⟩ => rfl | ⟨1, _⟩ => rfl | ⟨2, _⟩ => rfl)).trans
    (broadcastInDim_apply _ _ _ (ix3 (0 : Fin 1) (0 : Fin 1) (0 : Fin 1)) (ix1 (0 : Fin 1)) (fun a => match a with | ⟨0, _⟩ => rfl))

end Bcast

/-! ## The reference's integer values, named and read at an index -/

/-- The one-hot matrix of the labels against the classes. -/
def oneHot (ys : IVec S65536 32) : IVec S65536x512 1 :=
  cmpi .eq
    (broadcastInDim S65536x512 ![0, 1] bcast_S65536x1_S65536x512_0_1 (broadcastInDim S65536x1 ![0] bcast_S65536_S65536x1_0 ys))
    (broadcastInDim S65536x512 ![0, 1] bcast_S1x512_S65536x512_0_1
      (broadcastInDim S1x512 ![1] bcast_S512_S1x512_1 (iotaInDim S512 32 0)))

theorem oneHot_apply (ys : IVec S65536 32) (s : Fin 65536) (k : Fin 512) :
    oneHot ys (ix2 s k) = IntOp.cmpi .eq (ys (ix1 s)) (BitVec.ofNat 32 k.val) := by
  unfold oneHot
  show IntOp.cmpi .eq _ _ = _
  rw [bc_S65536_rows, bc_S512_cols65536]
  rfl

/-- The positions with jnp's wrap of a negative index. -/
def posN (pos : IVec S2048 32) : IVec S2048 32 :=
  select (cmpi .slt pos (broadcastInDim S2048 ![] bcast_S_S2048 (constantI S_ 32 0#32)))
    (addi pos (broadcastInDim S2048 ![] bcast_S_S2048 (constantI S_ 32 65536#32))) pos

theorem posN_apply (pos : IVec S2048 32) (i : Fin 2048) : posN pos (ix1 i) = Cert.Spec.norm 65536 (pos (ix1 i)) := by
  unfold posN Cert.Spec.norm
  show Scalar.select (IntOp.cmpi .slt (pos (ix1 i)) (broadcastInDim S2048 ![] bcast_S_S2048 (constantI S_ 32 0#32) (ix1 i)))
    (IntOp.addi (pos (ix1 i)) (broadcastInDim S2048 ![] bcast_S_S2048 (constantI S_ 32 65536#32) (ix1 i))) (pos (ix1 i)) = _
  rw [broadcastInDim_scalar_apply, broadcastInDim_scalar_apply, constantI_apply, constantI_apply]
  generalize pos (ix1 i) = p
  unfold Scalar.select IntOp.cmpi IntOp.addi
  cases h : p.slt 0#32 <;> simp

/-- Each query's one-hot row, gathered at its position. -/
def qRow (ys : IVec S65536 32) (pos : IVec S2048 32) : IVec S2048x512 1 :=
  Host.gather gather_S65536x512_S2048x1_S2048x512_1_0_n_n_0_1_1512 (oneHot ys)
    (broadcastInDim S2048x1 ![0] bcast_S2048_S2048x1_0 (posN pos))

theorem qRow_apply (ys : IVec S65536 32) (pos : IVec S2048 32) (i : Fin 2048) (k : Fin 512) :
    qRow ys pos (ix2 i k) = IntOp.cmpi .eq (Cert.Spec.yq ys pos i) (BitVec.ofNat 32 k.val) := by
  unfold qRow
  rw [gather_rows_apply' _ _ i k (Cert.Spec.norm 65536 (pos (ix1 i))) (by rw [bc_S2048_col, posN_apply]), oneHot_apply]
  rfl

/-- Each query's class: the arg-max of its one-hot row. -/
def yqV (ys : IVec S65536 32) (pos : IVec S2048 32) : IVec S2048 32 :=
  fun j => (Host.reduce2 reducer_argmax_i1_i32 (qRow ys pos) (iotaInDim S2048x512 32 1) (constantI S_ 1 0#1)
    (constantI S_ 32 0#32) reducesTo_S2048x512_S2048_d1 h_S_ j).2

theorem yqV_apply (ys : IVec S65536 32) (pos : IVec S2048 32) (hl : Cert.Spec.Labels ys) (i : Fin 2048) :
    yqV ys pos (ix1 i) = Cert.Spec.yq ys pos i := by
  have hlt : (Cert.Spec.yq ys pos i).toNat < 512 := hl _
  have hx : ∀ k : Fin 512, qRow ys pos (ix2 i k) = if k = ⟨(Cert.Spec.yq ys pos i).toNat, hlt⟩ then 1#1 else 0#1 := by
    intro k
    rw [qRow_apply]
    by_cases hk : k = ⟨(Cert.Spec.yq ys pos i).toNat, hlt⟩
    · rw [if_pos hk]; subst hk
      simp [IntOp.cmpi]
    · rw [if_neg hk]
      have hne : Cert.Spec.yq ys pos i ≠ BitVec.ofNat 32 k.val := fun e => hk (Fin.ext (by
        have := congrArg BitVec.toNat e
        rw [BitVec.toNat_ofNat, Nat.mod_eq_of_lt (by have := k.isLt; omega)] at this
        exact this.symm))
      show BitVec.ofBool (_ == _) = 0#1
      rw [(beq_eq_false_iff_ne).2 hne]; rfl
  rw [argmax_onehot' (qRow ys pos) i ⟨(Cert.Spec.yq ys pos i).toNat, hlt⟩ hx (yqV ys pos) rfl]
  simp

/-! ## The float stages read at an index -/

theorem ninf_eq_bot : Ideal.ofBits .f32 0xFF800000#32 = (⊥ : EReal) := by simp [Ideal.ofBits, Ideal.ieee]

/-- A one-bit comparison of a label with a class, read as a float, is the one-hot entry. -/
theorem uitofp_cmpi_eq (y : BitVec 32) (k : ℕ) :
    (FloatOps.uitofp (F := Ideal) .f32 (IntOp.cmpi .eq y (BitVec.ofNat 32 k)) : EReal) = Cert.Spec.ind y k := by
  unfold Cert.Spec.ind IntOp.cmpi
  show (((BitVec.ofBool (y == BitVec.ofNat 32 k)).toNat : ℝ) : EReal) = _
  by_cases h : y = BitVec.ofNat 32 k
  · rw [if_pos h, h]; simp
  · rw [if_neg h]; simp [h]

/-- The mask of a count above one tenth, read as a float. -/
theorem uitofp_cmpf_ogt (v : EReal) :
    (FloatOps.uitofp (F := Ideal) .f32 (FloatOps.cmpf (F := Ideal) (φ := .f32) .ogt v (Ideal.ofBits .f32 0x3DCCCCCD#32)) : EReal)
      = Cert.Spec.gt01 v := by
  unfold Cert.Spec.gt01
  show (((BitVec.ofBool (decide (Ideal.ofBits .f32 0x3DCCCCCD#32 < v))).toNat : ℝ) : EReal) = _
  by_cases h : Ideal.ofBits .f32 0x3DCCCCCD#32 < v
  · rw [if_pos h]; simp [h]
  · rw [if_neg h]; simp [h]

/-- A sum over the last axis of a rank-3 array, from the zero word. -/
theorem radd_d2 (x : FVec Ideal S2048x512x128 .f32) (i : Fin 2048) (k : Fin 512) :
    Host.reduceAdd (F := Ideal) x (constant S_ .f32 0x00000000#32) reducesTo_S2048x512x128_S2048x512_d2 h_S_ (ix2 i k)
      = ∑ d : Fin 128, x (ix3 i k d) := by
  have h : S2048x512x128.Reduces [2] S2048x512 := by decide
  rw [hostReduceAdd_apply, Ideal.hostReduceAdd_single _ h]
  show Ideal.ofBits .f32 0x00000000#32 + _ = _
  rw [Ideal.ofBits_zero_f32, zero_add]
  refine Finset.sum_congr rfl fun d _ => congrArg x ?_
  funext a
  match a with
  | ⟨0, _⟩ => rfl
  | ⟨1, _⟩ => rfl
  | ⟨2, _⟩ => rfl

/-- A sum along the rows of a matrix, from the zero word. -/
theorem radd_d1 (x : FVec Ideal S2048x512 .f32) (i : Fin 2048) :
    Host.reduceAdd (F := Ideal) x (constant S_ .f32 0x00000000#32) reducesTo_S2048x512_S2048_d1 h_S_ (ix1 i)
      = ∑ k : Fin 512, x (ix2 i k) := by
  have h : S2048x512.Reduces [1] S2048 := by decide
  rw [hostReduceAdd_apply, Ideal.hostReduceAdd_single _ h]
  show Ideal.ofBits .f32 0x00000000#32 + _ = _
  rw [Ideal.ofBits_zero_f32, zero_add]
  refine Finset.sum_congr rfl fun d _ => congrArg x ?_
  funext a
  match a with
  | ⟨0, _⟩ => rfl
  | ⟨1, _⟩ => rfl

/-- The sum of a vector, from the zero word. -/
theorem radd_d0 (x : FVec Ideal S2048 .f32) (j : S_.Idx) :
    Host.reduceAdd (F := Ideal) x (constant S_ .f32 0x00000000#32) reducesTo_S2048_S_d0 h_S_ j
      = ∑ i : Fin 2048, x (ix1 i) := by
  rw [hostReduceAdd_apply, Ideal.hostReduceAdd_total _ (fun b => b.elim0)]
  show Ideal.ofBits .f32 0x00000000#32 + _ = _
  rw [Ideal.ofBits_zero_f32, zero_add]
  exact (Equiv.sum_comp (⟨ix1, fun j => j 0, fun _ => rfl, fun j => (eq_ix1 j).symm⟩ : Fin 2048 ≃ S2048.Idx) x).symm

/-- The maximum along the rows of a matrix, from minus infinity: the supremum of the row. -/
theorem rmax_d1 (x : FVec Ideal S2048x512 .f32) (i : Fin 2048) :
    Host.reduce (FloatOps.maximumf (F := Ideal) (φ := .f32)) x (constant (F := Ideal) S_ .f32 0xFF800000#32)
        reducesTo_S2048x512_S2048_d1 h_S_ (ix1 i)
      = Finset.univ.sup fun k : Fin 512 => x (ix2 i k) := by
  have h : S2048x512.Reduces [1] S2048 := by decide
  rw [Host.reduce_eq_fold_single _ x _ _ h]
  show Finset.fold max (Ideal.ofBits .f32 0xFF800000#32) _ _ = _
  rw [ninf_eq_bot]
  show Finset.fold max ⊥ (fun k : Fin 512 => x (h.lift (ix1 i) k)) Finset.univ = _
  have e : (fun k : Fin 512 => x (h.lift (ix1 i) k)) = fun k : Fin 512 => x (ix2 i k) := by
    funext k
    refine congrArg x ?_
    funext a
    match a with
    | ⟨0, _⟩ => rfl
    | ⟨1, _⟩ => rfl
  rw [e]
  rfl

/-! ## The class sums: the contraction over the support set -/

theorem dot_lhs_0 (j : S512x128.Idx) (q : dot_S512x65536_S65536x128_S512x128_1_0_0_1_n_n.contr.Idx) :
    (dot_S512x65536_S65536x128_S512x128_1_0_0_1_n_n.lhsIdx j q 0).val = (j 0).val := by
  unfold DotDims.lhsIdx
  rw [dif_neg (show (0 : Fin 2) ∉ dot_S512x65536_S65536x128_S512x128_1_0_0_1_n_n.lhsBatch from List.not_mem_nil),
    dif_pos (show (0 : Fin 2) ∈ dot_S512x65536_S65536x128_S512x128_1_0_0_1_n_n.lhsNonContracting from List.mem_singleton.mpr rfl)]
  rfl

theorem dot_lhs_1 (j : S512x128.Idx) (q : dot_S512x65536_S65536x128_S512x128_1_0_0_1_n_n.contr.Idx) :
    (dot_S512x65536_S65536x128_S512x128_1_0_0_1_n_n.lhsIdx j q 1).val = (q ⟨0, by decide⟩).val :=
  dot_S512x65536_S65536x128_S512x128_1_0_0_1_n_n.lhsIdx_val_of_single (cl := 1) rfl j q

theorem dot_rhs_0 (j : S512x128.Idx) (q : dot_S512x65536_S65536x128_S512x128_1_0_0_1_n_n.contr.Idx) :
    (dot_S512x65536_S65536x128_S512x128_1_0_0_1_n_n.rhsIdx j q 0).val = (q ⟨0, by decide⟩).val :=
  dot_S512x65536_S65536x128_S512x128_1_0_0_1_n_n.rhsIdx_val_of_single (cr := 0) rfl j q

theorem dot_rhs_1 (j : S512x128.Idx) (q : dot_S512x65536_S65536x128_S512x128_1_0_0_1_n_n.contr.Idx) :
    (dot_S512x65536_S65536x128_S512x128_1_0_0_1_n_n.rhsIdx j q 1).val = (j 1).val := by
  unfold DotDims.rhsIdx
  rw [dif_neg (show (1 : Fin 2) ∉ dot_S512x65536_S65536x128_S512x128_1_0_0_1_n_n.rhsBatch from List.not_mem_nil),
    dif_pos (show (1 : Fin 2) ∈ dot_S512x65536_S65536x128_S512x128_1_0_0_1_n_n.rhsNonContracting from List.mem_singleton.mpr rfl)]
  rfl

/-- The class sums. -/
def musV (xs : FVec Ideal S65536x128 .f32) (ys : IVec S65536 32) : FVec Ideal S512x128 .f32 :=
  Host.dotGeneral dot_S512x65536_S65536x128_S512x128_1_0_0_1_n_n none
    (transpose S512x65536 [1, 0] (uitofp (F := Ideal) .f32 (oneHot ys)) transposes_S65536x512_S512x65536_1_0) xs

theorem musV_apply (xs : FVec Ideal S65536x128 .f32) (ys : IVec S65536 32) (k : Fin 512) (d : Fin 128) :
    musV xs ys (ix2 k d) = Cert.Spec.musR xs ys k d := by
  unfold musV Cert.Spec.musR
  simp only [Host.dotGeneral]
  rw [Ideal.dotGeneral_apply,
    ← Equiv.sum_comp (contrEquiv1 dot_S512x65536_S65536x128_S512x128_1_0_0_1_n_n 65536 rfl rfl).symm]
  refine Finset.sum_congr rfl fun s _ => ?_
  have hl : dot_S512x65536_S65536x128_S512x128_1_0_0_1_n_n.lhsIdx (ix2 k d)
      ((contrEquiv1 dot_S512x65536_S65536x128_S512x128_1_0_0_1_n_n 65536 rfl rfl).symm s) = ix2 k s := by
    funext a
    match a with
    | ⟨0, _⟩ => exact Fin.ext (dot_lhs_0 _ _)
    | ⟨1, _⟩ => exact Fin.ext ((dot_lhs_1 _ _).trans (contrEquiv1_symm_val _ _ _ _ s))
  have hr : dot_S512x65536_S65536x128_S512x128_1_0_0_1_n_n.rhsIdx (ix2 k d)
      ((contrEquiv1 dot_S512x65536_S65536x128_S512x128_1_0_0_1_n_n 65536 rfl rfl).symm s) = ix2 s d := by
    funext a
    match a with
    | ⟨0, _⟩ => exact Fin.ext ((dot_rhs_0 _ _).trans (contrEquiv1_symm_val _ _ _ _ s))
    | ⟨1, _⟩ => exact Fin.ext (dot_rhs_1 _ _)
  rw [hl, hr, transpose_ix2_apply]
  show FloatOps.uitofp (F := Ideal) .f32 (oneHot ys (ix2 s k)) * _ = _
  rw [oneHot_apply, uitofp_cmpi_eq]

/-! ## The leave-one-out stages -/

/-- The queries' one-hot matrix, as floats. -/
def qOH (ys : IVec S65536 32) (pos : IVec S2048 32) : FVec Ideal S2048x512 .f32 :=
  uitofp (F := Ideal) .f32 (cmpi .eq
    (broadcastInDim S2048x512 ![0, 1] bcast_S2048x1_S2048x512_0_1 (broadcastInDim S2048x1 ![0] bcast_S2048_S2048x1_0 (yqV ys pos)))
    (broadcastInDim S2048x512 ![0, 1] bcast_S1x512_S2048x512_0_1
      (broadcastInDim S1x512 ![1] bcast_S512_S1x512_1 (iotaInDim S512 32 0))))

theorem qOH_apply (ys : IVec S65536 32) (pos : IVec S2048 32) (hl : Cert.Spec.Labels ys) (i : Fin 2048) (k : Fin 512) :
    qOH ys pos (ix2 i k) = Cert.Spec.ind (Cert.Spec.yq ys pos i) k.val := by
  unfold qOH
  show FloatOps.uitofp (F := Ideal) .f32 (IntOp.cmpi .eq
    (broadcastInDim S2048x512 ![0, 1] bcast_S2048x1_S2048x512_0_1 (broadcastInDim S2048x1 ![0] bcast_S2048_S2048x1_0 (yqV ys pos)) (ix2 i k))
    (broadcastInDim S2048x512 ![0, 1] bcast_S1x512_S2048x512_0_1
      (broadcastInDim S1x512 ![1] bcast_S512_S1x512_1 (iotaInDim S512 32 0)) (ix2 i k))) = _
  rw [bc_S2048x1_512, bc_S2048_col, bc_S1x512_2048, bc_S512_row, yqV_apply ys pos hl]
  exact uitofp_cmpi_eq _ _

/-- The class counts, as 32-bit words. -/
def cnt32 (ys : IVec S65536 32) : IVec S512 32 :=
  Host.reduce IntOp.addi (extui 32 (oneHot ys) natLt_1_32) (constantI S_ 32 0#32) reducesTo_S65536x512_S512_d0 h_S_

theorem cnt32_apply (ys : IVec S65536 32) (k : Fin 512) :
    (FloatOps.sitofp (F := Ideal) .f32 (cnt32 ys (ix1 k)) : EReal) = Cert.Spec.cntI ys k := by
  unfold cnt32 Cert.Spec.cntI
  rw [count_apply]
  have hset : (Finset.univ.filter fun s : Fin 65536 => oneHot ys (ix2 s k) = 1#1)
      = Finset.univ.filter fun s : Fin 65536 => ys (ix1 s) = BitVec.ofNat 32 k.val :=
    Finset.filter_congr fun s _ => by rw [oneHot_apply]; exact Predicate.cmpi_eq_iff
  rw [hset]

/-- The leave-one-out counts. -/
def cntLoo (ys : IVec S65536 32) (pos : IVec S2048 32) : FVec Ideal S2048x512 .f32 :=
  subf (broadcastInDim S2048x512 ![0, 1] bcast_S1x512_S2048x512_0_1
      (sitofp (F := Ideal) .f32 (broadcastInDim S1x512 ![1] bcast_S512_S1x512_1 (cnt32 ys)))) (qOH ys pos)

theorem cntLoo_apply (ys : IVec S65536 32) (pos : IVec S2048 32) (hl : Cert.Spec.Labels ys) (i : Fin 2048) (k : Fin 512) :
    cntLoo ys pos (ix2 i k) = Cert.Spec.cntI ys k - Cert.Spec.ind (Cert.Spec.yq ys pos i) k.val := by
  unfold cntLoo
  rw [subf_apply, bc_S1x512_2048, qOH_apply ys pos hl]
  show FloatOps.sitofp (F := Ideal) .f32 (broadcastInDim S1x512 ![1] bcast_S512_S1x512_1 (cnt32 ys) (ix2 (0 : Fin 1) k)) - _ = _
  rw [bc_S512_row, cnt32_apply]

/-- The difference of a query and a leave-one-out prototype. -/
def diffV (xq : FVec Ideal S2048x128 .f32) (xs : FVec Ideal S65536x128 .f32) (ys : IVec S65536 32) (pos : IVec S2048 32) :
    FVec Ideal S2048x512x128 .f32 :=
  subf (broadcastInDim S2048x512x128 ![0, 1, 2] bcast_S2048x1x128_S2048x512x128_0_1_2
      (broadcastInDim S2048x1x128 ![0, 2] bcast_S2048x128_S2048x1x128_0_2 xq))
    (Host.divf
      (subf (broadcastInDim S2048x512x128 ![0, 1, 2] bcast_S1x512x128_S2048x512x128_0_1_2
          (broadcastInDim S1x512x128 ![1, 2] bcast_S512x128_S1x512x128_1_2 (musV xs ys)))
        (mulf (broadcastInDim S2048x512x128 ![0, 1, 2] bcast_S2048x512x1_S2048x512x128_0_1_2
            (broadcastInDim S2048x512x1 ![0, 1] bcast_S2048x512_S2048x512x1_0_1 (qOH ys pos)))
          (broadcastInDim S2048x512x128 ![0, 1, 2] bcast_S2048x1x128_S2048x512x128_0_1_2
            (broadcastInDim S2048x1x128 ![0, 2] bcast_S2048x128_S2048x1x128_0_2 xq))))
      (broadcastInDim S2048x512x128 ![0, 1, 2] bcast_S2048x512x1_S2048x512x128_0_1_2
        (broadcastInDim S2048x512x1 ![0, 1] bcast_S2048x512_S2048x512x1_0_1
          (maximumf (cntLoo ys pos)
            (broadcastInDim S2048x512 ![] bcast_S_S2048x512 (constant (F := Ideal) S_ .f32 0x3DCCCCCD#32))))))

theorem diffV_apply (xq : FVec Ideal S2048x128 .f32) (xs : FVec Ideal S65536x128 .f32) (ys : IVec S65536 32) (pos : IVec S2048 32)
    (hl : Cert.Spec.Labels ys) (i : Fin 2048) (k : Fin 512) (d : Fin 128) :
    diffV xq xs ys pos (ix3 i k d)
      = xq (ix2 i d) - Ideal.div (Cert.Spec.musR xs ys k d - Cert.Spec.ind (Cert.Spec.yq ys pos i) k.val * xq (ix2 i d))
          (max (Cert.Spec.cntI ys k - Cert.Spec.ind (Cert.Spec.yq ys pos i) k.val) Cert.Spec.c01) := by
  unfold diffV
  rw [subf_apply, hostDivf_apply, subf_apply, mulf_apply, bc_S2048x128_3, bc_S512x128_3, bc_S2048x512_3, bc_S2048x512_3,
    maximumf_apply, broadcastInDim_scalar_apply, constant_apply, musV_apply, qOH_apply ys pos hl, cntLoo_apply ys pos hl]

/-- The logits. -/
def logitV (xq : FVec Ideal S2048x128 .f32) (xs : FVec Ideal S65536x128 .f32) (ys : IVec S65536 32) (pos : IVec S2048 32) :
    FVec Ideal S2048x512 .f32 :=
  Host.divf
    (mulf
      (mulf (broadcastInDim S2048x512 ![] bcast_S_S2048x512 (constant (F := Ideal) S_ .f32 0xBF000000#32))
        (Host.reduceAdd (F := Ideal) (mulf (diffV xq xs ys pos) (diffV xq xs ys pos)) (constant S_ .f32 0x00000000#32)
          reducesTo_S2048x512x128_S2048x512_d2 h_S_))
      (uitofp (F := Ideal) .f32 (cmpf .ogt (cntLoo ys pos)
        (broadcastInDim S2048x512 ![] bcast_S_S2048x512 (constant (F := Ideal) S_ .f32 0x3DCCCCCD#32)))))
    (broadcastInDim S2048x512 ![] bcast_S_S2048x512 (constant (F := Ideal) S_ .f32 0x3F800000#32))

theorem logitV_apply (xq : FVec Ideal S2048x128 .f32) (xs : FVec Ideal S65536x128 .f32) (ys : IVec S65536 32) (pos : IVec S2048 32)
    (hl : Cert.Spec.Labels ys) (i : Fin 2048) (k : Fin 512) :
    logitV xq xs ys pos (ix2 i k)
      = Cert.Spec.logitR (Cert.Spec.musR xs ys) (Cert.Spec.cntI ys) (fun d => xq (ix2 i d)) (Cert.Spec.yq ys pos i) k := by
  unfold logitV Cert.Spec.logitR
  rw [hostDivf_apply, mulf_apply, mulf_apply, broadcastInDim_scalar_apply, broadcastInDim_scalar_apply, constant_apply,
    constant_apply, radd_d2]
  show Ideal.div ((Cert.Spec.mhalf * _) * FloatOps.uitofp (F := Ideal) .f32 (FloatOps.cmpf (F := Ideal) (φ := .f32) .ogt (cntLoo ys pos (ix2 i k))
    (broadcastInDim S2048x512 ![] bcast_S_S2048x512 (constant (F := Ideal) S_ .f32 0x3DCCCCCD#32) (ix2 i k)))) Cert.Spec.one = _
  rw [broadcastInDim_scalar_apply, constant_apply, uitofp_cmpf_ogt, cntLoo_apply ys pos hl]
  congr 3
  refine Finset.sum_congr rfl fun d _ => ?_
  rw [mulf_apply, diffV_apply xq xs ys pos hl]

/-! ## The log-softmax of a matrix's rows -/

/-- The row maxima, floored at minus infinity. -/
def rowMaxV (L : FVec Ideal S2048x512 .f32) : FVec Ideal S2048 .f32 :=
  maximumf (broadcastInDim S2048 ![] bcast_S_S2048 (constant (F := Ideal) S_ .f32 0xFF800000#32))
    (Host.reduce FloatOps.maximumf L (constant (F := Ideal) S_ .f32 0xFF800000#32) reducesTo_S2048x512_S2048_d1 h_S_)

theorem rowMaxV_apply (L : FVec Ideal S2048x512 .f32) (i : Fin 2048) :
    rowMaxV L (ix1 i) = max Cert.Spec.ninf (Finset.univ.sup fun k : Fin 512 => L (ix2 i k)) := by
  unfold rowMaxV
  rw [maximumf_apply, broadcastInDim_scalar_apply, constant_apply, rmax_d1]

/-- The rows shifted by their maxima. -/
def shiftV (L : FVec Ideal S2048x512 .f32) : FVec Ideal S2048x512 .f32 :=
  subf L (broadcastInDim S2048x512 ![0, 1] bcast_S2048x1_S2048x512_0_1
    (broadcastInDim S2048x1 ![0] bcast_S2048_S2048x1_0 (rowMaxV L)))

theorem shiftV_apply (L : FVec Ideal S2048x512 .f32) (i : Fin 2048) (k : Fin 512) :
    shiftV L (ix2 i k) = L (ix2 i k) - max Cert.Spec.ninf (Finset.univ.sup fun k : Fin 512 => L (ix2 i k)) := by
  unfold shiftV
  rw [subf_apply, bc_S2048x1_512, bc_S2048_col, rowMaxV_apply]

/-- The log-softmax. -/
def lsmV (L : FVec Ideal S2048x512 .f32) : FVec Ideal S2048x512 .f32 :=
  subf (shiftV L) (broadcastInDim S2048x512 ![0, 1] bcast_S2048x1_S2048x512_0_1
    (Host.log (broadcastInDim S2048x1 ![0] bcast_S2048_S2048x1_0
      (Host.reduceAdd (F := Ideal) (Host.exp (shiftV L)) (constant S_ .f32 0x00000000#32) reducesTo_S2048x512_S2048_d1 h_S_))))

theorem lsmV_apply (L : FVec Ideal S2048x512 .f32) (i : Fin 2048) (g : Fin 512) :
    lsmV L (ix2 i g) = shiftV L (ix2 i g) - Ideal.log (∑ k : Fin 512, Ideal.exp (shiftV L (ix2 i k))) := by
  unfold lsmV
  rw [subf_apply, bc_S2048x1_512]
  show _ - Ideal.log (broadcastInDim (s := S2048) S2048x1 ![0] bcast_S2048_S2048x1_0 _ (ix2 i (0 : Fin 1))) = _
  rw [bc_S2048_col, radd_d1]
  rfl

/-! ## The entry of each row at an index column -/

theorem norm_small (n : ℕ) (w : BitVec 32) (hw : w.toNat < 512) : Cert.Spec.norm n w = w := by
  unfold Cert.Spec.norm
  rw [if_neg]
  have hi : w.toInt = w.toNat := Predicate.toInt_eq_toNat_of_lt (by omega)
  simp only [BitVec.slt, hi]
  simp

/-- The index column, a negative index wrapped, with two unit axes. -/
def takeIdx (y2 : IVec S2048x1 32) : IVec S2048x1x1 32 :=
  shapeCast S2048x1x1 (select (cmpi .slt y2 (broadcastInDim S2048x1 ![] bcast_S_S2048x1 (constantI S_ 32 0#32)))
    (addi y2 (broadcastInDim S2048x1 ![] bcast_S_S2048x1 (constantI S_ 32 512#32))) y2) shapeCasts_S2048x1_S2048x1x1

theorem takeIdx_apply (y2 : IVec S2048x1 32) (i : Fin 2048) :
    takeIdx y2 (ix3 i (0 : Fin 1) (0 : Fin 1)) = Cert.Spec.norm 512 (y2 (ix2 i (0 : Fin 1))) := by
  unfold takeIdx Cert.Spec.norm
  rw [shapeCast_apply _ _ (ix3 i (0 : Fin 1) (0 : Fin 1)) (ix2 i (0 : Fin 1))
    (by rw [Shape.rowMajor_val_two, Shape.rowMajor_val_three]; show i.val * 1 + 0 = (i.val * 1 + 0) * 1 + 0; omega)]
  show Scalar.select (IntOp.cmpi .slt (y2 (ix2 i 0)) (broadcastInDim S2048x1 ![] bcast_S_S2048x1 (constantI S_ 32 0#32) (ix2 i 0)))
    (IntOp.addi (y2 (ix2 i 0)) (broadcastInDim S2048x1 ![] bcast_S_S2048x1 (constantI S_ 32 512#32) (ix2 i 0))) (y2 (ix2 i 0)) = _
  rw [broadcastInDim_scalar_apply, broadcastInDim_scalar_apply, constantI_apply, constantI_apply]
  generalize y2 (ix2 i 0) = p
  unfold Scalar.select IntOp.cmpi IntOp.addi
  cases h : p.slt 0#32 <;> simp

/-- The in-bounds mask of the index column. -/
def takeMask (t5 : IVec S2048x1x1 32) : IVec S2048x1 1 :=
  Host.reduce IntOp.andi
    (andi (cmpi .sge t5 (broadcastInDim S2048x1x1 ![] bcast_S_S2048x1x1 (constantI S_ 32 0#32)))
      (cmpi .sle t5 (broadcastInDim S2048x1x1 ![0, 1, 2] bcast_S1x1x1_S2048x1x1_0_1_2
        (broadcastInDim S1x1x1 ![2] bcast_S1_S1x1x1_2 (constantI S1 32 511#32)))))
    (constantI S_ 1 1#1) reducesTo_S2048x1x1_S2048x1_d2 h_S_

theorem takeMask_apply (t5 : IVec S2048x1x1 32) (i : Fin 2048) (hw : (t5 (ix3 i (0 : Fin 1) (0 : Fin 1))).toNat < 512) :
    takeMask t5 (ix2 i (0 : Fin 1)) = 1#1 := by
  have h : S2048x1x1.Reduces [2] S2048x1 := by decide
  unfold takeMask
  rw [Host.reduce_eq_fold_single _ _ _ _ h]
  show Finset.fold IntOp.andi 1#1 (fun k : Fin 1 => (andi _ _ : IVec S2048x1x1 1) (h.lift (ix2 i (0 : Fin 1)) k))
    (Finset.univ : Finset (Fin 1)) = 1#1
  rw [Finset.univ_unique, Finset.fold_singleton]
  have e : h.lift (ix2 i (0 : Fin 1)) (default : Fin 1) = ix3 i (0 : Fin 1) (0 : Fin 1) := by
    funext a
    match a with
    | ⟨0, _⟩ => rfl
    | ⟨1, _⟩ => rfl
    | ⟨2, _⟩ => rfl
  show IntOp.andi (IntOp.andi
      (IntOp.cmpi .sge (t5 (h.lift (ix2 i (0 : Fin 1)) (default : Fin 1)))
        (broadcastInDim S2048x1x1 ![] bcast_S_S2048x1x1 (constantI S_ 32 0#32) (h.lift (ix2 i (0 : Fin 1)) (default : Fin 1))))
      (IntOp.cmpi .sle (t5 (h.lift (ix2 i (0 : Fin 1)) (default : Fin 1)))
        (broadcastInDim S2048x1x1 ![0, 1, 2] bcast_S1x1x1_S2048x1x1_0_1_2
          (broadcastInDim S1x1x1 ![2] bcast_S1_S1x1x1_2 (constantI S1 32 511#32)) (h.lift (ix2 i (0 : Fin 1)) (default : Fin 1))))) 1#1 = 1#1
  rw [e, broadcastInDim_scalar_apply, bc_S1_3, constantI_apply, constantI_apply,
    (Predicate.sge_iff_toNat (by omega) (by decide)).2 (Nat.zero_le _),
    (Predicate.sle_iff_toNat (by omega) (by decide)).2 (by show _ ≤ 511; omega)]
  rfl

/-- The entries taken, not-a-number where the index is out of range. -/
def takenV (V : FVec Ideal S2048x512 .f32) (y2 : IVec S2048x1 32) : FVec Ideal S2048x1 .f32 :=
  select (takeMask (takeIdx y2)) (Host.gather gather_S2048x512_S2048x1x1_S2048x1_n_1_0_0_1_2_11 V (takeIdx y2))
    (broadcastInDim S2048x1 ![] bcast_S_S2048x1 (constant (F := Ideal) S_ .f32 0x7FC00000#32))

theorem takenV_apply (V : FVec Ideal S2048x512 .f32) (y2 : IVec S2048x1 32) (i : Fin 2048)
    (hy : (y2 (ix2 i (0 : Fin 1))).toNat < 512) :
    takenV V y2 (ix2 i (0 : Fin 1)) = V (ix2 i (Cert.Spec.gidx 512 (by decide) (y2 (ix2 i (0 : Fin 1))))) := by
  unfold takenV
  rw [select_apply, takeMask_apply _ i (by rw [takeIdx_apply, norm_small _ _ hy]; exact hy), select_one,
    gather_along_apply' _ _ i (Cert.Spec.norm 512 (y2 (ix2 i (0 : Fin 1)))) (takeIdx_apply y2 i)]
  rfl

/-! ## The whole term -/

/-- The reference's result, over the named stages. -/
def finalV (xq : FVec Ideal S2048x128 .f32) (xs : FVec Ideal S65536x128 .f32) (ys : IVec S65536 32) (pos : IVec S2048 32) :
    FVec Ideal S_ .f32 :=
  Host.divf
    (Host.reduceAdd (F := Ideal)
      (Host.negf (shapeCast S2048
        (takenV (lsmV (logitV xq xs ys pos)) (broadcastInDim S2048x1 ![0] bcast_S2048_S2048x1_0 (yqV ys pos)))
        shapeCasts_S2048x1_S2048))
      (constant S_ .f32 0x00000000#32) reducesTo_S2048_S_d0 h_S_)
    (constant (F := Ideal) S_ .f32 0x45000000#32)

theorem refTerm_eq_finalV (xq : FVec Ideal S2048x128 .f32) (xs : FVec Ideal S65536x128 .f32) (ys : IVec S65536 32)
    (pos : IVec S2048 32) : refTerm (F := Ideal) xq xs ys pos = finalV xq xs ys pos := rfl

theorem finalV_value (xq : Cert.Spec.XQ) (xs : Cert.Spec.XS) (ys : Cert.Spec.YS) (pos : Cert.Spec.POS) (hl : Cert.Spec.Labels ys) :
    finalV xq xs ys pos = fun _ => Cert.Spec.refLoss xq xs ys pos := by
  funext j
  unfold finalV Cert.Spec.refLoss
  rw [hostDivf_apply, constant_apply, radd_d0]
  congr 1
  refine Finset.sum_congr rfl fun i _ => ?_
  show -(shapeCast S2048 (takenV (lsmV (logitV xq xs ys pos)) (broadcastInDim S2048x1 ![0] bcast_S2048_S2048x1_0 (yqV ys pos)))
    shapeCasts_S2048x1_S2048 (ix1 i)) = _
  have hy : broadcastInDim S2048x1 ![0] bcast_S2048_S2048x1_0 (yqV ys pos) (ix2 i (0 : Fin 1)) = Cert.Spec.yq ys pos i := by
    rw [bc_S2048_col, yqV_apply ys pos hl]
  rw [shapeCast_apply _ _ (ix1 i) (ix2 i (0 : Fin 1))
      (by rw [Shape.rowMajor_val_two, Shape.rowMajor_val_one]; show i.val * 1 + 0 = i.val; omega),
    takenV_apply _ _ i (by rw [hy]; exact hl _), hy, lsmV_apply]
  simp only [shiftV_apply, logitV_apply xq xs ys pos hl]
  rfl

/-- The reference program's value: the loss in the reference's arrangement. -/
theorem ref_value (xq : Cert.Spec.XQ) (xs : Cert.Spec.XS) (ys : Cert.Spec.YS) (pos : Cert.Spec.POS) (hl : Cert.Spec.Labels ys) :
    refTerm (F := Ideal) xq xs ys pos = fun _ => Cert.Spec.refLoss xq xs ys pos :=
  (refTerm_eq_finalV xq xs ys pos).trans (finalV_value xq xs ys pos hl)

end Cert.ReferenceIdeal.Hand

end
-- ==== Proof.MathRow.lean ====
/-
  One query: the kernel's arrangement of its loss (the expanded square for the generic classes, the own class corrected
  from the gathered row) and the reference's (every leave-one-out prototype built) are one number, when the class sums,
  the counts and the query are finite, the counts are natural numbers, and the query's label is a class.
-/
import proofs.«413345_j40647570489383_3_alg».proof.Proof.Spec

noncomputable section

namespace Cert.Spec

open Idealize.ShloMosaic Idealize.ShloMosaic.ValueIdx
open scoped BigOperators

namespace MathRow

/-! ## The literals as extended reals -/

theorem one_eq : one = 1 := by
  rw [show (1 : EReal) = ((1 : ℝ) : EReal) by norm_cast]
  simp [Ideal.ofBits, Ideal.ieee, -EReal.coe_mul]; norm_num

theorem mhalf_eq : mhalf = ((-(1/2) : ℝ) : EReal) := by
  simp [Ideal.ofBits, Ideal.ieee, -EReal.coe_mul, -EReal.coe_neg]; norm_num

theorem half_eq : half = ((1/2 : ℝ) : EReal) := by
  simp [Ideal.ofBits, Ideal.ieee, -EReal.coe_mul, -EReal.coe_neg]; norm_num

theorem ninf_eq : ninf = ⊥ := by
  simp [Ideal.ofBits, Ideal.ieee]

/-- The real that the word of `0.1` denotes, `13421773 · 2⁻²⁷`. -/
def c01r : ℝ := 13421773 / 134217728

theorem c01_eq : c01 = (c01r : EReal) := by
  simp [Ideal.ofBits, Ideal.ieee, -EReal.coe_mul, -EReal.coe_neg, c01r]; norm_num

theorem c01r_pos : 0 < c01r := by unfold c01r; norm_num

/-! ## A label below 512 is read as itself -/

theorem gidx_of_lt (y : BitVec 32) (hy : y.toNat < 512) : gidx 512 (by decide) y = ⟨y.toNat, hy⟩ := by
  have hs : y.slt 0#32 = false := by
    rw [BitVec.slt, BitVec.toInt_eq_toNat_of_lt (by omega)]
    simp
  apply Fin.ext
  simp only [gidx, norm, hs, Bool.false_eq_true, if_false]
  rw [BitVec.toInt_eq_toNat_of_lt (by omega)]
  simp only [Int.toNat_natCast]
  omega

theorem eq_ofNat_iff (y : BitVec 32) (hy : y.toNat < 512) (k : Fin 512) :
    y = BitVec.ofNat 32 k.val ↔ k = gidx 512 (by decide) y := by
  rw [gidx_of_lt y hy]
  have hk := k.isLt
  constructor
  · intro h
    apply Fin.ext
    have := congrArg BitVec.toNat h
    simp only [BitVec.toNat_ofNat] at this
    show k.val = y.toNat
    omega
  · intro h
    apply BitVec.eq_of_toNat_eq
    have : k.val = y.toNat := congrArg Fin.val h
    simp only [BitVec.toNat_ofNat]
    omega

/-! ## Coercions of reals through the operations -/

theorem coe_max (a b : ℝ) : max (a : EReal) (b : EReal) = ((max a b : ℝ) : EReal) :=
  (EReal.coe_strictMono.monotone.map_max).symm

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (a b : ℝ) (hb : b ≠ 0) : Ideal.div (a : EReal) (b : EReal) = ((a / b : ℝ) : EReal) := by
  rw [Ideal.div_coe hb, ← EReal.coe_mul, mul_one_div]

theorem max_c01r_ne (c : ℝ) : max c c01r ≠ 0 :=
  ne_of_gt (lt_of_lt_of_le c01r_pos (le_max_right _ _))

theorem gt01_coe (c : ℝ) : gt01 (c : EReal) = (((if c01r < c then 1 else 0 : ℝ)) : EReal) := by
  unfold gt01
  rw [c01_eq]
  by_cases h : c01r < c
  · rw [if_pos h, if_pos (EReal.coe_lt_coe_iff.mpr h), EReal.coe_one]
  · rw [if_neg h, if_neg (fun h' => h (EReal.coe_lt_coe_iff.mp h')), EReal.coe_zero]

/-! ## The masked squared distance over the reals -/

/-- `-½ ∑ (x − a / max c 0.1)² · [0.1 < c]` over the reals. -/
def coreR (xr a : Fin 128 → ℝ) (c : ℝ) : ℝ :=
  ((-(1/2)) * ∑ d : Fin 128, (xr d - a d / max c c01r) * (xr d - a d / max c c01r)) * (if c01r < c then 1 else 0)

theorem core_coe (xr a : Fin 128 → ℝ) (c : ℝ) :
    (mhalf * ∑ d : Fin 128, ((xr d : EReal) - Ideal.div (a d : EReal) (max (c : EReal) c01))
        * ((xr d : EReal) - Ideal.div (a d : EReal) (max (c : EReal) c01))) * gt01 (c : EReal)
      = (coreR xr a c : EReal) := by
  rw [c01_eq, coe_max, mhalf_eq, gt01_coe]
  simp only [div_real _ _ (max_c01r_ne c), ← EReal.coe_sub, ← EReal.coe_mul, coe_sum]
  rfl

theorem lselfOf_coe (xr ms : Fin 128 → ℝ) (cs : ℝ) :
    lselfOf (fun d => (xr d : EReal)) (fun d => (ms d : EReal)) (cs : EReal)
      = (coreR xr (fun d => ms d - xr d) (cs - 1) : EReal) := by
  unfold lselfOf
  rw [one_eq]
  have h1 : (cs : EReal) - 1 = ((cs - 1 : ℝ) : EReal) := by rw [EReal.coe_sub, EReal.coe_one]
  simp only [h1, ← EReal.coe_sub]
  exact core_coe xr (fun d => ms d - xr d) (cs - 1)

/-! ## Both logit rows are one real row -/

/-- Class `k`'s logit over the reals: the query left out of its own class. -/
def LR (m : Fin 512 → Fin 128 → ℝ) (nr : Fin 512 → ℝ) (xr : Fin 128 → ℝ) (y : BitVec 32) (k : Fin 512) : ℝ :=
  if y = BitVec.ofNat 32 k.val then coreR xr (fun d => m k d - xr d) (nr k - 1) else coreR xr (m k) (nr k)

theorem logitR_coe (m : Fin 512 → Fin 128 → ℝ) (nr : Fin 512 → ℝ) (xr : Fin 128 → ℝ) (y : BitVec 32) (k : Fin 512) :
    logitR (fun k d => (m k d : EReal)) (fun k => (nr k : EReal)) (fun d => (xr d : EReal)) y k
      = (LR m nr xr y k : EReal) := by
  unfold logitR LR
  rw [one_eq]
  by_cases h : y = BitVec.ofNat 32 k.val
  · have hi : ind y k.val = 1 := if_pos h
    have h1 : (nr k : EReal) - 1 = ((nr k - 1 : ℝ) : EReal) := by rw [EReal.coe_sub, EReal.coe_one]
    rw [if_pos h, hi]
    simp only [one_mul, h1, ← EReal.coe_sub]
    rw [core_coe xr (fun d => m k d - xr d) (nr k - 1), ← EReal.coe_one, div_real _ _ one_ne_zero, div_one]
  · have hi : ind y k.val = 0 := if_neg h
    rw [if_neg h, hi]
    simp only [zero_mul, sub_zero]
    rw [core_coe xr (m k) (nr k), ← EReal.coe_one, div_real _ _ one_ne_zero, div_one]

/-- The expanded square is the square. -/
theorem lgen_coe (m : Fin 512 → Fin 128 → ℝ) (nr : Fin 512 → ℝ) (xr : Fin 128 → ℝ) (k : Fin 512) :
    lgen (fun k d => (m k d : EReal)) (fun k => (nr k : EReal)) (fun d => (xr d : EReal)) k
      = (coreR xr (m k) (nr k) : EReal) := by
  simp only [lgen, psq, proto]
  rw [c01_eq, coe_max, mhalf_eq, half_eq, gt01_coe]
  simp only [div_real _ _ (max_c01r_ne (nr k)), ← EReal.coe_sub, ← EReal.coe_mul, ← EReal.coe_add, coe_sum]
  congr 1
  unfold coreR
  congr 1
  rw [Finset.mul_sum, Finset.mul_sum, Finset.mul_sum, ← Finset.sum_add_distrib, ← Finset.sum_sub_distrib]
  apply Finset.sum_congr rfl
  intro d _
  ring

theorem lfin_coe (m : Fin 512 → Fin 128 → ℝ) (nr : Fin 512 → ℝ) (xr : Fin 128 → ℝ) (y : BitVec 32) (k₀ : Fin 512)
    (h₀ : ∀ k : Fin 512, y = BitVec.ofNat 32 k.val ↔ k = k₀) (k : Fin 512) :
    lfin (fun k d => (m k d : EReal)) (fun k => (nr k : EReal)) (fun d => (xr d : EReal)) y
        (lselfOf (fun d => (xr d : EReal)) (fun d => (m k₀ d : EReal)) (nr k₀ : EReal)) k
      = (LR m nr xr y k : EReal) := by
  unfold lfin LR
  rw [one_eq, mul_one]
  by_cases h : y = BitVec.ofNat 32 k.val
  · have hk : k = k₀ := (h₀ k).mp h
    subst hk
    rw [if_pos h, if_pos h, lselfOf_coe]
  · rw [if_neg h, if_neg h, lgen_coe]

/-! ## The negative log-softmax of a real row, written both ways -/

theorem lse_rearr (l : Fin 512 → ℝ) (k₀ : Fin 512) :
    ((Finset.univ.sup fun k => (l k : EReal))
        + Ideal.log (∑ k : Fin 512, Ideal.exp ((l k : EReal) - Finset.univ.sup fun k => (l k : EReal))))
      - (l k₀ : EReal)
    = -(((l k₀ : EReal) - max ninf (Finset.univ.sup fun k => (l k : EReal)))
        - Ideal.log (∑ k : Fin 512, Ideal.exp ((l k : EReal) - max ninf (Finset.univ.sup fun k => (l k : EReal))))) := by
  obtain ⟨j, -, hj⟩ := Finset.exists_mem_eq_sup Finset.univ ⟨k₀, Finset.mem_univ _⟩ (fun k => (l k : EReal))
  rw [hj, ninf_eq, max_eq_right bot_le]
  simp only [← EReal.coe_sub, Ideal.exp_coe, coe_sum]
  have hpos : 0 < ∑ k : Fin 512, Real.exp (l k - l j) :=
    Finset.sum_pos (fun k _ => Real.exp_pos _) ⟨k₀, Finset.mem_univ _⟩
  rw [Ideal.log_coe, if_neg (not_le.mpr hpos)]
  simp only [← EReal.coe_sub, ← EReal.coe_add, ← EReal.coe_neg]
  congr 1
  ring

end MathRow

open MathRow

/-! ## One query -/

theorem row_eq (mu : Fin 512 → Fin 128 → EReal) (ct : Fin 512 → EReal) (x : Fin 128 → EReal) (y : BitVec 32)
    (hmu : ∀ k d, ∃ r : ℝ, mu k d = (r : EReal)) (hct : ∀ k, ∃ n : ℕ, ct k = ((n : ℝ) : EReal))
    (hx : ∀ d, ∃ r : ℝ, x d = (r : EReal)) (hy : y.toNat < 512) :
    nllK mu ct x y (fun d => mu (gidx 512 (by decide) y) d) (ct (gidx 512 (by decide) y)) = nllR mu ct x y := by
  have hct' : ∀ k, ∃ r : ℝ, ct k = (r : EReal) := fun k => let ⟨n, h⟩ := hct k; ⟨(n : ℝ), h⟩
  choose m hm using hmu
  choose nr hnr using hct'
  choose xr hxr using hx
  obtain rfl : mu = fun k d => (m k d : EReal) := funext fun k => funext fun d => hm k d
  obtain rfl : ct = fun k => (nr k : EReal) := funext hnr
  obtain rfl : x = fun d => (xr d : EReal) := funext hxr
  unfold nllK nllR
  have h₀ : ∀ k : Fin 512, y = BitVec.ofNat 32 k.val ↔ k = gidx 512 (by decide) y := eq_ofNat_iff y hy
  generalize gidx 512 (by decide) y = k₀ at h₀ ⊢
  have hK := funext (lfin_coe m nr xr y k₀ h₀)
  have hR := funext (logitR_coe m nr xr y)
  have hs : lselfOf (fun d => (xr d : EReal)) (fun d => (m k₀ d : EReal)) (nr k₀ : EReal) * one
      = (LR m nr xr y k₀ : EReal) := by
    have := lfin_coe m nr xr y k₀ h₀ k₀
    unfold lfin at this
    rwa [if_pos ((h₀ k₀).mpr rfl)] at this
  rw [hs, hK, hR]
  exact lse_rearr (LR m nr xr y) k₀

end Cert.Spec

end
-- ==== Proof.Math.lean ====
/-
  The two arrangements of the loss agree on finite vectors with every label a class.

  Three steps.  The kernel's class sums and counts run over the support set in 2 × 16 tiles of 2048 rows; the tiling is a
  bijection onto the set, and addition of extended reals is commutative and associative, so they are the sums over the
  whole set, and the sum of the one-hot entries of a class is the number of its points.  Then every query's two
  arrangements agree (the class sums are finite sums of products of 0 or 1 with a real, the counts are natural numbers,
  the query is real, its label is the label of a support point).  Last, the two halves of the queries make up all of
  them, and the product with 2⁻¹¹ is the quotient by 2048 for every extended real.
-/
import proofs.«413345_j40647570489383_3_alg».proof.Proof.Spec
import proofs.«413345_j40647570489383_3_alg».proof.Proof.MathRow

noncomputable section

namespace Cert.Spec

open Idealize.ShloMosaic Idealize.ShloMosaic.ValueIdx
open scoped BigOperators

/-! ## The two literals of the mean -/

theorem inv2048_eq : inv2048 = (((1 : ℝ) / 2048 : ℝ) : EReal) := by
  simp [Ideal.ofBits, Ideal.ieee, -EReal.coe_mul]; norm_num

theorem c2048_eq : c2048 = ((2048 : ℝ) : EReal) := by
  simp [Ideal.ofBits, Ideal.ieee, -EReal.coe_mul]; norm_num

/-! ## The tilings are bijections -/

/-- Half, tile and row within the tile against the support point: `s ↦ (s / 32768, s / 2048 mod 16, s mod 2048)` undoes `row`. -/
def rowEquiv : Fin 2 × Fin 16 × Fin 2048 ≃ Fin 65536 where
  toFun p := row p.1 p.2.1 p.2.2
  invFun s := (⟨s.val / 32768, by have := s.isLt; omega⟩, ⟨s.val / 2048 % 16, by omega⟩, ⟨s.val % 2048, by omega⟩)
  left_inv p := by
    obtain ⟨a, i, r⟩ := p
    have := a.isLt; have := i.isLt; have := r.isLt
    simp only [row, Prod.mk.injEq]
    refine ⟨Fin.ext ?_, Fin.ext ?_, Fin.ext ?_⟩ <;> simp only <;> omega
  right_inv s := by
    have := s.isLt
    simp only [row]
    exact Fin.ext (by simp only; omega)

/-- A sum walked tile by tile is the sum over the support set. -/
theorem sum_rows (f : Fin 65536 → EReal) :
    ∑ a : Fin 2, ∑ i : Fin 16, ∑ r : Fin 2048, f (row a i r) = ∑ s : Fin 65536, f s := by
  rw [← Equiv.sum_comp rowEquiv f, Fintype.sum_prod_type]
  refine Finset.sum_congr rfl fun a _ => ?_
  rw [Fintype.sum_prod_type]
  rfl

/-- Half and query within the half against the query: `s ↦ (s / 1024, s mod 1024)` undoes `qrow`. -/
def qrowEquiv : Fin 2 × Fin 1024 ≃ Fin 2048 where
  toFun p := qrow p.1 p.2
  invFun s := (⟨s.val / 1024, by have := s.isLt; omega⟩, ⟨s.val % 1024, by omega⟩)
  left_inv p := by
    obtain ⟨a, r⟩ := p
    have := a.isLt; have := r.isLt
    simp only [qrow, Prod.mk.injEq]
    refine ⟨Fin.ext ?_, Fin.ext ?_⟩ <;> simp only <;> omega
  right_inv s := by
    have := s.isLt
    simp only [qrow]
    exact Fin.ext (by simp only; omega)

/-- The two halves of the queries are all the queries. -/
theorem sum_qrows (g : Fin 2048 → EReal) :
    (∑ r : Fin 1024, g (qrow 0 r)) + ∑ r : Fin 1024, g (qrow 1 r) = ∑ i : Fin 2048, g i := by
  rw [← Equiv.sum_comp qrowEquiv g, Fintype.sum_prod_type, Fin.sum_univ_two]
  rfl

/-! ## Finite sums of reals -/

/-- A finite sum of reals, read in the extended reals, is the sum of the readings. -/
theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The one-hot entry is the real 1 or 0. -/
theorem ind_coe (y : BitVec 32) (k : ℕ) : ind y k = (((if y = BitVec.ofNat 32 k then 1 else 0 : ℝ)) : EReal) := by
  unfold ind; split <;> simp

/-- The one-hot entries of a class add up to the number of its points. -/
theorem sum_ind (ys : YS) (k : Fin 512) : ∑ s : Fin 65536, ind (ys (ix1 s)) k.val = cntI ys k := by
  simp only [ind_coe]
  rw [coe_sum, Finset.sum_boole]
  rfl

theorem real_of_finite {x : EReal} (h : x ≠ ⊤ ∧ x ≠ ⊥) : ∃ r : ℝ, x = (r : EReal) :=
  ⟨x.toReal, (EReal.coe_toReal h.1 h.2).symm⟩

/-- A class sum of finite vectors is real. -/
theorem musR_real (xs : XS) (ys : YS) (hs : FiniteArr xs) (k : Fin 512) (d : Fin 128) :
    ∃ r : ℝ, musR xs ys k d = (r : EReal) := by
  refine ⟨∑ s : Fin 65536, (if ys (ix1 s) = BitVec.ofNat 32 k.val then 1 else 0 : ℝ) * (xs (ix2 s d)).toReal, ?_⟩
  unfold musR
  rw [← coe_sum]
  refine Finset.sum_congr rfl fun s _ => ?_
  rw [EReal.coe_mul, EReal.coe_toReal (hs _).1 (hs _).2, ind_coe]

theorem cntI_nat (ys : YS) (k : Fin 512) : ∃ n : ℕ, cntI ys k = ((n : ℝ) : EReal) := ⟨_, rfl⟩

/-! ## The kernel's class sums and counts are the sums over the whole set -/

theorem musK_eq (xs : XS) (ys : YS) : musK xs ys = musR xs ys := by
  funext k d
  unfold musK musPart musR
  rw [← sum_rows (fun s => ind (ys (ix1 s)) k.val * xs (ix2 s d)), Fin.sum_univ_two]

theorem cntK_eq (ys : YS) : cntK ys = cntI ys := by
  funext k
  unfold cntK cntPart
  rw [← sum_ind, ← sum_rows (fun s => ind (ys (ix1 s)) k.val), Fin.sum_univ_two]

/-! ## One query -/

theorem term_eq (xq : XQ) (xs : XS) (ys : YS) (pos : POS) (hq : FiniteArr xq) (hs : FiniteArr xs) (hl : Labels ys)
    (i : Fin 2048) :
    nllK (musR xs ys) (cntI ys) (fun d => xq (ix2 i d)) (yq ys pos i)
        (fun d => musR xs ys (gidx 512 (by decide) (yq ys pos i)) d) (cntI ys (gidx 512 (by decide) (yq ys pos i)))
      = nllR (musR xs ys) (cntI ys) (fun d => xq (ix2 i d)) (yq ys pos i) :=
  row_eq (musR xs ys) (cntI ys) (fun d => xq (ix2 i d)) (yq ys pos i) (musR_real xs ys hs) (cntI_nat ys)
    (fun d => real_of_finite (hq _)) (hl _)

/-! ## The losses -/

theorem ker_eq_ref (xq : XQ) (xs : XS) (ys : YS) (pos : POS) (hq : FiniteArr xq) (hs : FiniteArr xs) (hl : Labels ys) :
    kerLoss xq xs ys pos = refLoss xq xs ys pos := by
  unfold kerLoss refLoss
  rw [musK_eq, cntK_eq]
  simp only [term_eq xq xs ys pos hq hs hl]
  rw [sum_qrows (fun i => nllR (musR xs ys) (cntI ys) (fun d => xq (ix2 i d)) (yq ys pos i)), c2048_eq,
    Ideal.div_coe (by norm_num), inv2048_eq]

end Cert.Spec

end
-- ==== Proof.Pre.lean ====
/-
  The precondition read: every query vector and every support vector is finite, and every label is a class.
-/
import proofs.«413345_j40647570489383_3_alg».proof.Proof.Gen.Pre_finite_inputs
import proofs.«413345_j40647570489383_3_alg».proof.Proof.Spec
import Idealize.ShloMosaic.Lib.ReduceAll
import Idealize.ShloMosaic.Lib.StableHlo.Predicate
import Idealize.ShloMosaic.Lib.ValueIdx

noncomputable section

namespace Cert.Proof

open Idealize.ShloMosaic Idealize.ShloMosaic.ValueIdx

namespace PreAux

/-- A rank-0 array has exactly one index: an index is a function out of the empty set of axes. -/
instance : Subsingleton Cert.Pre_finite_inputs.S_.Idx := ⟨fun a b => funext fun d => d.elim0⟩

/-- The f32 pattern with all exponent bits set, sign and fraction zero, denotes +∞. -/
theorem inf_bits : Ideal.ofBits .f32 0x7F800000#32 = ⊤ := by simp [Ideal.ofBits, Ideal.ieee]

/-- On the extended reals, |x| = max x (-x) lies strictly below +∞ only when x is neither infinity:
    x < ⊤ excludes ⊤, and -x < ⊤ excludes ⊥ since -⊥ = ⊤. -/
theorem finite_of_abs_lt (x : EReal)
    (h : Ideal.cmp .olt (max x (-x)) (Ideal.ofBits .f32 0x7F800000#32) = 1#1) : x ≠ ⊤ ∧ x ≠ ⊥ := by
  rw [inf_bits] at h
  unfold Ideal.cmp at h
  rw [StableHlo.Predicate.ofBool_eq_one_iff] at h
  have hlt : max x (-x) < ⊤ := of_decide_eq_true h
  rw [max_lt_iff] at hlt
  refine ⟨ne_of_lt hlt.1, ?_⟩
  intro hx
  rw [hx] at hlt
  exact absurd hlt.2 (by simp)

/-- A 32-bit word y with 0 ≤ y and y < 512 as signed integers has unsigned value below 512: a non-negative
    signed value is the unsigned value itself. -/
theorem label_range (y : BitVec 32) (h0 : IntOp.cmpi .sge y 0#32 = 1#1) (h1 : IntOp.cmpi .slt y 512#32 = 1#1) :
    y.toNat < 512 := by
  unfold IntOp.cmpi at h0 h1
  rw [StableHlo.Predicate.ofBool_eq_one_iff] at h0 h1
  simp only [BitVec.slt, BitVec.sle, decide_eq_true_eq] at h0 h1
  have e0 : (0#32).toInt = 0 := by decide
  have e1 : (512#32).toInt = 512 := by decide
  rw [e0] at h0
  rw [e1] at h1
  have hy := y.isLt
  rw [BitVec.toInt_eq_toNat_cond] at h0 h1
  split at h0 <;> omega

end PreAux

open PreAux in
/-- The precondition is a conjunction of three conjunctions over all entries: |xq| < +∞ everywhere,
    |xs| < +∞ everywhere, and 0 ≤ ys < 512 (signed) everywhere. Its value 1 gives each conjunct the value 1,
    and a conjunction over all entries with value 1 gives the entry's predicate the value 1 at every index. -/
theorem pre_decode (xq : Cert.Spec.XQ) (yq : (⟨1, ![2048]⟩ : Shape).Idx → BitVec 32) (xs : Cert.Spec.XS) (ys : Cert.Spec.YS) (pos : Cert.Spec.POS)
    (h : Cert.Pre_finite_inputs.fn (F := Ideal) xq yq xs ys pos = fun _ => 1#1) :
    Cert.Spec.FiniteArr xq ∧ Cert.Spec.FiniteArr xs ∧ Cert.Spec.Labels ys := by
  have h0 := congrFun h ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun s => ?_⟩
  · exact finite_of_abs_lt (xq i) (Host.reduce_andi_all _ _ _ _ _ h1 i)
  · exact finite_of_abs_lt (xs i) (Host.reduce_andi_all _ _ _ _ _ h2 i)
  · obtain ⟨ha, hb⟩ := IntOp.andi_eq_one.1 (Host.reduce_andi_all _ _ _ _ _ h3 (ix1 s))
    exact label_range (ys (ix1 s)) ha hb

end Cert.Proof

end
-- ==== Proof.lean ====
/-
  A leave-one-out prototypical-network loss: 2048 queries against 65536 labelled support points in 512 classes.

  The kernel program sums the support vectors and counts the support points class by class in one call (a one-hot
  product and its column sums, accumulated over the tiles of each half of the support set), reads each query's class off
  the support labels at the query's position, gathers that class's sum and count, and in a second call computes, per
  query, the logit of every class as minus half the squared distance to the class's prototype — expanded as
  -½‖x‖² + ⟨x, p⟩ − ½‖p‖² for the plain prototypes, and from the gathered row with the query itself left out for its own
  class —, the masked log-sum-exp, and the mean of the rows' losses.  The reference builds every leave-one-out prototype,
  takes the query's class as the arg-max of its one-hot row, and averages the negative log-softmax at that class.

  Over the extended reals the two are one number when every vector is finite (the expanded square needs it) and every
  label is a class (a label outside 0 … 511 gives an all-false one-hot row, whose arg-max is a tie the reference breaks
  to class 0 while the kernel keeps the label).  The three frames: each program runs to the end, nothing faults, and the
  argument arrays are left as launched.
-/
import proofs.«413345_j40647570489383_3_alg».proof.Defs
import proofs.«413345_j40647570489383_3_alg».proof.Proof.Gen.Kernel
import proofs.«413345_j40647570489383_3_alg».proof.Proof.Gen.KernelIdeal
import proofs.«413345_j40647570489383_3_alg».proof.Proof.Gen.ReferenceIdeal
import proofs.«413345_j40647570489383_3_alg».proof.Proof.Gen.Pre_finite_inputs
import proofs.«413345_j40647570489383_3_alg».proof.Proof.K.Launch
import proofs.«413345_j40647570489383_3_alg».proof.Proof.KI.Launch
import proofs.«413345_j40647570489383_3_alg».proof.Proof.KI.Chain
import proofs.«413345_j40647570489383_3_alg».proof.Proof.Ref.Run
import proofs.«413345_j40647570489383_3_alg».proof.Proof.Ref.Read
import proofs.«413345_j40647570489383_3_alg».proof.Proof.Math
import proofs.«413345_j40647570489383_3_alg».proof.Proof.Pre

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame m ρ

/-- So does the kernel program read over the extended reals. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both programs end at the loss: the kernel program at its own arrangement of it, the reference at the other, and the
    two arrangements agree on finite vectors with every label a class. -/
theorem algebraic : Cert.algebraic_KernelIdeal_ReferenceIdeal := by
  intro m ρ m' ρ' hpre hagree
  refine ⟨fun c _ => Cert.Spec.kerLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Hand.run_all (F := Ideal) m ρ)
    have hm : ∀ b : Ref Cert.KernelIdeal.sig .tc, ¬ (Proc.devRef .tc b : DevRef Cert.KernelIdeal.τ Cert.KernelIdeal.sig).isScoped →
        Proc.devRef .tc b ∈ Pipeline.ucRefs Cert.KernelIdeal.τ Cert.KernelIdeal.sig :=
      fun b hb => Finset.mem_filter.mpr ⟨StableHlo.devRef_mem_tcRefs b, hb⟩
    exact ⟨(h c _ (hm Cert.KernelIdeal.main_v43 (by decide))).trans (Cert.KernelIdeal.Hand.kernel_value m c),
      (h c _ (hm Cert.KernelIdeal.main_arg0 (by decide))).trans (Cert.KernelIdeal.Gen.V5_main_arg0 m _ c),
      (h c _ (hm Cert.KernelIdeal.main_arg1 (by decide))).trans (Cert.KernelIdeal.Gen.V5_main_arg1 m _ c),
      (h c _ (hm Cert.KernelIdeal.main_arg2 (by decide))).trans (Cert.KernelIdeal.Gen.V5_main_arg2 m _ c),
      (h c _ (hm Cert.KernelIdeal.main_arg3 (by decide))).trans (Cert.KernelIdeal.Gen.V5_main_arg3 m _ c),
      (h c _ (hm Cert.KernelIdeal.main_arg4 (by decide))).trans (Cert.KernelIdeal.Gen.V5_main_arg4 m _ c)⟩
  · refine (θ_run Cert.ReferenceIdeal.defs _ _).mono (fun r h c => ⟨(h c).1.trans ?_, (h c).2⟩)
      (Cert.ReferenceIdeal.Hand.run (F := Ideal) m' ρ')
    obtain ⟨h0, -, h2, h3, h4⟩ := hagree c
    obtain ⟨hq, hs, hl⟩ := pre_decode _ _ _ _ _ (hpre c)
    rw [h0, h2, h3, h4, Cert.ReferenceIdeal.Hand.ref_value _ _ _ _ hl]
    exact funext fun _ => (Cert.Spec.ker_eq_ref _ _ _ _ hq hs hl).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
